-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S1x64 : Shape := ⟨2, ![1, 64]⟩
abbrev S100000x64 : Shape := ⟨2, ![100000, 64]⟩
abbrev S64x128 : Shape := ⟨2, ![64, 128]⟩
abbrev S5000x64 : Shape := ⟨2, ![5000, 64]⟩
abbrev S64x64 : Shape := ⟨2, ![64, 64]⟩
abbrev S1x1 : Shape := ⟨2, ![1, 1]⟩

abbrev nBuf : Space → Nat
  | .hbm => 145
  | .vmem => 35
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x128, .f32⟩
  | 78 => ⟨S1700000x1, .f32⟩
  | 79 => ⟨S1700000x128, .f32⟩
  | 80 => ⟨S1700000x128, .f32⟩
  | 81 => ⟨S_, .f32⟩
  | 82 => ⟨S100000x128, .f32⟩
  | 83 => ⟨S1700000x1, .i32⟩
  | 84 => ⟨S100000x128, .f32⟩
  | 85 => ⟨S1x128, .f32⟩
  | 86 => ⟨S100000x128, .f32⟩
  | 87 => ⟨S100000x128, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x128, .f32⟩
  | 97 => ⟨S1700000x1, .f32⟩
  | 98 => ⟨S1700000x128, .f32⟩
  | 99 => ⟨S1700000x128, .f32⟩
  | 100 => ⟨S_, .f32⟩
  | 101 => ⟨S100000x128, .f32⟩
  | 102 => ⟨S1700000x1, .i32⟩
  | 103 => ⟨S100000x128, .f32⟩
  | 104 => ⟨S1x128, .f32⟩
  | 105 => ⟨S100000x128, .f32⟩
  | 106 => ⟨S64, .i32⟩
  | 107 => ⟨S100000x1, .i32⟩
  | 108 => ⟨S1x64, .i32⟩
  | 109 => ⟨S100000x64, .i32⟩
  | 110 => ⟨S100000x64, .i32⟩
  | 111 => ⟨S100000x64, .i1⟩
  | 112 => ⟨S100000x64, .bf16⟩
  | 113 => ⟨S64x128, .f32⟩
  | 114 => ⟨S_, .f32⟩
  | 115 => ⟨S100000, .f32⟩
  | 116 => ⟨S_, .f32⟩
  | 117 => ⟨S64, .f32⟩
  | 118 => ⟨S100000x1, .i32⟩
  | 119 => ⟨S64, .f32⟩
  | 120 => ⟨S_, .f32⟩
  | 121 => ⟨S64, .f32⟩
  | 122 => ⟨S64, .f32⟩
  | 123 => ⟨S64x1, .f32⟩
  | 124 => ⟨S64x128, .f32⟩
  | 125 => ⟨S64x128, .f32⟩
  | 126 => ⟨S64x64, .f32⟩
  | 127 => ⟨S1x64, .f32⟩
  | _ => ⟨S100000x128, .f32⟩

abbrev hbmTy0_1 (i : Nat) : BufTy := match i % 128 with
  | 0 => ⟨S64x64, .f32⟩
  | 1 => ⟨S64x64, .f32⟩
  | 2 => ⟨S_, .f32⟩
  | 3 => ⟨S64x64, .f32⟩
  | 4 => ⟨S64x64, .f32⟩
  | 5 => ⟨S64x1, .f32⟩
  | 6 => ⟨S1x1, .f32⟩
  | 7 => ⟨S64x1, .f32⟩
  | 8 => ⟨S64x1, .f32⟩
  | 9 => ⟨S64x1, .f32⟩
  | 10 => ⟨S64x1, .f32⟩
  | 11 => ⟨S_, .f32⟩
  | 12 => ⟨S64x1, .f32⟩
  | 13 => ⟨S64x1, .f32⟩
  | 14 => ⟨S_, .f32⟩
  | 15 => ⟨S64x1, .f32⟩
  | 16 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x64, .bf16⟩
  | .local _ .vmem, ⟨33, _⟩ => ⟨S5000x64, .bf16⟩
  | .local _ .vmem, ⟨34, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_13 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_call0_cst : Ref sig .tc := ⟨.hbm, 130, rfl⟩
abbrev main_call0_v0 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_17 : Ref sig .tc := ⟨.hbm, 139, rfl⟩
abbrev main_v105 : Ref sig .tc := ⟨.hbm, 140, rfl⟩
abbrev main_v106 : Ref sig .tc := ⟨.hbm, 141, rfl⟩
abbrev main_cst_18 : Ref sig .tc := ⟨.hbm, 142, rfl⟩
abbrev main_v107 : Ref sig .tc := ⟨.hbm, 143, rfl⟩
abbrev main_v108 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S64x128_S64x128_0_0 : ∀ a, (![0, 0] : Fin 2 → Nat) a + S64x128.size a ≤ S64x128.size a
  h_S64x128 : 0 < S64x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x128_S64x128 : S64x128.ShapeCasts S64x128
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S5000x128_S64x128_0_0_1_1_n_n_wf : DotDims.WF S5000x64 S5000x128 S64x128 [0] [0] [1] [1] [] []
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .bf16 = 32 ∨ (Rect.block (s := S100000x64) S5000x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v84) S64x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64x64 : Shape := ⟨2, ![64, 64]⟩
abbrev S1x64 : Shape := ⟨2, ![1, 64]⟩
abbrev S1x1 : Shape := ⟨2, ![1, 1]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .i1⟩
  | 72 => ⟨S_, .f32⟩
  | 73 => ⟨S100000x128, .f32⟩
  | 74 => ⟨S100000x128, .i1⟩
  | 75 => ⟨S_, .f32⟩
  | 76 => ⟨S_, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S100000x128, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000x128, .f32⟩
  | 94 => ⟨S1700000x1, .f32⟩
  | 95 => ⟨S1700000x128, .f32⟩
  | 96 => ⟨S1700000x128, .f32⟩
  | 97 => ⟨S_, .f32⟩
  | 98 => ⟨S100000x128, .f32⟩
  | 99 => ⟨S1700000x1, .i32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .i1⟩
  | 107 => ⟨S_, .f32⟩
  | 108 => ⟨S100000x128, .f32⟩
  | 109 => ⟨S100000x128, .i1⟩
  | 110 => ⟨S_, .f32⟩
  | 111 => ⟨S_, .f32⟩
  | 112 => ⟨S100000x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_1 (i : Nat) : BufTy := match i % 128 with
  | 0 => ⟨S1700000x128, .f32⟩
  | 1 => ⟨S1700000x1, .f32⟩
  | 2 => ⟨S1700000x128, .f32⟩
  | 3 => ⟨S1700000x128, .f32⟩
  | 4 => ⟨S_, .f32⟩
  | 5 => ⟨S100000x128, .f32⟩
  | 6 => ⟨S1700000x1, .i32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S100000x128, .f32⟩
  | 13 => ⟨S100000x128, .i1⟩
  | 14 => ⟨S_, .f32⟩
  | 15 => ⟨S100000x128, .f32⟩
  | 16 => ⟨S100000x128, .i1⟩
  | 17 => ⟨S_, .f32⟩
  | 18 => ⟨S_, .f32⟩
  | 19 => ⟨S100000x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S100000x128, .f32⟩
  | 26 => ⟨S_, .f32⟩
  | 27 => ⟨S64x128, .f32⟩
  | 28 => ⟨S100000x1, .i32⟩
  | 29 => ⟨S64x128, .f32⟩
  | 30 => ⟨S_, .f32⟩
  | 31 => ⟨S100000, .f32⟩
  | 32 => ⟨S_, .f32⟩
  | 33 => ⟨S64, .f32⟩
  | 34 => ⟨S100000x1, .i32⟩
  | 35 => ⟨S64, .f32⟩
  | 36 => ⟨S_, .f32⟩
  | 37 => ⟨S64, .f32⟩
  | 38 => ⟨S64, .f32⟩
  | 39 => ⟨S64x1, .f32⟩
  | 40 => ⟨S64x128, .f32⟩
  | 41 => ⟨S64x128, .f32⟩
  | 42 => ⟨S64x64, .f32⟩
  | 43 => ⟨S1x64, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S64x1, .f32⟩
  | 50 => ⟨S1x1, .f32⟩
  | 51 => ⟨S64x1, .f32⟩
  | 52 => ⟨S64x1, .f32⟩
  | 53 => ⟨S64x1, .f32⟩
  | 54 => ⟨S64x1, .f32⟩
  | 55 => ⟨S_, .f32⟩
  | 56 => ⟨S64x1, .f32⟩
  | 57 => ⟨S64x1, .f32⟩
  | 58 => ⟨S_, .f32⟩
  | 59 => ⟨S64x1, .f32⟩
  | 60 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_cst_0 : Ref sig .tc := ⟨.hbm, 72, rfl⟩
abbrev main_call0_v2 : Ref sig .tc := ⟨.hbm, 73, rfl⟩
abbrev main_call0_v3 : Ref sig .tc := ⟨.hbm, 74, rfl⟩
abbrev main_call0_cst_1 : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_v4 : Ref sig .tc := ⟨.hbm, 78, rfl⟩
abbrev main_call0_v5 : Ref sig .tc := ⟨.hbm, 79, rfl⟩
abbrev main_call0_cst_2 : Ref sig .tc := ⟨.hbm, 80, rfl⟩
abbrev main_call0_v6 : Ref sig .tc := ⟨.hbm, 81, rfl⟩
abbrev main_call0_v7 : Ref sig .tc := ⟨.hbm, 82, rfl⟩
abbrev main_v46 : Ref sig .tc := ⟨.hbm, 83, rfl⟩
abbrev main_v47 : Ref sig .tc := ⟨.hbm, 84, rfl⟩
abbrev main_c_8 : Ref sig .tc := ⟨.hbm, 85, rfl⟩
abbrev main_v48 : Ref sig .tc := ⟨.hbm, 86, rfl⟩
abbrev main_v49 : Ref sig .tc := ⟨.hbm, 87, rfl⟩
abbrev main_c_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_10 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_call1_cst : Ref sig .tc := ⟨.hbm, 104, rfl⟩
abbrev main_call1_v0 : Ref sig .tc := ⟨.hbm, 105, rfl⟩
abbrev main_call1_v1 : Ref sig .tc := ⟨.hbm, 106, rfl⟩
abbrev main_call1_cst_0 : Ref sig .tc := ⟨.hbm, 107, rfl⟩
abbrev main_call1_v2 : Ref sig .tc := ⟨.hbm, 108, rfl⟩
abbrev main_call1_v3 : Ref sig .tc := ⟨.hbm, 109, rfl⟩
abbrev main_call1_cst_1 : Ref sig .tc := ⟨.hbm, 110, rfl⟩
abbrev main_call1_call0_v0 : Ref sig .tc := ⟨.hbm, 111, rfl⟩
abbrev main_call1_call0_v1 : Ref sig .tc := ⟨.hbm, 112, rfl⟩
abbrev main_call1_v4 : Ref sig .tc := ⟨.hbm, 113, rfl⟩
abbrev main_call1_v5 : Ref sig .tc := ⟨.hbm, 114, rfl⟩
abbrev main_call1_cst_2 : Ref sig .tc := ⟨.hbm, 115, rfl⟩
abbrev main_call1_v6 : Ref sig .tc := ⟨.hbm, 116, rfl⟩
abbrev main_call1_v7 : Ref sig .tc := ⟨.hbm, 117, rfl⟩
abbrev main_v64 : Ref sig .tc := ⟨.hbm, 118, rfl⟩
abbrev main_v65 : Ref sig .tc := ⟨.hbm, 119, rfl⟩
abbrev main_c_11 : Ref sig .tc := ⟨.hbm, 120, rfl⟩
abbrev main_v66 : Ref sig .tc := ⟨.hbm, 121, rfl⟩
abbrev main_v67 : Ref sig .tc := ⟨.hbm, 122, rfl⟩
abbrev main_c_12 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_13 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_cst_0 : Ref sig .tc := ⟨.hbm, 142, rfl⟩
abbrev main_call2_v2 : Ref sig .tc := ⟨.hbm, 143, rfl⟩
abbrev main_call2_v3 : Ref sig .tc := ⟨.hbm, 144, rfl⟩
abbrev main_call2_cst_1 : Ref sig .tc := ⟨.hbm, 145, rfl⟩
abbrev main_call2_call0_v0 : Ref sig .tc := ⟨.hbm, 146, rfl⟩
abbrev main_call2_call0_v1 : Ref sig .tc := ⟨.hbm, 147, rfl⟩
abbrev main_call2_v4 : Ref sig .tc := ⟨.hbm, 148, rfl⟩
abbrev main_call2_v5 : Ref sig .tc := ⟨.hbm, 149, rfl⟩
abbrev main_call2_cst_2 : Ref sig .tc := ⟨.hbm, 150, rfl⟩
abbrev main_call2_v6 : Ref sig .tc := ⟨.hbm, 151, rfl⟩
abbrev main_call2_v7 : Ref sig .tc := ⟨.hbm, 152, rfl⟩
abbrev main_v82 : Ref sig .tc := ⟨.hbm, 153, rfl⟩
abbrev main_cst_14 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_15 : Ref sig .tc := ⟨.hbm, 158, rfl⟩
abbrev main_v86 : Ref sig .tc := ⟨.hbm, 159, rfl⟩
abbrev main_cst_16 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_cst_17 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_call3_cst : Ref sig .tc := ⟨.hbm, 174, rfl⟩
abbrev main_call3_v0 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_cst_18 : Ref sig .tc := ⟨.hbm, 183, rfl⟩
abbrev main_v106 : Ref sig .tc := ⟨.hbm, 184, rfl⟩
abbrev main_v107 : Ref sig .tc := ⟨.hbm, 185, rfl⟩
abbrev main_cst_19 : Ref sig .tc := ⟨.hbm, 186, rfl⟩
abbrev main_v108 : Ref sig .tc := ⟨.hbm, 187, rfl⟩
abbrev main_v109 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KOps.lean ====
/-
  The host stretches of the idealized kernel program, read as functions of the arrays they consume.

  Between its seven kernel regions the program runs the same plain operations the reference runs: the edge list with the
  self loops appended (`srcOf`, `dstOf`), the symmetric normalisation d(src)^(-1/2) · d(dst)^(-1/2) from the in-degree
  counts (`normOf`), per layer the gather of the projected rows at the sources, their scaling by the normalisation and
  the scatter-add at the destinations (`aggOf`), the bias vector as a row (`rowOf`), the graph-membership matrix of the
  pool (`onehotOf`), and after the pool the division by the graph sizes and the two-layer head with its sigmoid
  (`headOf`).  Each lemma says what one stretch leaves in one buffer, from ANY buffer contents before it.
-/
import proofs.«424757_j85409719648815_1_alg».proof.Proof.Gen.KernelIdeal.Launch
import Idealize.ShloMosaic.Lib.StableHlo.Run
import Idealize.ShloMosaic.PureOps.Ideal

set_option maxRecDepth 16384

noncomputable section

namespace Cert.KernelIdeal.Ch

open Idealize.ShloMosaic Idealize.ShloMosaic.TcCoe Idealize.ShloMosaic.StableHlo Idealize.SL.Sem
open Cert.KernelIdeal Cert.KernelIdeal.Gen

/-- An edge-index row of 1,600,000 entries followed by the 100,000 self loops 0, 1, 2, … -/
def withLoops (row : IVec S1600000 32) : IVec S1700000 32 :=
  concatenate S1700000 0 [⟨S1600000, row⟩, ⟨S100000, iotaInDim S100000 32 0⟩] concatenates_S1600000_S100000_S1700000_d0

/-- The sources: row 0 of the edge list, then the self loops. -/
def srcOf (ei : IVec S2x1600000 32) : IVec S1700000 32 :=
  withLoops (shapeCast S1600000 (extractStridedSlice S1x1600000 ![0, 0] ei slices_S2x1600000_S1x1600000_0_0) shapeCasts_S1x1600000_S1600000)

/-- The destinations: row 1 of the edge list, then the self loops. -/
def dstOf (ei : IVec S2x1600000 32) : IVec S1700000 32 :=
  withLoops (shapeCast S1600000 (extractStridedSlice S1x1600000 ![1, 0] ei slices_S2x1600000_S1x1600000_1_0) shapeCasts_S1x1600000_S1600000)

/-- A node index with the negative ones wrapped once by the node count, as a column of gather starts. -/
def wrapIdx (ix : IVec S1700000 32) : IVec S1700000x1 32 :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- d^(-1/2) of the in-degree counts clipped below at one. -/
def dinvOf (dst : IVec S1700000 32) : FVec Ideal S100000 .f32 :=
  Host.rsqrt (maximumf
    (Host.scatterAdd scatter_S100000_S1700000x1_S1700000_n_0_0_1
      (broadcastInDim S100000 ![] bcast_S_S100000 (constant S_ .f32 0x00000000#32))
      (broadcastInDim S1700000x1 ![0] bcast_S1700000_S1700000x1_0 dst)
      (broadcastInDim S1700000 ![] bcast_S_S1700000 (constant S_ .f32 0x3F800000#32)))
    (broadcastInDim S100000 ![] bcast_S_S100000 (constant S_ .f32 0x3F800000#32)))

/-- The per-edge normalisation d(src)^(-1/2) · d(dst)^(-1/2). -/
def normOf (src dst : IVec S1700000 32) : FVec Ideal S1700000 .f32 :=
  mulf (Host.gather gather_S100000_S1700000x1_S1700000_n_0_n_n_0_1_1 (dinvOf dst) (wrapIdx src))
    (Host.gather gather_S100000_S1700000x1_S1700000_n_0_n_n_0_1_1 (dinvOf dst) (wrapIdx dst))

/-- One layer's aggregation: the projected rows gathered at the sources, scaled by the normalisation, summed at the
    destinations into zeros. -/
def aggOf (src dst : IVec S1700000 32) (norm : FVec Ideal S1700000 .f32) (hlin : FVec Ideal S100000x128 .f32) :
    FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 hlin (wrapIdx src))
      (broadcastInDim S1700000x128 ![0, 1] bcast_S1700000x1_S1700000x128_0_1
        (broadcastInDim S1700000x1 ![0] bcast_S1700000_S1700000x1_0 norm)))

/-- A bias vector as a one-row array. -/
def rowOf (b : FVec Ideal S128 .f32) : FVec Ideal S1x128 .f32 := shapeCast S1x128 b shapeCasts_S128_S1x128

/-- The graph-membership matrix: entry (node, graph) is one where the node's graph id is that graph, else zero. -/
def onehotOf (batch : IVec S100000 32) : FVec Ideal S100000x64 .bf16 :=
  uitofp .bf16 (cmpi .eq
    (broadcastInDim S100000x64 ![0, 1] bcast_S100000x1_S100000x64_0_1 (broadcastInDim S100000x1 ![0] bcast_S100000_S100000x1_0 batch))
    (broadcastInDim S100000x64 ![0, 1] bcast_S1x64_S100000x64_0_1 (broadcastInDim S1x64 ![1] bcast_S64_S1x64_1 (iotaInDim S64 32 0))))

/-- The mean over each graph's nodes (the sums over the node counts clipped below at one). -/
def meanOf (sums : FVec Ideal S64x128 .f32) (batch : IVec S100000 32) : FVec Ideal S64x128 .f32 :=
  Host.divf sums
    (broadcastInDim S64x128 ![0, 1] bcast_S64x1_S64x128_0_1 (broadcastInDim S64x1 ![0] bcast_S64_S64x1_0
      (maximumf
        (Host.scatterAdd scatter_S64_S100000x1_S100000_n_0_0_1
          (broadcastInDim S64 ![] bcast_S_S64 (constant S_ .f32 0x00000000#32))
          (broadcastInDim S100000x1 ![0] bcast_S100000_S100000x1_0 batch)
          (broadcastInDim S100000 ![] bcast_S_S100000 (constant S_ .f32 0x3F800000#32)))
        (broadcastInDim S64 ![] bcast_S_S64 (constant S_ .f32 0x3F800000#32)))))

/-- The hidden layer of the head before its rectifier: g · Wc1 + bc1. -/
def hiddenOf (sums : FVec Ideal S64x128 .f32) (batch : IVec S100000 32) (wc1 : FVec Ideal S128x64 .f32)
    (bc1 : FVec Ideal S64 .f32) : FVec Ideal S64x64 .f32 :=
  addf (Host.dotGeneral dot_S64x128_S128x64_S64x64_1_0_0_1_n_n none (meanOf sums batch) wc1)
    (broadcastInDim S64x64 ![0, 1] bcast_S1x64_S64x64_0_1 (broadcastInDim S1x64 ![1] bcast_S64_S1x64_1 bc1))

/-- The rectifier. -/
def reluOf (z : FVec Ideal S64x64 .f32) : FVec Ideal S64x64 .f32 :=
  maximumf z (broadcastInDim S64x64 ![] bcast_S_S64x64 (constant S_ .f32 0x00000000#32))

/-- The output layer and the sigmoid 1 / (1 + exp(−logit)). -/
def sigmoidOf (z : FVec Ideal S64x64 .f32) (wc2 : FVec Ideal S64x1 .f32) (bc2 : FVec Ideal S1 .f32) : FVec Ideal S64x1 .f32 :=
  Host.divf (broadcastInDim S64x1 ![] bcast_S_S64x1 (constant S_ .f32 0x3F800000#32))
    (addf (broadcastInDim S64x1 ![] bcast_S_S64x1 (constant S_ .f32 0x3F800000#32))
      (Host.exp (Host.negf
        (addf (Host.dotGeneral dot_S64x64_S64x1_S64x1_1_0_0_1_n_n none z wc2)
          (broadcastInDim S64x1 ![0, 1] bcast_S1x1_S64x1_0_1 (broadcastInDim S1x1 ![1] bcast_S1_S1x1_1 bc2))))))

/-- Everything after the pool: mean, hidden layer, rectifier, output layer, sigmoid. -/
def headOf (sums : FVec Ideal S64x128 .f32) (batch : IVec S100000 32) (wc1 : FVec Ideal S128x64 .f32)
    (bc1 : FVec Ideal S64 .f32) (wc2 : FVec Ideal S64x1 .f32) (bc2 : FVec Ideal S1 .f32) : FVec Ideal S64x1 .f32 :=
  sigmoidOf (reluOf (hiddenOf sums batch wc1 bc1)) wc2 bc2

variable (V : Valuation τ sig (Elt Ideal))

/-! ## The first stretch, cut after its two concatenations -/

theorem src_read : StableHlo.after ((hostOps0 (F := Ideal)).take 7) V (Proc.devRef .tc main_v3) = srcOf (V (Proc.devRef .tc main_arg1)) := by
  simp only [hostOps0, List.take]
  after_results
  rfl

theorem dst_read : StableHlo.after ((hostOps0 (F := Ideal)).take 7) V (Proc.devRef .tc main_v6) = dstOf (V (Proc.devRef .tc main_arg1)) := by
  simp only [hostOps0, List.take]
  after_results
  rfl

theorem norm_read : StableHlo.after ((hostOps0 (F := Ideal)).drop 7) V (Proc.devRef .tc main_v28)
    = normOf (V (Proc.devRef .tc main_v3)) (V (Proc.devRef .tc main_v6)) := by
  simp only [hostOps0, List.drop]
  after_results_simp
  rfl

/-! ## The stretches between the regions -/

theorem agg1_read : StableHlo.after (hostOps1 (F := Ideal)) V (Proc.devRef .tc main_v42)
    = aggOf (V (Proc.devRef .tc main_v3)) (V (Proc.devRef .tc main_v6)) (V (Proc.devRef .tc main_v28)) (V (Proc.devRef .tc main_v29)) := by
  simp only [hostOps1]
  after_results_simp
  rfl

theorem row1_read : StableHlo.after (hostOps1 (F := Ideal)) V (Proc.devRef .tc main_v43) = rowOf (V (Proc.devRef .tc main_arg4)) := by
  simp only [hostOps1]
  after_results_simp
  rfl

theorem agg3_read : StableHlo.after (hostOps3 (F := Ideal)) V (Proc.devRef .tc main_v58)
    = aggOf (V (Proc.devRef .tc main_v3)) (V (Proc.devRef .tc main_v6)) (V (Proc.devRef .tc main_v28)) (V (Proc.devRef .tc main_v45)) := by
  simp only [hostOps3]
  after_results_simp
  rfl

theorem row3_read : StableHlo.after (hostOps3 (F := Ideal)) V (Proc.devRef .tc main_v59) = rowOf (V (Proc.devRef .tc main_arg6)) := by
  simp only [hostOps3]
  after_results_simp
  rfl

theorem agg5_read : StableHlo.after (hostOps5 (F := Ideal)) V (Proc.devRef .tc main_v74)
    = aggOf (V (Proc.devRef .tc main_v3)) (V (Proc.devRef .tc main_v6)) (V (Proc.devRef .tc main_v28)) (V (Proc.devRef .tc main_v61)) := by
  simp only [hostOps5]
  after_results_simp
  rfl

theorem row5_read : StableHlo.after (hostOps5 (F := Ideal)) V (Proc.devRef .tc main_v75) = rowOf (V (Proc.devRef .tc main_arg8)) := by
  simp only [hostOps5]
  after_results_simp
  rfl

theorem onehot_read : StableHlo.after (hostOps6 (F := Ideal)) V (Proc.devRef .tc main_v83) = onehotOf (V (Proc.devRef .tc main_arg2)) := by
  simp only [hostOps6]
  after_results_simp
  rfl

/-! ## After the pool -/

theorem hidden_read : StableHlo.after (hostOps7 (F := Ideal)) V (Proc.devRef .tc main_v97)
    = hiddenOf (V (Proc.devRef .tc main_v84)) (V (Proc.devRef .tc main_arg2)) (V (Proc.devRef .tc main_arg9)) (V (Proc.devRef .tc main_arg10)) := by
  simp only [hostOps7]
  after_results_simp
  rfl

theorem relu_read : StableHlo.after (hostOps7_1 (F := Ideal)) V (Proc.devRef .tc main_v98) = reluOf (V (Proc.devRef .tc main_v97)) := by
  simp only [hostOps7_1, after_cons, after_nil]
  rfl

theorem sigmoid_read : StableHlo.after (hostOps7_2 (F := Ideal)) V (Proc.devRef .tc main_v108)
    = sigmoidOf (V (Proc.devRef .tc main_v98)) (V (Proc.devRef .tc main_arg11)) (V (Proc.devRef .tc main_arg12)) := by
  simp only [hostOps7_2]
  after_results_simp
  rfl

/-! ## Cutting a stretch in two -/

theorem hostOps0_cut : (hostOps0 (F := Ideal)) = (hostOps0 (F := Ideal)).take 7 ++ (hostOps0 (F := Ideal)).drop 7 :=
  (List.take_append_drop 7 _).symm

end Cert.KernelIdeal.Ch

/-- A literal stretch of host operations leaves a buffer none of them writes as it was: each operation's one written
    buffer is told apart from the given one by deciding the inequality of the two references. -/
macro "kept_over" ops:term : tactic =>
  `(tactic| exact Idealize.ShloMosaic.StableHlo.after_of_forall_not_mem _ _ (List.forall_iff_forall_mem.mp (by
      simp only [$ops:term, List.take, List.drop, List.Forall, Idealize.ShloMosaic.StableHlo.nullary_writes, Idealize.ShloMosaic.StableHlo.unary_writes,
        Idealize.ShloMosaic.StableHlo.binary_writes, Idealize.ShloMosaic.StableHlo.ternary_writes, Idealize.ShloMosaic.StableHlo.quaternary_writes,
        Idealize.ShloMosaic.StableHlo.reshape_writes, Idealize.ShloMosaic.StableHlo.binaryIndexed_writes, Finset.mem_singleton]
      repeat' apply And.intro
      all_goals exact Idealize.ShloMosaic.StableHlo.devRef_ne_of_ne (by decide))))

namespace Cert.KernelIdeal.Ch

open Idealize.ShloMosaic Idealize.ShloMosaic.TcCoe Idealize.ShloMosaic.StableHlo Idealize.SL.Sem
open Cert.KernelIdeal Cert.KernelIdeal.Gen

-- the macro at work, once per kind of stretch
example (V : Valuation τ sig (Elt Ideal)) : StableHlo.after (hostOps1 (F := Ideal)) V (Proc.devRef .tc main_v3) = V (Proc.devRef .tc main_v3) := by
  kept_over hostOps1
example (V : Valuation τ sig (Elt Ideal)) : StableHlo.after ((hostOps0 (F := Ideal)).drop 7) V (Proc.devRef .tc main_v3) = V (Proc.devRef .tc main_v3) := by
  kept_over hostOps0
example (V : Valuation τ sig (Elt Ideal)) : StableHlo.after (hostOps7_1 (F := Ideal)) V (Proc.devRef .tc main_arg11) = V (Proc.devRef .tc main_arg11) := by
  kept_over hostOps7_1

end Cert.KernelIdeal.Ch

end
-- ==== Proof.Gcn.lean ====
/-
  The three array functions a graph-convolution layer and the mean pool are made of, over the extended reals,
  index by index and at abstract extents.

  * `mm x w` is the matrix product: entry (p, q) is the sum over k of x(p, k) · w(k, q).
  * `biasElu a b` adds the bias row b to every row of a and applies ELU entrywise: ELU(s) is s where s is
    positive and exp(s) − 1 elsewhere.
  * `pool h oh` contracts the node axis of a membership matrix oh (one column per graph) against the node
    features h: entry (g, q) is the sum over nodes r of oh(r, g) · h(r, q).
-/
import Idealize.ShloMosaic.PureOps.Ideal
import Idealize.ShloMosaic.Lib.ValueIdx

noncomputable section

namespace Gcn

open Idealize.ShloMosaic Idealize.ShloMosaic.ValueIdx

/-- The matrix product of a [R, K] array with a [K, C] array. -/
def mm {R K C : Nat} (x : FVec Ideal ⟨2, ![R, K]⟩ .f32) (w : FVec Ideal ⟨2, ![K, C]⟩ .f32) :
    FVec Ideal ⟨2, ![R, C]⟩ .f32 :=
  fun j => ∑ k : Fin K, x (ix2 (j 0) k) * w (ix2 k (j 1))

/-- ELU on one extended real: the identity on the positives, exp − 1 elsewhere. -/
def elu1 (s : EReal) : EReal := if 0 < s then s else Ideal.exp s - 1

/-- Add the bias row to every row, then ELU entrywise. -/
def biasElu {R C : Nat} (a : FVec Ideal ⟨2, ![R, C]⟩ .f32) (b : FVec Ideal ⟨2, ![1, C]⟩ .f32) :
    FVec Ideal ⟨2, ![R, C]⟩ .f32 :=
  fun j => elu1 (a j + b (ix2 (0 : Fin 1) (j 1)))

/-- The membership matrix's node axis contracted against the node features. -/
def pool {N G C : Nat} (h : FVec Ideal ⟨2, ![N, C]⟩ .f32) (oh : FVec Ideal ⟨2, ![N, G]⟩ .bf16) :
    FVec Ideal ⟨2, ![G, C]⟩ .f32 :=
  fun j => ∑ r : Fin N, oh (ix2 r (j 0)) * h (ix2 r (j 1))

end Gcn

end
-- ==== Proof.KWalk.lean ====
/-
  The idealized kernel program's result as one function of its arguments.

  The program's buffer contents are followed from the launch memory through its fifteen segments: a host stretch leaves
  what its operations compute and keeps every buffer it does not write; a kernel region leaves its output array at the
  value of its grid of blocks and keeps every other buffer.  Three facts ride along: the arguments still hold their
  launch contents, the edge arrays (sources, destinations, normalisation) hold their functions of the edge list, and
  the current layer's features hold their function of the arguments.  At the end the result buffer holds
  `kOut`: three times (project, aggregate over the edges, add the bias and apply ELU), then the pool against the
  graph-membership matrix and the head.  What each region leaves is taken as a hypothesis here, one per region.
-/
import proofs.«424757_j85409719648815_1_alg».proof.Proof.Gen.KernelIdeal.Frame
import proofs.«424757_j85409719648815_1_alg».proof.Proof.KOps
import proofs.«424757_j85409719648815_1_alg».proof.Proof.Gcn

set_option maxRecDepth 16384

noncomputable section

namespace Cert.KernelIdeal.Walk

open Idealize.ShloMosaic Idealize.ShloMosaic.TcCoe Idealize.ShloMosaic.StableHlo Idealize.SL.Sem
open Cert.KernelIdeal Cert.KernelIdeal.Gen Cert.KernelIdeal.Ch

/-- The program's result as a function of its thirteen arguments. -/
def kOut (x : FVec Ideal S100000x128 .f32) (ei : IVec S2x1600000 32) (batch : IVec S100000 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (wc1 : FVec Ideal S128x64 .f32) (bc1 : FVec Ideal S64 .f32)
    (wc2 : FVec Ideal S64x1 .f32) (bc2 : FVec Ideal S1 .f32) : FVec Ideal S64x1 .f32 :=
  let s := srcOf ei
  let d := dstOf ei
  let n := normOf s d
  let h1 : FVec Ideal S100000x128 .f32 := Gcn.biasElu (aggOf s d n (Gcn.mm x w1)) (rowOf b1)
  let h2 : FVec Ideal S100000x128 .f32 := Gcn.biasElu (aggOf s d n (Gcn.mm h1 w2)) (rowOf b2)
  let h3 : FVec Ideal S100000x128 .f32 := Gcn.biasElu (aggOf s d n (Gcn.mm h2 w3)) (rowOf b3)
  headOf (Gcn.pool h3 (onehotOf batch)) batch wc1 bc1 wc2 bc2

variable (m : (ℓ : Loc nD τ sig) → Buf (Elt Ideal) ℓ) (ρ : Dev nD → PrngReg) (c : Dev nD)

/-- Every argument of the list still holds its launch contents. -/
def ArgsAt (L : List (Ref sig .tc)) (W : Valuation τ sig (Elt Ideal)) : Prop :=
  ∀ b ∈ L, W (Proc.devRef .tc b) = m ((c : Thread nD τ).loc b)

/-- The three edge arrays hold their functions of the edge list. -/
def EdgeAt (W : Valuation τ sig (Elt Ideal)) : Prop :=
  W (Proc.devRef .tc main_v3) = srcOf (m ((c : Thread nD τ).loc main_arg1))
  ∧ W (Proc.devRef .tc main_v6) = dstOf (m ((c : Thread nD τ).loc main_arg1))
  ∧ W (Proc.devRef .tc main_v28) = normOf (srcOf (m ((c : Thread nD τ).loc main_arg1))) (dstOf (m ((c : Thread nD τ).loc main_arg1)))

abbrev A1 : List (Ref sig .tc) := [main_arg0, main_arg2, main_arg3, main_arg4, main_arg5, main_arg6, main_arg7, main_arg8, main_arg9, main_arg10, main_arg11, main_arg12]
abbrev A2 : List (Ref sig .tc) := [main_arg2, main_arg4, main_arg5, main_arg6, main_arg7, main_arg8, main_arg9, main_arg10, main_arg11, main_arg12]
abbrev A5 : List (Ref sig .tc) := [main_arg2, main_arg6, main_arg7, main_arg8, main_arg9, main_arg10, main_arg11, main_arg12]
abbrev A8 : List (Ref sig .tc) := [main_arg2, main_arg8, main_arg9, main_arg10, main_arg11, main_arg12]

/-! ## The arguments, boundary by boundary -/

theorem args1 : ArgsAt m c A1 (W1 m ρ c) := by
  intro b hb
  simp only [List.mem_cons, List.mem_singleton, List.not_mem_nil, or_false] at hb
  rcases hb with rfl | rfl | rfl | rfl | rfl | rfl | rfl | rfl | rfl | rfl | rfl | rfl
  all_goals exact Eq.trans (by kept_over hostOps0) rfl

theorem args2 (h : ArgsAt m c A1 (W1 m ρ c)) : ArgsAt m c A2 (W2 m ρ c) := by
  intro b hb
  simp only [List.mem_cons, List.mem_singleton, List.not_mem_nil, or_false] at hb
  rcases hb with rfl | rfl | rfl | rfl | rfl | rfl | rfl | rfl | rfl | rfl
  all_goals exact (W2_of_ne m ρ c _ (by decide)).trans (h _ (by decide))

theorem args3 (h : ArgsAt m c A2 (W2 m ρ c)) : ArgsAt m c A2 (W3 m ρ c) := by
  intro b hb
  have hb' := hb
  simp only [List.mem_cons, List.mem_singleton, List.not_mem_nil, or_false] at hb
  rcases hb with rfl | rfl | rfl | rfl | rfl | rfl | rfl | rfl | rfl | rfl
  all_goals exact Eq.trans (by kept_over hostOps1) (h _ hb')

theorem args4 (h : ArgsAt m c A2 (W3 m ρ c)) : ArgsAt m c A2 (W4 m ρ c) := by
  intro b hb
  simp only [List.mem_cons, List.mem_singleton, List.not_mem_nil, or_false] at hb
  rcases hb with rfl | rfl | rfl | rfl | rfl | rfl | rfl | rfl | rfl | rfl
  all_goals exact (W4_of_ne m ρ c _ (by decide)).trans (h _ (by decide))

theorem args5 (h : ArgsAt m c A2 (W4 m ρ c)) : ArgsAt m c A5 (W5 m ρ c) := by
  intro b hb
  simp only [List.mem_cons, List.mem_singleton, List.not_mem_nil, or_false] at hb
  rcases hb with rfl | rfl | rfl | rfl | rfl | rfl | rfl | rfl
  all_goals exact (W5_of_ne m ρ c _ (by decide)).trans (h _ (by decide))

theorem args6 (h : ArgsAt m c A5 (W5 m ρ c)) : ArgsAt m c A5 (W6 m ρ c) := by
  intro b hb
  have hb' := hb
  simp only [List.mem_cons, List.mem_singleton, List.not_mem_nil, or_false] at hb
  rcases hb with rfl | rfl | rfl | rfl | rfl | rfl | rfl | rfl
  all_goals exact Eq.trans (by kept_over hostOps3) (h _ hb')

theorem args7 (h : ArgsAt m c A5 (W6 m ρ c)) : ArgsAt m c A5 (W7 m ρ c) := by
  intro b hb
  simp only [List.mem_cons, List.mem_singleton, List.not_mem_nil, or_false] at hb
  rcases hb with rfl | rfl | rfl | rfl | rfl | rfl | rfl | rfl
  all_goals exact (W7_of_ne m ρ c _ (by decide)).trans (h _ (by decide))

theorem args8 (h : ArgsAt m c A5 (W7 m ρ c)) : ArgsAt m c A8 (W8 m ρ c) := by
  intro b hb
  simp only [List.mem_cons, List.mem_singleton, List.not_mem_nil, or_false] at hb
  rcases hb with rfl | rfl | rfl | rfl | rfl | rfl
  all_goals exact (W8_of_ne m ρ c _ (by decide)).trans (h _ (by decide))

theorem args9 (h : ArgsAt m c A8 (W8 m ρ c)) : ArgsAt m c A8 (W9 m ρ c) := by
  intro b hb
  have hb' := hb
  simp only [List.mem_cons, List.mem_singleton, List.not_mem_nil, or_false] at hb
  rcases hb with rfl | rfl | rfl | rfl | rfl | rfl
  all_goals exact Eq.trans (by kept_over hostOps5) (h _ hb')

theorem args10 (h : ArgsAt m c A8 (W9 m ρ c)) : ArgsAt m c A8 (W10 m ρ c) := by
  intro b hb
  simp only [List.mem_cons, List.mem_singleton, List.not_mem_nil, or_false] at hb
  rcases hb with rfl | rfl | rfl | rfl | rfl | rfl
  all_goals exact (W10_of_ne m ρ c _ (by decide)).trans (h _ (by decide))

theorem args11 (h : ArgsAt m c A8 (W10 m ρ c)) : ArgsAt m c A8 (W11 m ρ c) := by
  intro b hb
  have hb' := hb
  simp only [List.mem_cons, List.mem_singleton, List.not_mem_nil, or_false] at hb
  rcases hb with rfl | rfl | rfl | rfl | rfl | rfl
  all_goals exact Eq.trans (by kept_over hostOps6) (h _ hb')

theorem args12 (h : ArgsAt m c A8 (W11 m ρ c)) : ArgsAt m c A8 (W12 m ρ c) := by
  intro b hb
  simp only [List.mem_cons, List.mem_singleton, List.not_mem_nil, or_false] at hb
  rcases hb with rfl | rfl | rfl | rfl | rfl | rfl
  all_goals exact (W12_of_ne m ρ c _ (by decide)).trans (h _ (by decide))

theorem args13 (h : ArgsAt m c A8 (W12 m ρ c)) : ArgsAt m c A8 (W13 m ρ c) := by
  intro b hb
  have hb' := hb
  simp only [List.mem_cons, List.mem_singleton, List.not_mem_nil, or_false] at hb
  rcases hb with rfl | rfl | rfl | rfl | rfl | rfl
  all_goals exact Eq.trans (by kept_over hostOps7) (h _ hb')

theorem args14 (h : ArgsAt m c A8 (W13 m ρ c)) : ArgsAt m c A8 (W14 m ρ c) := by
  intro b hb
  have hb' := hb
  simp only [List.mem_cons, List.mem_singleton, List.not_mem_nil, or_false] at hb
  rcases hb with rfl | rfl | rfl | rfl | rfl | rfl
  all_goals exact Eq.trans (by kept_over hostOps7_1) (h _ hb')

/-! ## The edge arrays, boundary by boundary -/

theorem edge1 : EdgeAt m c (W1 m ρ c) := by
  have hW : W1 m ρ c = StableHlo.after ((hostOps0 (F := Ideal)).drop 7) (StableHlo.after ((hostOps0 (F := Ideal)).take 7) (W0 m ρ c)) :=
    (congrArg (fun l => StableHlo.after l (W0 m ρ c)) hostOps0_cut).trans (StableHlo.after_append _ _ _)
  have h3 : StableHlo.after ((hostOps0 (F := Ideal)).take 7) (W0 m ρ c) (Proc.devRef .tc main_v3) = srcOf (m ((c : Thread nD τ).loc main_arg1)) :=
    src_read _
  have h6 : StableHlo.after ((hostOps0 (F := Ideal)).take 7) (W0 m ρ c) (Proc.devRef .tc main_v6) = dstOf (m ((c : Thread nD τ).loc main_arg1)) :=
    dst_read _
  rw [EdgeAt, hW]
  refine ⟨Eq.trans (by kept_over hostOps0) h3, Eq.trans (by kept_over hostOps0) h6, ?_⟩
  rw [norm_read, h3, h6]

theorem edge2 (h : EdgeAt m c (W1 m ρ c)) : EdgeAt m c (W2 m ρ c) :=
  ⟨(W2_of_ne m ρ c _ (by decide)).trans h.1, (W2_of_ne m ρ c _ (by decide)).trans h.2.1, (W2_of_ne m ρ c _ (by decide)).trans h.2.2⟩

theorem edge3 (h : EdgeAt m c (W2 m ρ c)) : EdgeAt m c (W3 m ρ c) :=
  ⟨Eq.trans (by kept_over hostOps1) h.1, Eq.trans (by kept_over hostOps1) h.2.1, Eq.trans (by kept_over hostOps1) h.2.2⟩

theorem edge4 (h : EdgeAt m c (W3 m ρ c)) : EdgeAt m c (W4 m ρ c) :=
  ⟨(W4_of_ne m ρ c _ (by decide)).trans h.1, (W4_of_ne m ρ c _ (by decide)).trans h.2.1, (W4_of_ne m ρ c _ (by decide)).trans h.2.2⟩

theorem edge5 (h : EdgeAt m c (W4 m ρ c)) : EdgeAt m c (W5 m ρ c) :=
  ⟨(W5_of_ne m ρ c _ (by decide)).trans h.1, (W5_of_ne m ρ c _ (by decide)).trans h.2.1, (W5_of_ne m ρ c _ (by decide)).trans h.2.2⟩

theorem edge6 (h : EdgeAt m c (W5 m ρ c)) : EdgeAt m c (W6 m ρ c) :=
  ⟨Eq.trans (by kept_over hostOps3) h.1, Eq.trans (by kept_over hostOps3) h.2.1, Eq.trans (by kept_over hostOps3) h.2.2⟩

theorem edge7 (h : EdgeAt m c (W6 m ρ c)) : EdgeAt m c (W7 m ρ c) :=
  ⟨(W7_of_ne m ρ c _ (by decide)).trans h.1, (W7_of_ne m ρ c _ (by decide)).trans h.2.1, (W7_of_ne m ρ c _ (by decide)).trans h.2.2⟩

theorem edge8 (h : EdgeAt m c (W7 m ρ c)) : EdgeAt m c (W8 m ρ c) :=
  ⟨(W8_of_ne m ρ c _ (by decide)).trans h.1, (W8_of_ne m ρ c _ (by decide)).trans h.2.1, (W8_of_ne m ρ c _ (by decide)).trans h.2.2⟩

end Cert.KernelIdeal.Walk

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.RegMm0.lean ====
/-
  The first feature product of the graph convolution, read off the grid of its kernel region.

  The region walks the 100000 rows of the node-feature array in 20 tiles of 5000 rows.  At tile t it holds rows
  5000·t … 5000·t + 4999 of the left array (all 128 columns) and the whole 128 × 128 right array, and it writes
  the 5000 × 128 product of the two into the same rows of the output.  Changing the number format of the
  operands is the identity on extended reals, and the product is accumulated from zero, so entry (p, q) of a
  tile's result is the sum over k < 128 of left(p, k) · right(k, q).  Row r of the output is written by tile
  r / 5000 and by no other, the tiles cover every row, and the value written at (r, q) depends only on row r of
  the left array and column q of the right one.  So after the last tile the output is the matrix product of the
  two arrays as the region found them.
-/
import proofs.«424757_j85409719648815_1_alg».proof.Proof.Gen.KernelIdeal.Frame
import proofs.«424757_j85409719648815_1_alg».proof.Proof.Gcn
import proofs.«424757_j85409719648815_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

/-- The zero offsets of a whole tile, however they are spelt. -/
theorem mm0_hz : (![0, 0] : Fin 2 → Nat) = fun _ => 0 := funext fun a => by fin_cases a <;> rfl

/-- One entry of a tile's result: the operands' formats are changed (the identity on extended reals) and the
    product is accumulated into zero, so entry (p, q) is the sum over k of left(p, k) · right(k, q). -/
theorem mm0_pay_apply (x0 : Vec Ideal S5000x128 .f32) (x1 : Vec Ideal S128x128 .f32) (p : Fin 5000) (q : Fin 128) :
    (k0_pay1 (F := Ideal) x0 x1) (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  exact PlainDot.sum_eq dot_S5000x128_S128x128_S5000x128_1_0_0_1_n_n rfl rfl rfl rfl rfl rfl (fun i => x0 i) (fun i => x1 i) p q

/-- If row p of the left tile is row r of the array A and the right tile is the array W along column q, entry
    (p, q) of the tile's result is entry (r, q) of the matrix product A · W. -/
theorem mm0_point (A : Vec Ideal S100000x128 .f32) (W : Vec Ideal S128x128 .f32)
    (x0 : Vec Ideal S5000x128 .f32) (x1 : Vec Ideal S128x128 .f32) (p : Fin 5000) (q : Fin 128) (r : Fin 100000)
    (h0 : ∀ k : Fin 128, x0 (ix2 p k) = A (ix2 r k))
    (h1 : ∀ k : Fin 128, x1 (ix2 k q) = W (ix2 k q)) :
    (k0_pay1 (F := Ideal) x0 x1) (ix2 p q) = Gcn.mm A W (ix2 r q) := by
  rw [mm0_pay_apply]
  show _ = ∑ k : Fin 128, A (ix2 r k) * W (ix2 k q)
  exact Finset.sum_congr rfl fun k _ => by rw [h0 k, h1 k]

/-- The tiles' positions over the grid: at point t the left and the output tiles are tile (t, 0) of their
    arrays, the right tile is always tile (0, 0). -/
theorem mm0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left tile at point t holds rows 5000·t … 5000·t + 4999 of the left array. -/
theorem mm0_iblk0_apply (c : Dev nD) (t : Fin cfg0.N) (x : S5000x128.Idx) (i : S100000x128.Idx)
    (hi0 : (i 0).val = 5000 * t.val + (x 0).val) (hi1 : (i 1).val = (x 1).val) :
    (iblk0 V c 0 t : Vec Ideal S5000x128 .f32) x = (V c main_arg0 : Vec Ideal S100000x128 .f32) i := by
  obtain ⟨e0, e1, -⟩ := mm0_idx t
  unfold iblk0
  rw [View.read_apply]
  show V c main_arg0 _ = V c main_arg0 _
  congr 1
  funext a
  apply Fin.ext
  match a with
  | ⟨0, _⟩ => show win0_0.index t 0 * 5000 + 1 * (x 0).val = (i 0).val; rw [e0, hi0]; omega
  | ⟨1, _⟩ => show win0_0.index t 1 * 128 + 1 * (x 1).val = (i 1).val; rw [e1, hi1]; omega

/-- The right tile at every point is the whole right array. -/
theorem mm0_iblk1_apply (c : Dev nD) (t : Fin cfg0.N) (x : S128x128.Idx) :
    (iblk0 V c 1 t : Vec Ideal S128x128 .f32) x = (V c main_arg3 : Vec Ideal S128x128 .f32) x := by
  obtain ⟨-, -, e2, e3, -⟩ := mm0_idx t
  unfold iblk0
  rw [View.read_apply]
  show V c main_arg3 _ = V c main_arg3 _
  congr 1
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

/-- What point t writes back is tile t of the matrix product of the two arrays: entry (p, q) of the tile is
    entry (5000·t + p, q) of the product. -/
theorem mm0_flushed (c : Dev nD) (t : Fin cfg0.N) :
    (dat0 (F := Ideal) V c).flushed 2 t = ((cfg0.win 2).blk t).view.read (Elt Ideal) (Gcn.mm (V c main_arg0) (V c main_arg3)) := by
  show (cfg0.win 2).cut (grid0.coords t) ((dat0 V c).after 2 t) = _
  rw [after0_2]
  unfold out0_2
  rw [View.canon_unit_zero mm0_hz]
  simp only [View.ld_unit_zero (S := S5000x128) mm0_hz, View.ld_unit_zero (S := S128x128) mm0_hz]
  obtain ⟨e0, e1, e2, e3, e4, e5⟩ := mm0_idx t
  have ht : t.val < 20 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  refine (mm0_point (V c main_arg0) (V c main_arg3) (iblk0 V c 0 t) (iblk0 V c 1 t) p q ⟨5000 * t.val + p.val, by omega⟩ ?_ ?_).trans ?_
  · intro k
    exact mm0_iblk0_apply V c t (ix2 p k) (ix2 ⟨5000 * t.val + p.val, by omega⟩ k) rfl rfl
  · intro k
    exact mm0_iblk1_apply V c t (ix2 k q)
  · show Gcn.mm (V c main_arg0) (V c main_arg3) _ = Gcn.mm (V c main_arg0) (V c main_arg3) (((cfg0.win 2).blk t).view.emb (ix2 p q))
    congr 1
    funext a
    apply Fin.ext
    match a with
    | ⟨0, _⟩ => show 5000 * t.val + p.val = win0_2.index t 0 * 5000 + 1 * p.val; rw [e4]; omega
    | ⟨1, _⟩ => show q.val = win0_2.index t 1 * 128 + 1 * q.val; rw [e5]; omega

/-- An index of the output array lies in point t's tile iff each coordinate lies in the tile's range. -/
theorem mm0_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every index of the output array lies in some point's tile: row r in the tile of point r / 5000. -/
theorem mm0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e4, e5⟩ := mm0_idx t
  refine ⟨t, flush0_2 t, ?_⟩
  rw [mm0_mem_blk]
  intro a
  match a with
  | ⟨0, _⟩ => show win0_2.index t 0 * 5000 ≤ (i 0).val ∧ (i 0).val < win0_2.index t 0 * 5000 + 5000; rw [e4, ht]; omega
  | ⟨1, _⟩ => show win0_2.index t 1 * 128 ≤ (i 1).val ∧ (i 1).val < win0_2.index t 1 * 128 + 128; rw [e5]; omega

/-- After the region's 20 points the output array is the matrix product of the two input arrays as the region
    found them. -/
theorem region0 (c : Dev nD) : (dat0 (F := Ideal) V c).arrAt 2 cfg0.N = Gcn.mm (V c main_arg0) (V c main_arg3) :=
  (dat0 (F := Ideal) V c).arrAt_eq_of_cover 2 (Gcn.mm (V c main_arg0) (V c main_arg3)) (fun t _ => mm0_flushed V c t) (fun i => mm0_cover i)

end Cert.KernelIdeal.Val

end
-- ==== Proof.RegMm2.lean ====
/-
  The second feature product of the graph convolution, read off the grid of its kernel region.

  The region walks the 100000 rows of the left array in 20 tiles of 5000 rows.  At tile t it holds rows
  5000·t … 5000·t + 4999 of the left array (all 128 columns) and the whole 128 × 128 right array, and it writes
  the 5000 × 128 product of the two into the same rows of the output.  Changing the number format of the
  operands is the identity on extended reals, and the product is accumulated from zero, so entry (p, q) of a
  tile's result is the sum over k < 128 of left(p, k) · right(k, q).  Row r of the output is written by tile
  r / 5000 and by no other, the tiles cover every row, and the value written at (r, q) depends only on row r of
  the left array and column q of the right one.  So after the last tile the output is the matrix product of the
  two arrays as the region found them.
-/
import proofs.«424757_j85409719648815_1_alg».proof.Proof.Gen.KernelIdeal.Frame
import proofs.«424757_j85409719648815_1_alg».proof.Proof.Gcn
import proofs.«424757_j85409719648815_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

/-- The zero offsets of a whole tile, however they are spelt. -/
theorem mm2_hz : (![0, 0] : Fin 2 → Nat) = fun _ => 0 := funext fun a => by fin_cases a <;> rfl

/-- One entry of a tile's result: the left operand is re-laid to its own shape (the identity), the operands'
    formats are changed (the identity on extended reals) and the product is accumulated into zero, so entry
    (p, q) is the sum over k of left(p, k) · right(k, q). -/
theorem mm2_pay_apply (x0 : Vec Ideal S5000x128 .f32) (x1 : Vec Ideal S128x128 .f32) (p : Fin 5000) (q : Fin 128) :
    (k2_pay1 (F := Ideal) x0 x1) (ix2 p q) = ∑ k : Fin 128, x0 (ix2 p k) * x1 (ix2 k q) := by
  unfold k2_pay1
  rw [shapeCast_self]
  refine (Ideal.matmul_constant_zero_apply dot_S5000x128_S128x128_S5000x128_1_0_0_1_n_n none _ _ (ix2 p q)).trans ?_
  exact PlainDot.sum_eq dot_S5000x128_S128x128_S5000x128_1_0_0_1_n_n rfl rfl rfl rfl rfl rfl (fun i => x0 i) (fun i => x1 i) p q

/-- If row p of the left tile is row r of the array A and the right tile is the array W along column q, entry
    (p, q) of the tile's result is entry (r, q) of the matrix product A · W. -/
theorem mm2_point (A : Vec Ideal S100000x128 .f32) (W : Vec Ideal S128x128 .f32)
    (x0 : Vec Ideal S5000x128 .f32) (x1 : Vec Ideal S128x128 .f32) (p : Fin 5000) (q : Fin 128) (r : Fin 100000)
    (h0 : ∀ k : Fin 128, x0 (ix2 p k) = A (ix2 r k))
    (h1 : ∀ k : Fin 128, x1 (ix2 k q) = W (ix2 k q)) :
    (k2_pay1 (F := Ideal) x0 x1) (ix2 p q) = Gcn.mm A W (ix2 r q) := by
  rw [mm2_pay_apply]
  show _ = ∑ k : Fin 128, A (ix2 r k) * W (ix2 k q)
  exact Finset.sum_congr rfl fun k _ => by rw [h0 k, h1 k]

/-- The tiles' positions over the grid: at point t the left and the output tiles are tile (t, 0) of their
    arrays, the right tile is always tile (0, 0). -/
theorem mm2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left tile at point t holds rows 5000·t … 5000·t + 4999 of the left array. -/
theorem mm2_iblk0_apply (c : Dev nD) (t : Fin cfg2.N) (x : S5000x128.Idx) (i : S100000x128.Idx)
    (hi0 : (i 0).val = 5000 * t.val + (x 0).val) (hi1 : (i 1).val = (x 1).val) :
    (iblk2 V c 0 t : Vec Ideal S5000x128 .f32) x = (V c main_v44 : Vec Ideal S100000x128 .f32) i := by
  obtain ⟨e0, e1, -⟩ := mm2_idx t
  unfold iblk2
  rw [View.read_apply]
  show V c main_v44 _ = V c main_v44 _
  congr 1
  funext a
  apply Fin.ext
  match a with
  | ⟨0, _⟩ => show win2_0.index t 0 * 5000 + 1 * (x 0).val = (i 0).val; rw [e0, hi0]; omega
  | ⟨1, _⟩ => show win2_0.index t 1 * 128 + 1 * (x 1).val = (i 1).val; rw [e1, hi1]; omega

/-- The right tile at every point is the whole right array. -/
theorem mm2_iblk1_apply (c : Dev nD) (t : Fin cfg2.N) (x : S128x128.Idx) :
    (iblk2 V c 1 t : Vec Ideal S128x128 .f32) x = (V c main_arg5 : Vec Ideal S128x128 .f32) x := by
  obtain ⟨-, -, e2, e3, -⟩ := mm2_idx t
  unfold iblk2
  rw [View.read_apply]
  show V c main_arg5 _ = V c main_arg5 _
  congr 1
  funext a
  apply Fin.ext
  match a with
  | ⟨0, _⟩ => show win2_1.index t 0 * 128 + 1 * (x 0).val = (x 0).val; rw [e2]; omega
  | ⟨1, _⟩ => show win2_1.index t 1 * 128 + 1 * (x 1).val = (x 1).val; rw [e3]; omega

/-- What point t writes back is tile t of the matrix product of the two arrays: entry (p, q) of the tile is
    entry (5000·t + p, q) of the product. -/
theorem mm2_flushed (c : Dev nD) (t : Fin cfg2.N) :
    (dat2 (F := Ideal) V c).flushed 2 t = ((cfg2.win 2).blk t).view.read (Elt Ideal) (Gcn.mm (V c main_v44) (V c main_arg5)) := by
  show (cfg2.win 2).cut (grid2.coords t) ((dat2 V c).after 2 t) = _
  rw [after2_2]
  unfold out2_2
  rw [View.canon_unit_zero mm2_hz]
  simp only [View.ld_unit_zero (S := S5000x128) mm2_hz, View.ld_unit_zero (S := S128x128) mm2_hz]
  obtain ⟨e0, e1, e2, e3, e4, e5⟩ := mm2_idx t
  have ht : t.val < 20 := lt_of_lt_of_eq t.isLt N_2
  funext j
  obtain ⟨p, q, rfl⟩ : ∃ (p : Fin 5000) (q : Fin 128), j = ix2 p q := ⟨j 0, j 1, eq_ix2 j⟩
  have hp : p.val < 5000 := p.isLt
  refine (mm2_point (V c main_v44) (V c main_arg5) (iblk2 V c 0 t) (iblk2 V c 1 t) p q ⟨5000 * t.val + p.val, by omega⟩ ?_ ?_).trans ?_
  · intro k
    exact mm2_iblk0_apply V c t (ix2 p k) (ix2 ⟨5000 * t.val + p.val, by omega⟩ k) rfl rfl
  · intro k
    exact mm2_iblk1_apply V c t (ix2 k q)
  · show Gcn.mm (V c main_v44) (V c main_arg5) _ = Gcn.mm (V c main_v44) (V c main_arg5) (((cfg2.win 2).blk t).view.emb (ix2 p q))
    congr 1
    funext a
    apply Fin.ext
    match a with
    | ⟨0, _⟩ => show 5000 * t.val + p.val = win2_2.index t 0 * 5000 + 1 * p.val; rw [e4]; omega
    | ⟨1, _⟩ => show q.val = win2_2.index t 1 * 128 + 1 * q.val; rw [e5]; omega

/-- An index of the output array lies in point t's tile iff each coordinate lies in the tile's range. -/
theorem mm2_mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every index of the output array lies in some point's tile: row r in the tile of point r / 5000. -/
theorem mm2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, e4, e5⟩ := mm2_idx t
  refine ⟨t, flush2_2 t, ?_⟩
  rw [mm2_mem_blk]
  intro a
  match a with
  | ⟨0, _⟩ => show win2_2.index t 0 * 5000 ≤ (i 0).val ∧ (i 0).val < win2_2.index t 0 * 5000 + 5000; rw [e4, ht]; omega
  | ⟨1, _⟩ => show win2_2.index t 1 * 128 ≤ (i 1).val ∧ (i 1).val < win2_2.index t 1 * 128 + 128; rw [e5]; omega

/-- After the region's 20 points the output array is the matrix product of the two input arrays as the region
    found them. -/
theorem region2 (c : Dev nD) : (dat2 (F := Ideal) V c).arrAt 2 cfg2.N = Gcn.mm (V c main_v44) (V c main_arg5) :=
  (dat2 (F := Ideal) V c).arrAt_eq_of_cover 2 (Gcn.mm (V c main_v44) (V c main_arg5)) (fun t _ => mm2_flushed V c t) (fun i => mm2_cover i)

end Cert.KernelIdeal.Val

end
-- ==== Proof.RegMm4.lean ====
/-
  The third feature product of the graph convolution, read off the grid of its kernel region.

  The region walks the 100000 rows of the left array in 20 tiles of 5000 rows.  At tile t it holds rows
  5000·t … 5000·t + 4999 of the left array (all 128 columns) and the whole 128 × 128 right array, and it writes
  the 5000 × 128 product of the two into the same rows of the output.  Changing the number format of the
  operands is the identity on extended reals, and the product is accumulated from zero, so entry (p, q) of a
  tile's result is the sum over k < 128 of left(p, k) · right(k, q).  Row r of the output is written by tile
  r / 5000 and by no other, the tiles cover every row, and the value written at (r, q) depends only on row r of
  the left array and column q of the right one.  So after the last tile the output is the matrix product of the
  two arrays as the region found them.
-/
import proofs.«424757_j85409719648815_1_alg».proof.Proof.Gen.KernelIdeal.Frame
import proofs.«424757_j85409719648815_1_alg».proof.Proof.Gcn
import proofs.«424757_j85409719648815_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx Cert.KernelIdeal Cert.KernelIdeal.Gen

variable (V : (c : Dev nD) → (b : Ref sig .tc) → Buf (Elt Ideal) ((c : Thread nD τ).loc b))

/-- The zero offsets of a whole tile, however they are spelt. -/
theorem mm4_hz : (![0, 0] : Fin 2 → Nat) = fun _ => 0 := funext fun a => by fin_cases a <;> rfl

/-- One entry of a tile's result: the left operand is re-laid to its own shape (the identity), the operands'
    formats are changed (the identity on extended reals) and the product is accumulated into zero, so entry
    (p, q) is the sum over k of left(p, k) · right(k, q). -/
theorem mm4_pay_apply (x0 : Vec Ideal S5000x128 .f32) (x1 : Vec Ideal S128x128 .f32) (p : Fin 5000) (q : Fin 128) :
    (k4_pay1 (F := Ideal) x0 x1) (ix2 p q) = ∑ k : Fin 128, x0 (ix2 p k) * x1 (ix2 k q) := by
  unfold k4_pay1
  rw [shapeCast_self]
  refine (Ideal.matmul_constant_zero_apply dot_S5000x128_S128x128_S5000x128_1_0_0_1_n_n none _ _ (ix2 p q)).trans ?_
  exact PlainDot.sum_eq dot_S5000x128_S128x128_S5000x128_1_0_0_1_n_n rfl rfl rfl rfl rfl rfl (fun i => x0 i) (fun i => x1 i) p q

/-- If row p of the left tile is row r of the array A and the right tile is the array W along column q, entry
    (p, q) of the tile's result is entry (r, q) of the matrix product A · W. -/
theorem mm4_point (A : Vec Ideal S100000x128 .f32) (W : Vec Ideal S128x128 .f32)
    (x0 : Vec Ideal S5000x128 .f32) (x1 : Vec Ideal S128x128 .f32) (p : Fin 5000) (q : Fin 128) (r : Fin 100000)
    (h0 : ∀ k : Fin 128, x0 (ix2 p k) = A (ix2 r k))
    (h1 : ∀ k : Fin 128, x1 (ix2 k q) = W (ix2 k q)) :
    (k4_pay1 (F := Ideal) x0 x1) (ix2 p q) = Gcn.mm A W (ix2 r q) := by
  rw [mm4_pay_apply]
  show _ = ∑ k : Fin 128, A (ix2 r k) * W (ix2 k q)
  exact Finset.sum_congr rfl fun k _ => by rw [h0 k, h1 k]

/-- The tiles' positions over the grid: at point t the left and the output tiles are tile (t, 0) of their
    arrays, the right tile is always tile (0, 0). -/
theorem mm4_idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left tile at point t holds rows 5000·t … 5000·t + 4999 of the left array. -/
theorem mm4_iblk0_apply (c : Dev nD) (t : Fin cfg4.N) (x : S5000x128.Idx) (i : S100000x128.Idx)
    (hi0 : (i 0).val = 5000 * t.val + (x 0).val) (hi1 : (i 1).val = (x 1).val) :
    (iblk4 V c 0 t : Vec Ideal S5000x128 .f32) x = (V c main_v60 : Vec Ideal S100000x128 .f32) i := by
  obtain ⟨e0, e1, -⟩ := mm4_idx t
  unfold iblk4
  rw [View.read_apply]
  show V c main_v60 _ = V c main_v60 _
  congr 1
  funext a
  apply Fin.ext
  match a with
  | ⟨0, _⟩ => show win4_0.index t 0 * 5000 + 1 * (x 0).val = (i 0).val; rw [e0, hi0]; omega
  | ⟨1, _⟩ => show win4_0.index t 1 * 128 + 1 * (x 1).val = (i 1).val; rw [e1, hi1]; omega

/-- The right tile at every point is the whole right array. -/
theorem mm4_iblk1_apply (c : Dev nD) (t : Fin cfg4.N) (x : S128x128.Idx) :
    (iblk4 V c 1 t : Vec Ideal S128x128 .f32) x = (V c main_arg7 : Vec Ideal S128x128 .f32) x := by
  obtain ⟨-, -, e2, e3, -⟩ := mm4_idx t
  unfold iblk4
  rw [View.read_apply]
  show V c main_arg7 _ = V c main_arg7 _
  congr 1
  funext a
  apply Fin.ext
  match a with
  | ⟨0, _⟩ => show win4_1.index t 0 * 128 + 1 * (x 0).val = (x 0).val; rw [e2]; omega
  | ⟨1, _⟩ => show win4_1.index t 1 * 128 + 1 * (x 1).val = (x 1).val; rw [e3]; omega

/-- What point t writes back is tile t of the matrix product of the two arrays: entry (p, q) of the tile is
    entry (5000·t + p, q) of the product. -/
theorem mm4_flushed (c : Dev nD) (t : Fin cfg4.N) :
    (dat4 (F := Ideal) V c).flushed 2 t = ((cfg4.win 2).blk t).view.read (Elt Ideal) (Gcn.mm (V c main_v60) (V c main_arg7)) := by
  show (cfg4.win 2).cut (grid4.coords t) ((dat4 V c).after 2 t) = _
  rw [after4_2]
  unfold out4_2
  rw [View.canon_unit_zero mm4_hz]
  simp only [View.ld_unit_zero (S := S5000x128) mm4_hz, View.ld_unit_zero (S := S128x128) mm4_hz]
  obtain ⟨e0, e1, e2, e3, e4, e5⟩ := mm4_idx t
  have ht : t.val < 20 := lt_of_lt_of_eq t.isLt N_4
  funext j
  obtain ⟨p, q, rfl⟩ : ∃ (p : Fin 5000) (q : Fin 128), j = ix2 p q := ⟨j 0, j 1, eq_ix2 j⟩
  have hp : p.val < 5000 := p.isLt
  refine (mm4_point (V c main_v60) (V c main_arg7) (iblk4 V c 0 t) (iblk4 V c 1 t) p q ⟨5000 * t.val + p.val, by omega⟩ ?_ ?_).trans ?_
  · intro k
    exact mm4_iblk0_apply V c t (ix2 p k) (ix2 ⟨5000 * t.val + p.val, by omega⟩ k) rfl rfl
  · intro k
    exact mm4_iblk1_apply V c t (ix2 k q)
  · show Gcn.mm (V c main_v60) (V c main_arg7) _ = Gcn.mm (V c main_v60) (V c main_arg7) (((cfg4.win 2).blk t).view.emb (ix2 p q))
    congr 1
    funext a
    apply Fin.ext
    match a with
    | ⟨0, _⟩ => show 5000 * t.val + p.val = win4_2.index t 0 * 5000 + 1 * p.val; rw [e4]; omega
    | ⟨1, _⟩ => show q.val = win4_2.index t 1 * 128 + 1 * q.val; rw [e5]; omega

/-- An index of the output array lies in point t's tile iff each coordinate lies in the tile's range. -/
theorem mm4_mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v61).slice (win4_2.rect t)).set ↔ _
  rw [View.set_slice_whole, Rect.mem_set_unit]
  exact Iff.rfl

/-- Every index of the output array lies in some point's tile: row r in the tile of point r / 5000. -/
theorem mm4_cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, e4, e5⟩ := mm4_idx t
  refine ⟨t, flush4_2 t, ?_⟩
  rw [mm4_mem_blk]
  intro a
  match a with
  | ⟨0, _⟩ => show win4_2.index t 0 * 5000 ≤ (i 0).val ∧ (i 0).val < win4_2.index t 0 * 5000 + 5000; rw [e4, ht]; omega
  | ⟨1, _⟩ => show win4_2.index t 1 * 128 ≤ (i 1).val ∧ (i 1).val < win4_2.index t 1 * 128 + 128; rw [e5]; omega

/-- After the region's 20 points the output array is the matrix product of the two input arrays as the region
    found them. -/
theorem region4 (c : Dev nD) : (dat4 (F := Ideal) V c).arrAt 2 cfg4.N = Gcn.mm (V c main_v60) (V c main_arg7) :=
  (dat4 (F := Ideal) V c).arrAt_eq_of_cover 2 (Gcn.mm (V c main_v60) (V c main_arg7)) (fun t _ => mm4_flushed V c t) (fun i => mm4_cover i)

end Cert.KernelIdeal.Val

end
-- ==== Proof.RegElu1.lean ====
/-
  The bias-and-ELU kernel of region 1, read as one function of its two input arrays.

  The kernel walks the 100000 rows of a [100000, 128] array in 20 tiles of 5000 rows. At each tile it adds the one
  bias row of a [1, 128] array to every row of the tile and applies ELU entrywise: the sum s where s is positive,
  exp(s) − 1 elsewhere. Over the extended reals every operation is exact, so entry (r, q) of the result depends only on
  entry (r, q) of the input and on entry (0, q) of the bias row; the tile that holds row r is tile r / 5000, and the 20
  tiles cover every row, so after the last tile the whole output array is `Gcn.biasElu` of the two inputs.
-/
import proofs.«424757_j85409719648815_1_alg».proof.Proof.Gen.KernelIdeal.Frame
import proofs.«424757_j85409719648815_1_alg».proof.Proof.Gcn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The word 0x3F800000 has sign 0, exponent 127 and fraction 0: it denotes 2^23 · 2^(127 − 127 − 23) = 1. -/
theorem ofBits_one_f32 : Ideal.ofBits .f32 0x3F800000#32 = 1 := by
  simp [Ideal.ofBits, Ideal.ieee, -EReal.coe_mul]
  norm_num

/-- The offsets of a whole-tile access, both zero. -/
theorem zero_offsets1 : (![0, 0] : Fin 2 → Nat) = fun _ => 0 := funext fun a => by fin_cases a <;> rfl

/-- ONE ENTRY OF THE BODY'S RESULT. At row p and column q of a tile x, with bias row b: the sum
    s = x(p, q) + b(0, q) is compared with 0; where it is greater the result is s, elsewhere exp(s) − 1. The two
    casts to the same shape change nothing, the broadcast of the bias row reads its column q, and the two float
    words are 0 and 1. -/
theorem elu_entry1 (x : Vec Ideal S5000x128 .f32) (b : Vec Ideal S1x128 .f32) (p : Fin 5000) (q : Fin 128) :
    k1_pay1 x b (ix2 p q) = Gcn.elu1 (x (ix2 p q) + b (ix2 (0 : Fin 1) q)) := by
  unfold k1_pay1
  rw [shapeCast_self, shapeCast_self]
  have hb : broadcastTo S5000x128 b broadcasts_S1x128_S5000x128 (ix2 p q) = b (ix2 (0 : Fin 1) q) :=
    broadcastTo_1b_ab_apply b broadcasts_S1x128_S5000x128 p q
  show Scalar.select
      (FloatOps.cmpf .ogt (x (ix2 p q) + broadcastTo S5000x128 b broadcasts_S1x128_S5000x128 (ix2 p q))
        (Ideal.ofBits .f32 0x00000000#32))
      (x (ix2 p q) + broadcastTo S5000x128 b broadcasts_S1x128_S5000x128 (ix2 p q))
      (Ideal.exp (x (ix2 p q) + broadcastTo S5000x128 b broadcasts_S1x128_S5000x128 (ix2 p q))
        - Ideal.ofBits .f32 0x3F800000#32) = _
  rw [hb, Ideal.ofBits_zero_f32, ofBits_one_f32, Ideal.cmpf_def]
  unfold Gcn.elu1 Scalar.select Ideal.cmp
  by_cases h : 0 < x (ix2 p q) + b (ix2 (0 : Fin 1) q)
  · simp [h]
  · simp [h]

/-- A TILE ENTRY AGAINST THE WHOLE ARRAYS. If entry j of the tile x is entry i of the array A, the tile's bias row b
    is the bias array B column by column, and i and j have the same column, then the body's result at j is
    `Gcn.biasElu A B` at i: the bias entry read is the one of that common column. -/
theorem elu_tile1 (x : Vec Ideal S5000x128 .f32) (b : Vec Ideal S1x128 .f32)
    (A : Vec Ideal S100000x128 .f32) (B : Vec Ideal S1x128 .f32) (j : S5000x128.Idx) (i : S100000x128.Idx)
    (hx : x j = A i) (hb : ∀ q : Fin 128, b (ix2 (0 : Fin 1) q) = B (ix2 (0 : Fin 1) q))
    (hq : (i 1).val = (j 1).val) :
    k1_pay1 x b j = Gcn.biasElu A B i := by
  obtain ⟨p, q, rfl⟩ : ∃ (p : Fin 5000) (q : Fin 128), j = ix2 p q := ⟨j 0, j 1, eq_ix2 j⟩
  rw [elu_entry1, hx, hb]
  have hiq : i 1 = q := Fin.ext hq
  show _ = Gcn.elu1 (A i + B (ix2 (0 : Fin 1) (i 1)))
  rw [hiq]

/-- WHERE THE TILES SIT, at each of the 20 grid points t: the input tile and the output tile have the same block
    index, which is (t, 0); the bias row's block index is (0, 0) at every point. -/
theorem tile_indices1 : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT t WRITES BACK is tile t of `Gcn.biasElu` of the two input arrays: the body stores its result over the
    whole tile; entry j of the input tile is the input array at row 5000 · t + (row of j) and the column of j, which is
    also where entry j of the output tile lands; the bias tile is the whole bias array. -/
theorem tile_written1 (c : Dev nD) (t : Fin cfg1.N) :
    (dat1 (F := Ideal) V c).flushed 2 t
      = ((cfg1.win 2).blk t).view.read (Elt Ideal) (Gcn.biasElu (V c main_v42) (V c main_v43)) := by
  show (cfg1.win 2).cut (grid1.coords t) ((dat1 V c).after 2 t) = _
  rw [after1_2]
  unfold out1_2
  rw [View.canon_unit_zero zero_offsets1]
  simp only [View.ld_unit_zero (S := S5000x128) zero_offsets1, View.ld_unit_zero (S := S1x128) zero_offsets1]
  obtain ⟨e0, e1, e2, e3, e4, e5⟩ := tile_indices1 t
  funext j
  show k1_pay1 (iblk1 V c 0 t) (iblk1 V c 1 t) j
      = Gcn.biasElu (V c main_v42) (V c main_v43) (((cfg1.win 2).blk t).view.emb j)
  refine elu_tile1 (iblk1 V c 0 t) (iblk1 V c 1 t) (V c main_v42) (V c main_v43) j
    (((cfg1.win 2).blk t).view.emb j) ?_ ?_ ?_
  · show V c main_v42 (((cfg1.win 0).blk t).view.emb j) = V c main_v42 (((cfg1.win 2).blk t).view.emb j)
    refine congrArg _ (funext fun a => Fin.ext ?_)
    match a with
    | ⟨0, _⟩ =>
      show win1_0.index t (0 : Fin 2) * 5000 + 1 * (j 0).val = win1_2.index t (0 : Fin 2) * 5000 + 1 * (j 0).val
      rw [e0]
    | ⟨1, _⟩ =>
      show win1_0.index t (1 : Fin 2) * 128 + 1 * (j 1).val = win1_2.index t (1 : Fin 2) * 128 + 1 * (j 1).val
      rw [e1]
  · intro q
    show V c main_v43 (((cfg1.win 1).blk t).view.emb (ix2 (0 : Fin 1) q)) = V c main_v43 (ix2 (0 : Fin 1) q)
    refine congrArg _ (funext fun a => Fin.ext ?_)
    match a with
    | ⟨0, _⟩ =>
      show win1_1.index t (0 : Fin 2) * 1 + 1 * 0 = 0
      rw [e2]
    | ⟨1, _⟩ =>
      show win1_1.index t (1 : Fin 2) * 128 + 1 * q.val = q.val
      rw [e3]; omega
  · show win1_2.index t (1 : Fin 2) * 128 + 1 * (j 1).val = (j 1).val
    rw [e5]; omega

/-- An entry of the output array lies in point t's tile iff, on each axis, its coordinate is in the tile's range:
    from (block index) · (tile extent) up to one tile extent further. -/
theorem in_tile1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- THE TILES COVER THE ARRAY: row r is in the tile of point r / 5000, which is below 20 since r is below 100000, and
    every tile spans all 128 columns. -/
theorem tiles_cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, e4, e5⟩ := tile_indices1 t
  refine ⟨t, flush1_2 t, ?_⟩
  rw [in_tile1]
  intro a
  match a with
  | ⟨0, _⟩ =>
    show win1_2.index t (0 : Fin 2) * 5000 ≤ (i 0).val ∧ (i 0).val < win1_2.index t (0 : Fin 2) * 5000 + 5000
    rw [e4, ht]; omega
  | ⟨1, _⟩ =>
    show win1_2.index t (1 : Fin 2) * 128 ≤ (i 1).val ∧ (i 1).val < win1_2.index t (1 : Fin 2) * 128 + 128
    rw [e5]; omega

/-- THE OUTPUT ARRAY AFTER THE 20 POINTS: every point writes its tile of `Gcn.biasElu` of the two input arrays and the
    tiles cover the array, so the array is that function: the bias row added to every row, then ELU entrywise. -/
theorem region1 (c : Dev nD) :
    (dat1 (F := Ideal) V c).arrAt 2 cfg1.N = Gcn.biasElu (V c main_v42) (V c main_v43) :=
  (dat1 (F := Ideal) V c).arrAt_eq_of_cover 2 (Gcn.biasElu (V c main_v42) (V c main_v43))
    (fun t _ => tile_written1 V c t) tiles_cover1

end Cert.KernelIdeal.Val

end
-- ==== Proof.RegElu3.lean ====
/-
  The bias-and-ELU kernel of region 3, read as one function of its two input arrays.

  The kernel walks the 100000 rows of a [100000, 128] array in 20 tiles of 5000 rows. At each tile it adds the one
  bias row of a [1, 128] array to every row of the tile and applies ELU entrywise: the sum s where s is positive,
  exp(s) − 1 elsewhere. Over the extended reals every operation is exact, so entry (r, q) of the result depends only on
  entry (r, q) of the input and on entry (0, q) of the bias row; the tile that holds row r is tile r / 5000, and the 20
  tiles cover every row, so after the last tile the whole output array is `Gcn.biasElu` of the two inputs.
-/
import proofs.«424757_j85409719648815_1_alg».proof.Proof.Gen.KernelIdeal.Frame
import proofs.«424757_j85409719648815_1_alg».proof.Proof.Gcn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The word 0x3F800000 has sign 0, exponent 127 and fraction 0: it denotes 2^23 · 2^(127 − 127 − 23) = 1. -/
theorem ofBits_one_f32_r3 : Ideal.ofBits .f32 0x3F800000#32 = 1 := by
  simp [Ideal.ofBits, Ideal.ieee, -EReal.coe_mul]
  norm_num

/-- The offsets of a whole-tile access, both zero. -/
theorem zero_offsets3 : (![0, 0] : Fin 2 → Nat) = fun _ => 0 := funext fun a => by fin_cases a <;> rfl

/-- ONE ENTRY OF THE BODY'S RESULT. At row p and column q of a tile x, with bias row b: the sum
    s = x(p, q) + b(0, q) is compared with 0; where it is greater the result is s, elsewhere exp(s) − 1. The two
    casts to the same shape change nothing, the broadcast of the bias row reads its column q, and the two float
    words are 0 and 1. -/
theorem elu_entry3 (x : Vec Ideal S5000x128 .f32) (b : Vec Ideal S1x128 .f32) (p : Fin 5000) (q : Fin 128) :
    k3_pay1 x b (ix2 p q) = Gcn.elu1 (x (ix2 p q) + b (ix2 (0 : Fin 1) q)) := by
  unfold k3_pay1
  rw [shapeCast_self, shapeCast_self]
  have hb : broadcastTo S5000x128 b broadcasts_S1x128_S5000x128 (ix2 p q) = b (ix2 (0 : Fin 1) q) :=
    broadcastTo_1b_ab_apply b broadcasts_S1x128_S5000x128 p q
  show Scalar.select
      (FloatOps.cmpf .ogt (x (ix2 p q) + broadcastTo S5000x128 b broadcasts_S1x128_S5000x128 (ix2 p q))
        (Ideal.ofBits .f32 0x00000000#32))
      (x (ix2 p q) + broadcastTo S5000x128 b broadcasts_S1x128_S5000x128 (ix2 p q))
      (Ideal.exp (x (ix2 p q) + broadcastTo S5000x128 b broadcasts_S1x128_S5000x128 (ix2 p q))
        - Ideal.ofBits .f32 0x3F800000#32) = _
  rw [hb, Ideal.ofBits_zero_f32, ofBits_one_f32_r3, Ideal.cmpf_def]
  unfold Gcn.elu1 Scalar.select Ideal.cmp
  by_cases h : 0 < x (ix2 p q) + b (ix2 (0 : Fin 1) q)
  · simp [h]
  · simp [h]

/-- A TILE ENTRY AGAINST THE WHOLE ARRAYS. If entry j of the tile x is entry i of the array A, the tile's bias row b
    is the bias array B column by column, and i and j have the same column, then the body's result at j is
    `Gcn.biasElu A B` at i: the bias entry read is the one of that common column. -/
theorem elu_tile3 (x : Vec Ideal S5000x128 .f32) (b : Vec Ideal S1x128 .f32)
    (A : Vec Ideal S100000x128 .f32) (B : Vec Ideal S1x128 .f32) (j : S5000x128.Idx) (i : S100000x128.Idx)
    (hx : x j = A i) (hb : ∀ q : Fin 128, b (ix2 (0 : Fin 1) q) = B (ix2 (0 : Fin 1) q))
    (hq : (i 1).val = (j 1).val) :
    k3_pay1 x b j = Gcn.biasElu A B i := by
  obtain ⟨p, q, rfl⟩ : ∃ (p : Fin 5000) (q : Fin 128), j = ix2 p q := ⟨j 0, j 1, eq_ix2 j⟩
  rw [elu_entry3, hx, hb]
  have hiq : i 1 = q := Fin.ext hq
  show _ = Gcn.elu1 (A i + B (ix2 (0 : Fin 1) (i 1)))
  rw [hiq]

/-- WHERE THE TILES SIT, at each of the 20 grid points t: the input tile and the output tile have the same block
    index, which is (t, 0); the bias row's block index is (0, 0) at every point. -/
theorem tile_indices3 : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- WHAT POINT t WRITES BACK is tile t of `Gcn.biasElu` of the two input arrays: the body stores its result over the
    whole tile; entry j of the input tile is the input array at row 5000 · t + (row of j) and the column of j, which is
    also where entry j of the output tile lands; the bias tile is the whole bias array. -/
theorem tile_written3 (c : Dev nD) (t : Fin cfg3.N) :
    (dat3 (F := Ideal) V c).flushed 2 t
      = ((cfg3.win 2).blk t).view.read (Elt Ideal) (Gcn.biasElu (V c main_v58) (V c main_v59)) := by
  show (cfg3.win 2).cut (grid3.coords t) ((dat3 V c).after 2 t) = _
  rw [after3_2]
  unfold out3_2
  rw [View.canon_unit_zero zero_offsets3]
  simp only [View.ld_unit_zero (S := S5000x128) zero_offsets3, View.ld_unit_zero (S := S1x128) zero_offsets3]
  obtain ⟨e0, e1, e2, e3, e4, e5⟩ := tile_indices3 t
  funext j
  show k3_pay1 (iblk3 V c 0 t) (iblk3 V c 1 t) j
      = Gcn.biasElu (V c main_v58) (V c main_v59) (((cfg3.win 2).blk t).view.emb j)
  refine elu_tile3 (iblk3 V c 0 t) (iblk3 V c 1 t) (V c main_v58) (V c main_v59) j
    (((cfg3.win 2).blk t).view.emb j) ?_ ?_ ?_
  · show V c main_v58 (((cfg3.win 0).blk t).view.emb j) = V c main_v58 (((cfg3.win 2).blk t).view.emb j)
    refine congrArg _ (funext fun a => Fin.ext ?_)
    match a with
    | ⟨0, _⟩ =>
      show win3_0.index t (0 : Fin 2) * 5000 + 1 * (j 0).val = win3_2.index t (0 : Fin 2) * 5000 + 1 * (j 0).val
      rw [e0]
    | ⟨1, _⟩ =>
      show win3_0.index t (1 : Fin 2) * 128 + 1 * (j 1).val = win3_2.index t (1 : Fin 2) * 128 + 1 * (j 1).val
      rw [e1]
  · intro q
    show V c main_v59 (((cfg3.win 1).blk t).view.emb (ix2 (0 : Fin 1) q)) = V c main_v59 (ix2 (0 : Fin 1) q)
    refine congrArg _ (funext fun a => Fin.ext ?_)
    match a with
    | ⟨0, _⟩ =>
      show win3_1.index t (0 : Fin 2) * 1 + 1 * 0 = 0
      rw [e2]
    | ⟨1, _⟩ =>
      show win3_1.index t (1 : Fin 2) * 128 + 1 * q.val = q.val
      rw [e3]; omega
  · show win3_2.index t (1 : Fin 2) * 128 + 1 * (j 1).val = (j 1).val
    rw [e5]; omega

/-- An entry of the output array lies in point t's tile iff, on each axis, its coordinate is in the tile's range:
    from (block index) · (tile extent) up to one tile extent further. -/
theorem in_tile3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v60).slice (win3_2.rect t)).set ↔ _
  rw [View.set_slice_whole, Rect.mem_set_unit]
  exact Iff.rfl

/-- THE TILES COVER THE ARRAY: row r is in the tile of point r / 5000, which is below 20 since r is below 100000, and
    every tile spans all 128 columns. -/
theorem tiles_cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 :=
    ⟨⟨(i 0).val / 5000, by show (i 0).val / 5000 < grid3.N; rw [hN]; omega⟩, rfl⟩
  obtain ⟨-, -, -, -, e4, e5⟩ := tile_indices3 t
  refine ⟨t, flush3_2 t, ?_⟩
  rw [in_tile3]
  intro a
  match a with
  | ⟨0, _⟩ =>
    show win3_2.index t (0 : Fin 2) * 5000 ≤ (i 0).val ∧ (i 0).val < win3_2.index t (0 : Fin 2) * 5000 + 5000
    rw [e4, ht]; omega
  | ⟨1, _⟩ =>
    show win3_2.index t (1 : Fin 2) * 128 ≤ (i 1).val ∧ (i 1).val < win3_2.index t (1 : Fin 2) * 128 + 128
    rw [e5]; omega

/-- THE OUTPUT ARRAY AFTER THE 20 POINTS: every point writes its tile of `Gcn.biasElu` of the two input arrays and the
    tiles cover the array, so the array is that function: the bias row added to every row, then ELU entrywise. -/
theorem region3 (c : Dev nD) :
    (dat3 (F := Ideal) V c).arrAt 2 cfg3.N = Gcn.biasElu (V c main_v58) (V c main_v59) :=
  (dat3 (F := Ideal) V c).arrAt_eq_of_cover 2 (Gcn.biasElu (V c main_v58) (V c main_v59))
    (fun t _ => tile_written3 V c t) tiles_cover3

end Cert.KernelIdeal.Val

end
-- ==== Proof.RegElu5.lean ====
/-
  The bias-and-ELU kernel of region 5, read as one function of its two input arrays.

  The kernel walks the 100000 rows of a [100000, 128] array in 20 tiles of 5000 rows. At each tile it adds the one
  bias row of a [1, 128] array to every row of the tile and applies ELU entrywise: the sum s where s is positive,
  exp(s) − 1 elsewhere. Over the extended reals every operation is exact, so entry (r, q) of the result depends only on
  entry (r, q) of the input and on entry (0, q) of the bias row; the tile that holds row r is tile r / 5000, and the 20
  tiles cover every row, so after the last tile the whole output array is `Gcn.biasElu` of the two inputs.
-/
import proofs.«424757_j85409719648815_1_alg».proof.Proof.Gen.KernelIdeal.Frame
import proofs.«424757_j85409719648815_1_alg».proof.Proof.Gcn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-- The word 0x3F800000 has sign 0, exponent 127 and fraction 0: it denotes 2^23 · 2^(127 − 127 − 23) = 1. -/
theorem ofBits_one_f32_r5 : Ideal.ofBits .f32 0x3F800000#32 = 1 := by
  simp [Ideal.ofBits, Ideal.ieee, -EReal.coe_mul]
  norm_num

/-- The offsets of a whole-tile access, both zero. -/
theorem zero_offsets5 : (![0, 0] : Fin 2 → Nat) = fun _ => 0 := funext fun a => by fin_cases a <;> rfl

/-- ONE ENTRY OF THE BODY'S RESULT. At row p and column q of a tile x, with bias row b: the sum
    s = x(p, q) + b(0, q) is compared with 0; where it is greater the result is s, elsewhere exp(s) − 1. The two
    casts to the same shape change nothing, the broadcast of the bias row reads its column q, and the two float
    words are 0 and 1. -/
theorem elu_entry5 (x : Vec Ideal S5000x128 .f32) (b : Vec Ideal S1x128 .f32) (p : Fin 5000) (q : Fin 128) :
    k5_pay1 x b (ix2 p q) = Gcn.elu1 (x (ix2 p q) + b (ix2 (0 : Fin 1) q)) := by
  unfold k5_pay1
  rw [shapeCast_self, shapeCast_self]
  have hb : broadcastTo S5000x128 b broadcasts_S1x128_S5000x128 (ix2 p q) = b (ix2 (0 : Fin 1) q) :=
    broadcastTo_1b_ab_apply b broadcasts_S1x128_S5000x128 p q
  show Scalar.select
      (FloatOps.cmpf .ogt (x (ix2 p q) + broadcastTo S5000x128 b broadcasts_S1x128_S5000x128 (ix2 p q))
        (Ideal.ofBits .f32 0x00000000#32))
      (x (ix2 p q) + broadcastTo S5000x128 b broadcasts_S1x128_S5000x128 (ix2 p q))
      (Ideal.exp (x (ix2 p q) + broadcastTo S5000x128 b broadcasts_S1x128_S5000x128 (ix2 p q))
        - Ideal.ofBits .f32 0x3F800000#32) = _
  rw [hb, Ideal.ofBits_zero_f32, ofBits_one_f32_r5, Ideal.cmpf_def]
  unfold Gcn.elu1 Scalar.select Ideal.cmp
  by_cases h : 0 < x (ix2 p q) + b (ix2 (0 : Fin 1) q)
  · simp [h]
  · simp [h]

/-- A TILE ENTRY AGAINST THE WHOLE ARRAYS. If entry j of the tile x is entry i of the array A, the tile's bias row b
    is the bias array B column by column, and i and j have the same column, then the body's result at j is
    `Gcn.biasElu A B` at i: the bias entry read is the one of that common column. -/
theorem elu_tile5 (x : Vec Ideal S5000x128 .f32) (b : Vec Ideal S1x128 .f32)
    (A : Vec Ideal S100000x128 .f32) (B : Vec Ideal S1x128 .f32) (j : S5000x128.Idx) (i : S100000x128.Idx)
    (hx : x j = A i) (hb : ∀ q : Fin 128, b (ix2 (0 : Fin 1) q) = B (ix2 (0 : Fin 1) q))
    (hq : (i 1).val = (j 1).val) :
    k5_pay1 x b j = Gcn.biasElu A B i := by
  obtain ⟨p, q, rfl⟩ : ∃ (p : Fin 5000) (q : Fin 128), j = ix2 p q := ⟨j 0, j 1, eq_ix2 j⟩
  rw [elu_entry5, hx, hb]
  have hiq : i 1 = q := Fin.ext hq
  show _ = Gcn.elu1 (A i + B (ix2 (0 : Fin 1) (i 1)))
  rw [hiq]

/-- WHERE THE TILES SIT, at each of the 20 grid points t: the input tile and the output tile have the same block
    index, which is (t, 0); the bias row's block index is (0, 0) at every point. -/
theorem tile_indices5 : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- WHAT POINT t WRITES BACK is tile t of `Gcn.biasElu` of the two input arrays: the body stores its result over the
    whole tile; entry j of the input tile is the input array at row 5000 · t + (row of j) and the column of j, which is
    also where entry j of the output tile lands; the bias tile is the whole bias array. -/
theorem tile_written5 (c : Dev nD) (t : Fin cfg5.N) :
    (dat5 (F := Ideal) V c).flushed 2 t
      = ((cfg5.win 2).blk t).view.read (Elt Ideal) (Gcn.biasElu (V c main_v74) (V c main_v75)) := by
  show (cfg5.win 2).cut (grid5.coords t) ((dat5 V c).after 2 t) = _
  rw [after5_2]
  unfold out5_2
  rw [View.canon_unit_zero zero_offsets5]
  simp only [View.ld_unit_zero (S := S5000x128) zero_offsets5, View.ld_unit_zero (S := S1x128) zero_offsets5]
  obtain ⟨e0, e1, e2, e3, e4, e5⟩ := tile_indices5 t
  funext j
  show k5_pay1 (iblk5 V c 0 t) (iblk5 V c 1 t) j
      = Gcn.biasElu (V c main_v74) (V c main_v75) (((cfg5.win 2).blk t).view.emb j)
  refine elu_tile5 (iblk5 V c 0 t) (iblk5 V c 1 t) (V c main_v74) (V c main_v75) j
    (((cfg5.win 2).blk t).view.emb j) ?_ ?_ ?_
  · show V c main_v74 (((cfg5.win 0).blk t).view.emb j) = V c main_v74 (((cfg5.win 2).blk t).view.emb j)
    refine congrArg _ (funext fun a => Fin.ext ?_)
    match a with
    | ⟨0, _⟩ =>
      show win5_0.index t (0 : Fin 2) * 5000 + 1 * (j 0).val = win5_2.index t (0 : Fin 2) * 5000 + 1 * (j 0).val
      rw [e0]
    | ⟨1, _⟩ =>
      show win5_0.index t (1 : Fin 2) * 128 + 1 * (j 1).val = win5_2.index t (1 : Fin 2) * 128 + 1 * (j 1).val
      rw [e1]
  · intro q
    show V c main_v75 (((cfg5.win 1).blk t).view.emb (ix2 (0 : Fin 1) q)) = V c main_v75 (ix2 (0 : Fin 1) q)
    refine congrArg _ (funext fun a => Fin.ext ?_)
    match a with
    | ⟨0, _⟩ =>
      show win5_1.index t (0 : Fin 2) * 1 + 1 * 0 = 0
      rw [e2]
    | ⟨1, _⟩ =>
      show win5_1.index t (1 : Fin 2) * 128 + 1 * q.val = q.val
      rw [e3]; omega
  · show win5_2.index t (1 : Fin 2) * 128 + 1 * (j 1).val = (j 1).val
    rw [e5]; omega

/-- An entry of the output array lies in point t's tile iff, on each axis, its coordinate is in the tile's range:
    from (block index) · (tile extent) up to one tile extent further. -/
theorem in_tile5 (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v76).slice (win5_2.rect t)).set ↔ _
  rw [View.set_slice_whole, Rect.mem_set_unit]
  exact Iff.rfl

/-- THE TILES COVER THE ARRAY: row r is in the tile of point r / 5000, which is below 20 since r is below 100000, and
    every tile spans all 128 columns. -/
theorem tiles_cover5 (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : grid5.N = 20 := N_5
  obtain ⟨t, ht⟩ : ∃ t : Fin cfg5.N, t.val = (i 0).val / 5000 :=
    ⟨⟨(i 0).val / 5000, by show (i 0).val / 5000 < grid5.N; rw [hN]; omega⟩, rfl⟩
  obtain ⟨-, -, -, -, e4, e5⟩ := tile_indices5 t
  refine ⟨t, flush5_2 t, ?_⟩
  rw [in_tile5]
  intro a
  match a with
  | ⟨0, _⟩ =>
    show win5_2.index t (0 : Fin 2) * 5000 ≤ (i 0).val ∧ (i 0).val < win5_2.index t (0 : Fin 2) * 5000 + 5000
    rw [e4, ht]; omega
  | ⟨1, _⟩ =>
    show win5_2.index t (1 : Fin 2) * 128 ≤ (i 1).val ∧ (i 1).val < win5_2.index t (1 : Fin 2) * 128 + 128
    rw [e5]; omega

/-- THE OUTPUT ARRAY AFTER THE 20 POINTS: every point writes its tile of `Gcn.biasElu` of the two input arrays and the
    tiles cover the array, so the array is that function: the bias row added to every row, then ELU entrywise. -/
theorem region5 (c : Dev nD) :
    (dat5 (F := Ideal) V c).arrAt 2 cfg5.N = Gcn.biasElu (V c main_v74) (V c main_v75) :=
  (dat5 (F := Ideal) V c).arrAt_eq_of_cover 2 (Gcn.biasElu (V c main_v74) (V c main_v75))
    (fun t _ => tile_written5 V c t) tiles_cover5

end Cert.KernelIdeal.Val

end
-- ==== Proof.RegPool6.lean ====
/-
  The value of the pool region: a membership matrix contracted against the node features, accumulated block by block.

  The region walks 20 points. At point t it reads rows 5000 t, …, 5000 t + 4999 of the node features h ([100000, 128])
  and of the membership matrix oh ([100000, 64]), and it keeps ONE [64, 128] output block, the same at every point. At
  the first point the block is reset to zero; at every point the block is updated by adding, at (g, q), the sum over
  the 5000 rows k of the two blocks of oh(k, g) · h(k, q): a product in which both operands contract their axis 0.
  Over the extended reals every operation is exact, the format changes and the same-shape casts are identities, so
  after point n the block holds at (g, q) the sum of oh(r, g) · h(r, q) over the nodes r below 5000 (n + 1): by
  induction on the point. Only the last point writes the block back, and the block is the whole output array, so the
  array ends holding the sum over all 100000 nodes, which is the pool.

  The parts: the contraction sum of a transposed-left product re-indexed to a plain sum over its rows; what the two
  control cases leave in the output block, as the update applied to the blocks read; the update at an index; the input
  blocks as rows of their arrays; the running sum; the array after the region.
-/
import proofs.«424757_j85409719648815_1_alg».proof.Proof.Gen.KernelIdeal.Frame
import proofs.«424757_j85409719648815_1_alg».proof.Proof.Gcn
import Idealize.ShloMosaic.Lib.Pipeline.Value
import Idealize.ShloMosaic.Lib.ValueIdx
import Idealize.ShloMosaic.PureOps.Dims
import Idealize.ShloMosaic.PureOps.Ideal.Laws
import Idealize.ShloMosaic.Lib.Tactic
import Mathlib.Algebra.BigOperators.Group.Finset.Basic
import Mathlib.Algebra.BigOperators.Fin

set_option maxRecDepth 16384

noncomputable section

namespace Cert.KernelIdeal.Val.Pool6

open Idealize.ShloMosaic Idealize.ShloMosaic.TcCoe Idealize.SL.Sem Idealize.ShloMosaic.ValueIdx
open Cert.KernelIdeal Cert.KernelIdeal.Gen
open Idealize.ShloMosaic.Pipeline (Dat)

/-! ## A transposed-left product's contraction sum, re-indexed

For a contraction of a [N, G] array with a [N, C] array in which both operands contract their axis 0 (no batch axis),
the sum over the contraction's own index type of the operands' products at the result index (p, q) is the plain sum
over k < N of l(k, p) * r(k, q). The operand indices are read one axis at a time: each operand's axis 0 is its only
contracting axis and reads the contraction index's one coordinate; the left operand's axis 1 is its only
non-contracting axis and, with no batch axis before it, reads the result index at position 0; the right operand's
axis 1 reads the result index at position 1, after the left operand's one non-contracting axis. -/

namespace PoolDot

variable {N G C : Nat}

/-- A coordinate of an index depends only on the axis' number, not on how the number is written. -/
theorem coord_val_congr {s : Shape} (j : s.Idx) (a b : Nat) (ha : a < s.rank) (hb : b < s.rank) (h : a = b) :
    (j ⟨a, ha⟩).val = (j ⟨b, hb⟩).val := by
  subst h; rfl

/-- The left operand's axis 0, its only contracting axis, reads the contraction index's one coordinate. -/
theorem lhs_val_0 (d : DotDims ⟨2, ![N, G]⟩ ⟨2, ![N, C]⟩ ⟨2, ![G, C]⟩)
    (hlc : d.lhsContracting = [0]) (hr : d.contr.rank = 1)
    (j : (⟨2, ![G, C]⟩ : Shape).Idx) (k : d.contr.Idx) :
    (d.lhsIdx j k (0 : Fin 2)).val = (k ⟨0, by omega⟩).val :=
  d.lhsIdx_val_of_single hlc j k

/-- The left operand's axis 1, its only non-contracting axis with no batch axis before it, reads the result
    index's coordinate 0. -/
theorem lhs_val_1 (d : DotDims ⟨2, ![N, G]⟩ ⟨2, ![N, C]⟩ ⟨2, ![G, C]⟩)
    (hlb : d.lhsBatch = []) (hln : d.lhsNonContracting = [1])
    (j : (⟨2, ![G, C]⟩ : Shape).Idx) (k : d.contr.Idx) :
    (d.lhsIdx j k (1 : Fin 2)).val = (j (0 : Fin 2)).val := by
  have hb : ¬ (1 : Fin 2) ∈ d.lhsBatch := by rw [hlb]; exact List.not_mem_nil
  have hn : (1 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The right operand's axis 0, its only contracting axis, reads the contraction index's one coordinate. -/
theorem rhs_val_0 (d : DotDims ⟨2, ![N, G]⟩ ⟨2, ![N, C]⟩ ⟨2, ![G, C]⟩)
    (hrc : d.rhsContracting = [0]) (hr : d.contr.rank = 1)
    (j : (⟨2, ![G, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![N, G]⟩ ⟨2, ![N, C]⟩ ⟨2, ![G, C]⟩)
    (hrb : d.rhsBatch = []) (hrn : d.rhsNonContracting = [1])
    (hlb : d.lhsBatch = []) (hln : d.lhsNonContracting = [1])
    (j : (⟨2, ![G, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(k, p)`. -/
theorem lhsIdx_eq (d : DotDims ⟨2, ![N, G]⟩ ⟨2, ![N, C]⟩ ⟨2, ![G, C]⟩)
    (hlb : d.lhsBatch = []) (hln : d.lhsNonContracting = [1]) (hlc : d.lhsContracting = [0])
    (hr : d.contr.rank = 1) (hs : d.contr.size ⟨0, by omega⟩ = N)
    (p : Fin G) (q : Fin C) (k : Fin N) :
    d.lhsIdx (ix2 p q) ((contrEquiv1 d N hr hs).symm k) = ix2 k p := by
  funext a
  apply Fin.ext
  match a with
  | ⟨0, _⟩ => exact (lhs_val_0 d hlc hr (ix2 p q) _).trans (contrEquiv1_symm_val d N hr hs k)
  | ⟨1, _⟩ => exact lhs_val_1 d hlb hln (ix2 p q) _

/-- The right operand's index at result index `(p, q)` and contraction position `k` is `(k, q)`. -/
theorem rhsIdx_eq (d : DotDims ⟨2, ![N, G]⟩ ⟨2, ![N, C]⟩ ⟨2, ![G, C]⟩)
    (hrb : d.rhsBatch = []) (hrn : d.rhsNonContracting = [1]) (hrc : d.rhsContracting = [0])
    (hlb : d.lhsBatch = []) (hln : d.lhsNonContracting = [1])
    (hr : d.contr.rank = 1) (hs : d.contr.size ⟨0, by omega⟩ = N)
    (p : Fin G) (q : Fin C) (k : Fin N) :
    d.rhsIdx (ix2 p q) ((contrEquiv1 d N hr hs).symm k) = ix2 k q := by
  funext a
  apply Fin.ext
  match a with
  | ⟨0, _⟩ => exact (rhs_val_0 d hrc hr (ix2 p q) _).trans (contrEquiv1_symm_val d N hr hs k)
  | ⟨1, _⟩ => exact rhs_val_1 d hrb hrn hlb hln (ix2 p q) _

/-- The contraction sum at `(p, q)` is `∑ k < N, l (k, p) * r (k, q)`. -/
theorem sum_eq {M : Type} [AddCommMonoid M] [Mul M] (d : DotDims ⟨2, ![N, G]⟩ ⟨2, ![N, C]⟩ ⟨2, ![G, C]⟩)
    (hlb : d.lhsBatch = []) (hln : d.lhsNonContracting = [1]) (hlc : d.lhsContracting = [0])
    (hrb : d.rhsBatch = []) (hrn : d.rhsNonContracting = [1]) (hrc : d.rhsContracting = [0])
    (l : (⟨2, ![N, G]⟩ : Shape).Idx → M) (r : (⟨2, ![N, C]⟩ : Shape).Idx → M) (p : Fin G) (q : Fin C) :
    ∑ k : d.contr.Idx, l (d.lhsIdx (ix2 p q) k) * r (d.rhsIdx (ix2 p q) k) = ∑ k : Fin N, l (ix2 k p) * r (ix2 k q) := by
  have hr : d.contr.rank = 1 := by rw [d.rank_contr, hlc]; rfl
  have hs : d.contr.size ⟨0, by omega⟩ = N := by
    have h := d.size_contr 0 (by rw [hlc]; exact Nat.one_pos)
    rw [h]
    simp [hlc]
  refine (Equiv.sum_comp (contrEquiv1 d N hr hs).symm _).symm.trans (Finset.sum_congr rfl fun k _ => ?_)
  rw [lhsIdx_eq d hlb hln hlc hr hs p q k, rhsIdx_eq d hrb hrn hrc hlb hln hr hs p q k]

end PoolDot

/-! ## What each control case leaves in the output block -/

section Pieces
variable {F : FTy → Type} [FloatOps F]

theorem hz : (![0, 0] : Fin 2 → Nat) = fun _ => 0 := funext fun a => by fin_cases a <;> rfl

/-- Away from the first point the body leaves, in the output block holding `xo`, the update of `xo` by the two
    input blocks: its one store covers the block, and its loads read the three whole buffers. -/
theorem out_B (c : Dev nD) (i : grid6.Coords) (a1 : Memref sig .tc .vmem S5000x128 .f32) (h1 : a1.IsWhole)
    (a2 : Memref sig .tc .vmem S5000x64 .bf16) (h2 : a2.IsWhole) (a3 : Memref sig .tc .vmem S64x128 .f32) (h3 : a3.IsWhole)
    (hc : ¬cond6_0 i) (x0 : Vec F S5000x128 .f32) (x1 : Vec F S5000x64 .bf16) (xo : Vec F S64x128 .f32) :
    out6_B_2 c i a1 h1 a2 h2 a3 h3 hc x0 x1 xo = k6_pay2 x0 x1 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero hz]
  simp only [View.readAt_eq_ld, h1.read_unread, h2.read_unread, h3.read_unread, View.ld_unit_zero (S := S5000x128) hz,
    View.ld_unit_zero (S := S5000x64) hz, View.ld_unit_zero (S := S64x128) hz]

/-- At the first point the body stores the zero block, reads it back, and leaves its update by the two input
    blocks: the later store covers the block, and the read-back of the first store is the zero block. -/
theorem out_A (c : Dev nD) (i : grid6.Coords) (a1 : Memref sig .tc .vmem S5000x128 .f32) (h1 : a1.IsWhole)
    (a2 : Memref sig .tc .vmem S5000x64 .bf16) (h2 : a2.IsWhole) (a3 : Memref sig .tc .vmem S64x128 .f32) (h3 : a3.IsWhole)
    (hc : cond6_0 i) (x0 : Vec F S5000x128 .f32) (x1 : Vec F S5000x64 .bf16) :
    out6_A_2 c i a1 h1 a2 h2 a3 h3 hc x0 x1 = k6_pay2 x0 x1 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S64x128) hz, View.readCov_unit_zero (S := S64x128) _ hz]
  simp only [View.readAt_eq_ld, h1.read_unread, h2.read_unread, View.ld_unit_zero (S := S5000x128) hz,
    View.ld_unit_zero (S := S5000x64) hz]

end Pieces

/-! ## The update at an index, over the extended reals -/

/-- The dimension record of the body's product: both operands contract their axis 0. -/
abbrev poolDims : DotDims S5000x64 S5000x128 S64x128 := dot_S5000x64_S5000x128_S64x128_0_0_1_1_n_n

/-- The zero block reads 0 everywhere. -/
theorem pay1_apply (j : S64x128.Idx) : (k6_pay1 (F := Ideal)) j = 0 := Ideal.ofBits_zero_f32

/-- The update at (g, q): the old entry plus the sum over the block's rows k of oh(k, g) · h(k, q). The two format
    changes and the three same-shape casts are identities, and the product accumulates into the zero constant. -/
theorem pay2_apply (x0 : Vec Ideal S5000x128 .f32) (x1 : Vec Ideal S5000x64 .bf16) (xo : Vec Ideal S64x128 .f32)
    (g : Fin 64) (q : Fin 128) :
    k6_pay2 x0 x1 xo (ix2 g q) = xo (ix2 g q) + ∑ k : Fin 5000, x1 (ix2 k g) * x0 (ix2 k q) := by
  unfold k6_pay2
  simp only [shapeCast_self]
  refine congrArg (xo (ix2 g q) + ·) ?_
  refine (Ideal.matmul_constant_zero_apply poolDims none _ _ (ix2 g q)).trans ?_
  exact PoolDot.sum_eq (M := EReal) poolDims rfl rfl rfl rfl rfl rfl x1 x0 g q

/-! ## The blocks the body reads, and the arrays they are cut from -/

section Region
variable (V : (c : Dev nD) → (b : Ref sig .tc) → Buf (Elt Ideal) ((c : Thread nD τ).loc b))

/-- The node features' block at point `t`: 5000 rows of 128. -/
abbrev hblk (c : Dev nD) (t : Fin cfg6.N) : Vec Ideal S5000x128 .f32 := iblk6 V c 0 t
/-- The membership matrix's block at point `t`: 5000 rows of 64. -/
abbrev ohblk (c : Dev nD) (t : Fin cfg6.N) : Vec Ideal S5000x64 .bf16 := iblk6 V c 1 t
/-- The node features as the region finds them. -/
abbrev harr (c : Dev nD) : Vec Ideal S100000x128 .f32 := V c main_v76
/-- The membership matrix as the region finds it. -/
abbrev oharr (c : Dev nD) : Vec Ideal S100000x64 .bf16 := V c main_v83

/-- The printed index maps, decided over the grid: both input windows sit at block (t, 0). -/
theorem idx_facts : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- Row `k` of the block at point `t` is row `5000 t + k` of the array. -/
def row (t : Fin cfg6.N) (k : Fin 5000) : Fin 100000 :=
  ⟨5000 * t.val + k.val, by have := t.isLt; have hN : cfg6.N = 20 := N_6; omega⟩

theorem hblk_apply (c : Dev nD) (t : Fin cfg6.N) (k : Fin 5000) (q : Fin 128) :
    hblk V c t (ix2 k q) = harr V c (ix2 (row t k) q) := by
  obtain ⟨e0, e1, -, -⟩ := idx_facts t
  show V c main_v76 (((cfg6.win 0).blk t).view.emb (ix2 k q)) = V c main_v76 (ix2 (row t k) q)
  refine congrArg _ ?_
  funext a
  apply Fin.ext
  match a with
  | ⟨0, _⟩ => show win6_0.index t (0 : Fin 2) * 5000 + 1 * k.val = 5000 * t.val + k.val; omega
  | ⟨1, _⟩ => show win6_0.index t (1 : Fin 2) * 128 + 1 * q.val = q.val; omega

theorem ohblk_apply (c : Dev nD) (t : Fin cfg6.N) (k : Fin 5000) (g : Fin 64) :
    ohblk V c t (ix2 k g) = oharr V c (ix2 (row t k) g) := by
  obtain ⟨-, -, e0, e1⟩ := idx_facts t
  show V c main_v83 (((cfg6.win 1).blk t).view.emb (ix2 k g)) = V c main_v83 (ix2 (row t k) g)
  refine congrArg _ ?_
  funext a
  apply Fin.ext
  match a with
  | ⟨0, _⟩ => show win6_1.index t (0 : Fin 2) * 5000 + 1 * k.val = 5000 * t.val + k.val; omega
  | ⟨1, _⟩ => show win6_1.index t (1 : Fin 2) * 64 + 1 * g.val = g.val; omega

/-! ## The running sum -/

/-- The product the pool sums at node `r`, for the entry (g, q); zero past the last node. -/
def term (c : Dev nD) (g : Fin 64) (q : Fin 128) (r : ℕ) : EReal :=
  if h : r < 100000 then oharr V c (ix2 ⟨r, h⟩ g) * harr V c (ix2 ⟨r, h⟩ q) else 0

/-- The block at point `t` contributes the products at the nodes 5000 t, …, 5000 t + 4999. -/
theorem block_sum (c : Dev nD) (t : Fin cfg6.N) (g : Fin 64) (q : Fin 128) :
    ∑ k : Fin 5000, ohblk V c t (ix2 k g) * hblk V c t (ix2 k q)
      = ∑ k ∈ Finset.range 5000, term V c g q (5000 * t.val + k) := by
  rw [Finset.sum_range]
  refine Finset.sum_congr rfl fun k _ => ?_
  rw [ohblk_apply, hblk_apply]
  have hlt : 5000 * t.val + k.val < 100000 := (row t k).isLt
  unfold term
  rw [dif_pos hlt]
  rfl

/-- After point `n` the output block holds, at (g, q), the sum of the products over the nodes below 5000 (n + 1):
    by induction on the point. The first point starts from the zero block; every later point adds its block's
    products to what the point before left. -/
theorem outsAt_eq (c : Dev nD) : ∀ (n : ℕ) (hn : n < cfg6.N) (g : Fin 64) (q : Fin 128),
    outsAt6 V c n hn (ix2 g q) = ∑ r ∈ Finset.range (5000 * (n + 1)), term V c g q r
  | 0, hn, g, q => by
    rw [outsAt6_A V c ⟨0, hn⟩ (Nat.zero_mod 20)]
    refine (congrFun (out_A (F := Ideal) c (grid6.coords ⟨0, hn⟩) (ms6_0 ⟨0, hn⟩) (hs6_0 ⟨0, hn⟩) (ms6_1 ⟨0, hn⟩)
      (hs6_1 ⟨0, hn⟩) (ms6_2 ⟨0, hn⟩) (hs6_2 ⟨0, hn⟩) ((hcond6_0 ⟨0, hn⟩).mpr (Nat.zero_mod 20)) (hblk V c ⟨0, hn⟩)
      (ohblk V c ⟨0, hn⟩)) (ix2 g q)).trans ?_
    refine (pay2_apply (hblk V c ⟨0, hn⟩) (ohblk V c ⟨0, hn⟩) (k6_pay1 (F := Ideal)) g q).trans ?_
    rw [pay1_apply, zero_add, block_sum]
    simp only [Nat.mul_zero, Nat.zero_add, Nat.mul_one]
  | n + 1, hn, g, q => by
    have hN : cfg6.N = 20 := N_6
    have hB : ¬(⟨n + 1, hn⟩ : Fin cfg6.N).val % 20 = 0 := by dsimp only; omega
    rw [outsAt6_B V c ⟨n + 1, hn⟩ hB]
    refine (congrFun (out_B (F := Ideal) c (grid6.coords ⟨n + 1, hn⟩) (ms6_0 ⟨n + 1, hn⟩) (hs6_0 ⟨n + 1, hn⟩)
      (ms6_1 ⟨n + 1, hn⟩) (hs6_1 ⟨n + 1, hn⟩) (ms6_2 ⟨n + 1, hn⟩) (hs6_2 ⟨n + 1, hn⟩)
      (fun h => hB ((hcond6_0 ⟨n + 1, hn⟩).mp h)) (hblk V c ⟨n + 1, hn⟩) (ohblk V c ⟨n + 1, hn⟩)
      (outsAt6 V c n (Nat.lt_of_succ_lt hn))) (ix2 g q)).trans ?_
    refine (pay2_apply (hblk V c ⟨n + 1, hn⟩) (ohblk V c ⟨n + 1, hn⟩) (outsAt6 V c n (Nat.lt_of_succ_lt hn)) g q).trans ?_
    rw [outsAt_eq c n (Nat.lt_of_succ_lt hn) g q, block_sum,
      show 5000 * (n + 1 + 1) = 5000 * (n + 1) + 5000 from by omega, Finset.sum_range_add]

/-- Over all 100000 nodes the running sum is the pool's contraction. -/
theorem term_sum (c : Dev nD) (g : Fin 64) (q : Fin 128) :
    ∑ r ∈ Finset.range 100000, term V c g q r = ∑ r : Fin 100000, oharr V c (ix2 r g) * harr V c (ix2 r q) := by
  rw [Finset.sum_range]
  refine Finset.sum_congr rfl fun r _ => ?_
  unfold term
  rw [dif_pos r.isLt]

/-! ## The array after the region -/

/-- The last point, the only one whose block is written back. -/
def t19 : Fin grid6.N := ⟨19, by rw [N_6]; decide⟩

/-- The one write-back, at the last point, writes the pool: the output's one block, read through zero offsets, is
    the whole [64, 128] array, and after the last point it holds the sum over all the nodes. -/
theorem flushed_eq (c : Dev nD) (t : Fin cfg6.N) (hf : (cfg6.win 2).flush t = true) :
    (dat6 V c).flushed 2 t = ((cfg6.win 2).blk t).view.read (Elt Ideal) (Gcn.pool (harr V c) (oharr V c)) := by
  have hN : cfg6.N = 20 := N_6
  have h19 : t.val = 19 := by have := (flush6_2 t).mp hf; have := t.isLt; omega
  obtain rfl : t = t19 := Fin.ext h19
  show (cfg6.win 2).cut (grid6.coords t19) ((dat6 V c).after 2 t19) = _
  rw [after6_2]
  have hz' : (fun a => win6_2.index t19 a * main_v84.ty.shape.size a) = fun _ => 0 :=
    funext fun a => by fin_cases a <;> decide
  refine Eq.trans ?_ (Memref.read_access_unit_zero (Elt Ideal) main_v84 hz' (fun a => by rw [congrFun hz' a]; simp)
    (Gcn.pool (harr V c) (oharr V c))).symm
  funext j
  obtain ⟨g, q, rfl⟩ : ∃ (g : Fin 64) (q : Fin 128), j = ix2 g q := ⟨j 0, j 1, eq_ix2 j⟩
  exact (outsAt_eq V c 19 t19.isLt g q).trans (term_sum V c g q)

end Region

end Cert.KernelIdeal.Val.Pool6

namespace Cert.KernelIdeal.Val

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- REGION 6, the pool: after its 20 points the output array holds, at (g, q), the sum over all 100000 nodes r of
    oh(r, g) · h(r, q). Only the last point writes its block back, and that block is the whole array. -/
theorem region6 (c : Dev nD) : (dat6 (F := Ideal) V c).arrAt 2 cfg6.N = Gcn.pool (V c main_v76) (V c main_v83) :=
  (dat6 V c).arrAt_eq_of_cover 2 (Gcn.pool (V c main_v76) (V c main_v83)) (Pool6.flushed_eq V c) fun i =>
    ⟨Pool6.t19, (flush6_2 Pool6.t19).mpr rfl, by
      show i ∈ ((View.whole main_v84).slice (win6_2.rect Pool6.t19)).set
      rw [View.set_slice_whole, Rect.mem_set_unit]
      intro a
      have h0 : (i 0 : Nat) < 64 := (i 0).isLt
      have h1 : (i 1 : Nat) < 128 := (i 1).isLt
      match a with
      | ⟨0, _⟩ =>
        show win6_2.index Pool6.t19 0 * win6_2.size 0 ≤ (i 0 : Nat)
          ∧ (i 0 : Nat) < win6_2.index Pool6.t19 0 * win6_2.size 0 + win6_2.xsize (grid6.coords Pool6.t19) 0
        rw [show win6_2.index Pool6.t19 0 * win6_2.size 0 = 0 from by decide +kernel,
          show win6_2.xsize (grid6.coords Pool6.t19) 0 = 64 from by decide +kernel]
        omega
      | ⟨1, _⟩ =>
        show win6_2.index Pool6.t19 1 * win6_2.size 1 ≤ (i 1 : Nat)
          ∧ (i 1 : Nat) < win6_2.index Pool6.t19 1 * win6_2.size 1 + win6_2.xsize (grid6.coords Pool6.t19) 1
        rw [show win6_2.index Pool6.t19 1 * win6_2.size 1 = 0 from by decide +kernel,
          show win6_2.xsize (grid6.coords Pool6.t19) 1 = 128 from by decide +kernel]
        omega⟩

end Cert.KernelIdeal.Val

end
-- ==== Proof.KValue.lean ====
/-
  The idealized kernel program's result buffer, followed to `kOut` of the launch arguments.

  Each kernel region's output array is its specification function of the region's two input arrays (the seven region
  lemmas), each host stretch's result its named function of the buffers it reads (the stretch lemmas), and the buffers a
  segment does not write are carried (the walk): composing them in program order gives the features after each layer,
  the pooled sums and the head's output.
-/
import proofs.«424757_j85409719648815_1_alg».proof.Proof.KWalk
import proofs.«424757_j85409719648815_1_alg».proof.Proof.RegMm0
import proofs.«424757_j85409719648815_1_alg».proof.Proof.RegMm2
import proofs.«424757_j85409719648815_1_alg».proof.Proof.RegMm4
import proofs.«424757_j85409719648815_1_alg».proof.Proof.RegElu1
import proofs.«424757_j85409719648815_1_alg».proof.Proof.RegElu3
import proofs.«424757_j85409719648815_1_alg».proof.Proof.RegElu5
import proofs.«424757_j85409719648815_1_alg».proof.Proof.RegPool6

set_option maxRecDepth 16384

noncomputable section

namespace Cert.KernelIdeal.Walk

open Idealize.ShloMosaic Idealize.ShloMosaic.TcCoe Idealize.ShloMosaic.StableHlo Idealize.SL.Sem
open Cert.KernelIdeal Cert.KernelIdeal.Gen Cert.KernelIdeal.Ch

variable (m : (ℓ : Loc nD τ sig) → Buf (Elt Ideal) ℓ) (ρ : Dev nD → PrngReg) (c : Dev nD)

/-! ## The carried facts at every boundary -/

theorem argsAt1 : ArgsAt m c A1 (W1 m ρ c) := args1 m ρ c
theorem argsAt2 : ArgsAt m c A2 (W2 m ρ c) := args2 m ρ c (argsAt1 m ρ c)
theorem argsAt3 : ArgsAt m c A2 (W3 m ρ c) := args3 m ρ c (argsAt2 m ρ c)
theorem argsAt4 : ArgsAt m c A2 (W4 m ρ c) := args4 m ρ c (argsAt3 m ρ c)
theorem argsAt5 : ArgsAt m c A5 (W5 m ρ c) := args5 m ρ c (argsAt4 m ρ c)
theorem argsAt6 : ArgsAt m c A5 (W6 m ρ c) := args6 m ρ c (argsAt5 m ρ c)
theorem argsAt7 : ArgsAt m c A5 (W7 m ρ c) := args7 m ρ c (argsAt6 m ρ c)
theorem argsAt8 : ArgsAt m c A8 (W8 m ρ c) := args8 m ρ c (argsAt7 m ρ c)
theorem argsAt9 : ArgsAt m c A8 (W9 m ρ c) := args9 m ρ c (argsAt8 m ρ c)
theorem argsAt10 : ArgsAt m c A8 (W10 m ρ c) := args10 m ρ c (argsAt9 m ρ c)
theorem argsAt11 : ArgsAt m c A8 (W11 m ρ c) := args11 m ρ c (argsAt10 m ρ c)
theorem argsAt12 : ArgsAt m c A8 (W12 m ρ c) := args12 m ρ c (argsAt11 m ρ c)
theorem argsAt13 : ArgsAt m c A8 (W13 m ρ c) := args13 m ρ c (argsAt12 m ρ c)
theorem argsAt14 : ArgsAt m c A8 (W14 m ρ c) := args14 m ρ c (argsAt13 m ρ c)

theorem edgeAt2 : EdgeAt m c (W2 m ρ c) := edge2 m ρ c (edge1 m ρ c)
theorem edgeAt5 : EdgeAt m c (W5 m ρ c) := edge5 m ρ c (edge4 m ρ c (edge3 m ρ c (edgeAt2 m ρ c)))
theorem edgeAt8 : EdgeAt m c (W8 m ρ c) := edge8 m ρ c (edge7 m ρ c (edge6 m ρ c (edgeAt5 m ρ c)))

/-! ## The features layer by layer -/

/-- The sources, destinations and normalisation of the launch edge list. -/
def sA : IVec S1700000 32 := srcOf (m ((c : Thread nD τ).loc main_arg1))
def dA : IVec S1700000 32 := dstOf (m ((c : Thread nD τ).loc main_arg1))
def nA : FVec Ideal S1700000 .f32 := normOf (sA m c) (dA m c)

/-- The features after the first, second and third layer. -/
def h1 : FVec Ideal S100000x128 .f32 :=
  Gcn.biasElu (aggOf (sA m c) (dA m c) (nA m c) (Gcn.mm (m ((c : Thread nD τ).loc main_arg0)) (m ((c : Thread nD τ).loc main_arg3))))
    (rowOf (m ((c : Thread nD τ).loc main_arg4)))
def h2 : FVec Ideal S100000x128 .f32 :=
  Gcn.biasElu (aggOf (sA m c) (dA m c) (nA m c) (Gcn.mm (h1 m c) (m ((c : Thread nD τ).loc main_arg5))))
    (rowOf (m ((c : Thread nD τ).loc main_arg6)))
def h3 : FVec Ideal S100000x128 .f32 :=
  Gcn.biasElu (aggOf (sA m c) (dA m c) (nA m c) (Gcn.mm (h2 m c) (m ((c : Thread nD τ).loc main_arg7))))
    (rowOf (m ((c : Thread nD τ).loc main_arg8)))

theorem at_v29 : W2 m ρ c (Proc.devRef .tc main_v29) = Gcn.mm (m ((c : Thread nD τ).loc main_arg0)) (m ((c : Thread nD τ).loc main_arg3)) :=
  (W2_arr m ρ c 2).trans ((Val.region0 (V1 m ρ) c).trans
    (congrArg₂ Gcn.mm (argsAt1 m ρ c main_arg0 (by decide)) (argsAt1 m ρ c main_arg3 (by decide))))

theorem at_v42 : W3 m ρ c (Proc.devRef .tc main_v42)
    = aggOf (sA m c) (dA m c) (nA m c) (Gcn.mm (m ((c : Thread nD τ).loc main_arg0)) (m ((c : Thread nD τ).loc main_arg3))) :=
  (agg1_read (W2 m ρ c)).trans (by
    rw [(edgeAt2 m ρ c).1, (edgeAt2 m ρ c).2.1, (edgeAt2 m ρ c).2.2, at_v29 m ρ c]; rfl)

theorem at_v43 : W3 m ρ c (Proc.devRef .tc main_v43) = rowOf (m ((c : Thread nD τ).loc main_arg4)) :=
  (row1_read (W2 m ρ c)).trans (congrArg rowOf (argsAt2 m ρ c main_arg4 (by decide)))

theorem at_v44 : W4 m ρ c (Proc.devRef .tc main_v44) = h1 m c :=
  (W4_arr m ρ c 2).trans ((Val.region1 (V3 m ρ) c).trans (congrArg₂ Gcn.biasElu (at_v42 m ρ c) (at_v43 m ρ c)))

theorem at_v45 : W5 m ρ c (Proc.devRef .tc main_v45) = Gcn.mm (h1 m c) (m ((c : Thread nD τ).loc main_arg5)) :=
  (W5_arr m ρ c 2).trans ((Val.region2 (V4 m ρ) c).trans
    (congrArg₂ Gcn.mm (at_v44 m ρ c) (argsAt4 m ρ c main_arg5 (by decide))))

theorem at_v58 : W6 m ρ c (Proc.devRef .tc main_v58)
    = aggOf (sA m c) (dA m c) (nA m c) (Gcn.mm (h1 m c) (m ((c : Thread nD τ).loc main_arg5))) :=
  (agg3_read (W5 m ρ c)).trans (by
    rw [(edgeAt5 m ρ c).1, (edgeAt5 m ρ c).2.1, (edgeAt5 m ρ c).2.2, at_v45 m ρ c]; rfl)

theorem at_v59 : W6 m ρ c (Proc.devRef .tc main_v59) = rowOf (m ((c : Thread nD τ).loc main_arg6)) :=
  (row3_read (W5 m ρ c)).trans (congrArg rowOf (argsAt5 m ρ c main_arg6 (by decide)))

theorem at_v60 : W7 m ρ c (Proc.devRef .tc main_v60) = h2 m c :=
  (W7_arr m ρ c 2).trans ((Val.region3 (V6 m ρ) c).trans (congrArg₂ Gcn.biasElu (at_v58 m ρ c) (at_v59 m ρ c)))

theorem at_v61 : W8 m ρ c (Proc.devRef .tc main_v61) = Gcn.mm (h2 m c) (m ((c : Thread nD τ).loc main_arg7)) :=
  (W8_arr m ρ c 2).trans ((Val.region4 (V7 m ρ) c).trans
    (congrArg₂ Gcn.mm (at_v60 m ρ c) (argsAt7 m ρ c main_arg7 (by decide))))

theorem at_v74 : W9 m ρ c (Proc.devRef .tc main_v74)
    = aggOf (sA m c) (dA m c) (nA m c) (Gcn.mm (h2 m c) (m ((c : Thread nD τ).loc main_arg7))) :=
  (agg5_read (W8 m ρ c)).trans (by
    rw [(edgeAt8 m ρ c).1, (edgeAt8 m ρ c).2.1, (edgeAt8 m ρ c).2.2, at_v61 m ρ c]; rfl)

theorem at_v75 : W9 m ρ c (Proc.devRef .tc main_v75) = rowOf (m ((c : Thread nD τ).loc main_arg8)) :=
  (row5_read (W8 m ρ c)).trans (congrArg rowOf (argsAt8 m ρ c main_arg8 (by decide)))

theorem at_v76 : W10 m ρ c (Proc.devRef .tc main_v76) = h3 m c :=
  (W10_arr m ρ c 2).trans ((Val.region5 (V9 m ρ) c).trans (congrArg₂ Gcn.biasElu (at_v74 m ρ c) (at_v75 m ρ c)))

/-! ## The pool and the head -/

theorem at_v76' : W11 m ρ c (Proc.devRef .tc main_v76) = h3 m c :=
  Eq.trans (by kept_over hostOps6) (at_v76 m ρ c)

theorem at_v83 : W11 m ρ c (Proc.devRef .tc main_v83) = onehotOf (m ((c : Thread nD τ).loc main_arg2)) :=
  (onehot_read (W10 m ρ c)).trans (congrArg onehotOf (argsAt10 m ρ c main_arg2 (by decide)))

theorem at_v84 : W12 m ρ c (Proc.devRef .tc main_v84) = Gcn.pool (h3 m c) (onehotOf (m ((c : Thread nD τ).loc main_arg2))) :=
  (W12_arr m ρ c 2).trans ((Val.region6 (V11 m ρ) c).trans (congrArg₂ Gcn.pool (at_v76' m ρ c) (at_v83 m ρ c)))

theorem at_v97 : W13 m ρ c (Proc.devRef .tc main_v97)
    = hiddenOf (Gcn.pool (h3 m c) (onehotOf (m ((c : Thread nD τ).loc main_arg2)))) (m ((c : Thread nD τ).loc main_arg2))
        (m ((c : Thread nD τ).loc main_arg9)) (m ((c : Thread nD τ).loc main_arg10)) :=
  (hidden_read (W12 m ρ c)).trans (by
    rw [at_v84 m ρ c, argsAt12 m ρ c main_arg2 (by decide), argsAt12 m ρ c main_arg9 (by decide), argsAt12 m ρ c main_arg10 (by decide)])

theorem at_v98 : W14 m ρ c (Proc.devRef .tc main_v98)
    = reluOf (hiddenOf (Gcn.pool (h3 m c) (onehotOf (m ((c : Thread nD τ).loc main_arg2)))) (m ((c : Thread nD τ).loc main_arg2))
        (m ((c : Thread nD τ).loc main_arg9)) (m ((c : Thread nD τ).loc main_arg10))) :=
  (relu_read (W13 m ρ c)).trans (congrArg reluOf (at_v97 m ρ c))

/-- The result buffer after the last segment is `kOut` of the launch arguments. -/
theorem result_eq : W15 m ρ c (Proc.devRef .tc main_v108)
    = kOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) :=
  (sigmoid_read (W14 m ρ c)).trans (by
    rw [at_v98 m ρ c, argsAt14 m ρ c main_arg11 (by decide), argsAt14 m ρ c main_arg12 (by decide)]; rfl)

end Cert.KernelIdeal.Walk

end
-- ==== Proof.RefRun.lean ====
/-
  The reference program's run, written out: its @main as the list of its 176 host operations (the three ELU
  calls and the positive-part call listed at their call sites over the buffers each call names), cut into
  seven consecutive stretches, and the statement that every weakly fair execution of @main terminates with
  each buffer at the operations' fold over the launch contents.
-/
import proofs.«424757_j85409719648815_1_alg».proof.Proof.Gen.ReferenceIdeal
import Idealize.ShloMosaic.Lib.StableHlo.Run
import Idealize.ShloMosaic.PureOps.Ideal

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The edge lists with the self loops appended: the node numbering, the two rows of the edge array sliced and flattened, each followed by the node numbering (source list, target list). -/
abbrev s0a : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The edge weights: the in-degree of every node as a sum of ones over the target list, clamped below at one, its inverse square root, read at each edge's source and target (a negative index first moved up by the node count), and the product of the two readings. -/
abbrev s0b : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x3F800000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (maximumf : (⟨S100000, .f32⟩ : BufTy).Contents (Elt F) → (⟨S100000, .f32⟩ : BufTy).Contents (Elt F) → (⟨S100000, .f32⟩ : BufTy).Contents (Elt F)),
    StableHlo.unary main_v12 main_v13 (Host.rsqrt : (⟨S100000, .f32⟩ : BufTy).Contents (Elt F) → (⟨S100000, .f32⟩ : BufTy).Contents (Elt F)),
    StableHlo.nullary main_c (constantI S_ 32 0#32),
    StableHlo.unary main_c main_v14 (broadcastInDim S1700000 ![] bcast_S_S1700000 : (⟨S_, .i32⟩ : BufTy).Contents (Elt F) → (⟨S1700000, .i32⟩ : BufTy).Contents (Elt F)),
    StableHlo.binary main_v3 main_v14 main_v15 (cmpi .slt : (⟨S1700000, .i32⟩ : BufTy).Contents (Elt F) → (⟨S1700000, .i32⟩ : BufTy).Contents (Elt F) → (⟨S1700000, .i1⟩ : BufTy).Contents (Elt F)),
    StableHlo.nullary main_c_2 (constantI S_ 32 100000#32),
    StableHlo.unary main_c_2 main_v16 (broadcastInDim S1700000 ![] bcast_S_S1700000 : (⟨S_, .i32⟩ : BufTy).Contents (Elt F) → (⟨S1700000, .i32⟩ : BufTy).Contents (Elt F)),
    StableHlo.binary main_v3 main_v16 main_v17 (addi : (⟨S1700000, .i32⟩ : BufTy).Contents (Elt F) → (⟨S1700000, .i32⟩ : BufTy).Contents (Elt F) → (⟨S1700000, .i32⟩ : BufTy).Contents (Elt F)),
    StableHlo.ternary main_v15 main_v17 main_v3 main_v18 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v18 main_v19 (broadcastInDim S1700000x1 ![0] bcast_S1700000_S1700000x1_0 : (⟨S1700000, .i32⟩ : BufTy).Contents (Elt F) → (⟨S1700000x1, .i32⟩ : BufTy).Contents (Elt F)),
    StableHlo.binary main_v13 main_v19 main_v20 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_3 (constantI S_ 32 0#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v23 (broadcastInDim S1700000 ![] bcast_S_S1700000 : (⟨S_, .i32⟩ : BufTy).Contents (Elt F) → (⟨S1700000, .i32⟩ : BufTy).Contents (Elt F)),
    StableHlo.binary main_v6 main_v23 main_v24 (addi : (⟨S1700000, .i32⟩ : BufTy).Contents (Elt F) → (⟨S1700000, .i32⟩ : BufTy).Contents (Elt F) → (⟨S1700000, .i32⟩ : BufTy).Contents (Elt F)),
    StableHlo.ternary main_v22 main_v24 main_v6 main_v25 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v25 main_v26 (broadcastInDim S1700000x1 ![0] bcast_S1700000_S1700000x1_0 : (⟨S1700000, .i32⟩ : BufTy).Contents (Elt F) → (⟨S1700000x1, .i32⟩ : BufTy).Contents (Elt F)),
    StableHlo.binary main_v13 main_v26 main_v27 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v20 main_v27 main_v28 (mulf : (⟨S1700000, .f32⟩ : BufTy).Contents (Elt F) → (⟨S1700000, .f32⟩ : BufTy).Contents (Elt F) → (⟨S1700000, .f32⟩ : BufTy).Contents (Elt F)) ]

/-- First layer: the features times the weight matrix, each edge's source row read and scaled by the edge weight, the scaled rows summed into their target rows, the bias row added, then ELU (the positive part kept, exp − 1 of the rest). -/
abbrev layer1 : List (HloOp τ sig (Elt F)) :=
  [ StableHlo.binary main_arg0 main_arg3 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_5 (constantI S_ 32 0#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v3 main_v30 main_v31 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v32 (broadcastInDim S1700000 ![] bcast_S_S1700000 : (⟨S_, .i32⟩ : BufTy).Contents (Elt F) → (⟨S1700000, .i32⟩ : BufTy).Contents (Elt F)),
    StableHlo.binary main_v3 main_v32 main_v33 (addi : (⟨S1700000, .i32⟩ : BufTy).Contents (Elt F) → (⟨S1700000, .i32⟩ : BufTy).Contents (Elt F) → (⟨S1700000, .i32⟩ : BufTy).Contents (Elt F)),
    StableHlo.ternary main_v31 main_v33 main_v3 main_v34 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v34 main_v35 (broadcastInDim S1700000x1 ![0] bcast_S1700000_S1700000x1_0 : (⟨S1700000, .i32⟩ : BufTy).Contents (Elt F) → (⟨S1700000x1, .i32⟩ : BufTy).Contents (Elt F)),
    StableHlo.binary main_v29 main_v35 main_v36 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v28 main_v37 (broadcastInDim S1700000x1 ![0] bcast_S1700000_S1700000x1_0 : (⟨S1700000, .f32⟩ : BufTy).Contents (Elt F) → (⟨S1700000x1, .f32⟩ : BufTy).Contents (Elt F)),
    StableHlo.unary main_v37 main_v38 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v36 main_v38 main_v39 (mulf : (⟨S1700000x128, .f32⟩ : BufTy).Contents (Elt F) → (⟨S1700000x128, .f32⟩ : BufTy).Contents (Elt F) → (⟨S1700000x128, .f32⟩ : BufTy).Contents (Elt F)),
    StableHlo.nullary main_cst_7 (constant S_ .f32 0x00000000#32),
    StableHlo.unary main_cst_7 main_v40 (broadcastInDim S100000x128 ![] bcast_S_S100000x128 : (⟨S_, .f32⟩ : BufTy).Contents (Elt F) → (⟨S100000x128, .f32⟩ : BufTy).Contents (Elt F)),
    StableHlo.unary main_v6 main_v41 (broadcastInDim S1700000x1 ![0] bcast_S1700000_S1700000x1_0 : (⟨S1700000, .i32⟩ : BufTy).Contents (Elt F) → (⟨S1700000x1, .i32⟩ : BufTy).Contents (Elt F)),
    StableHlo.ternary main_v40 main_v41 main_v39 main_v42 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v45) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v45) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v45) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v45) main_call0.v7 main_call0.call1.v0 select ]

/-- Second layer: the same operations on the first layer's output with the second weight matrix and bias. -/
abbrev layer2 : List (HloOp τ sig (Elt F)) :=
  [ StableHlo.binary main_v46 main_arg5 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_8 (constantI S_ 32 0#32),
    StableHlo.unary main_c_8 main_v48 (broadcastInDim S1700000 ![] bcast_S_S1700000 : (⟨S_, .i32⟩ : BufTy).Contents (Elt F) → (⟨S1700000, .i32⟩ : BufTy).Contents (Elt F)),
    StableHlo.binary main_v3 main_v48 main_v49 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v50 (broadcastInDim S1700000 ![] bcast_S_S1700000 : (⟨S_, .i32⟩ : BufTy).Contents (Elt F) → (⟨S1700000, .i32⟩ : BufTy).Contents (Elt F)),
    StableHlo.binary main_v3 main_v50 main_v51 (addi : (⟨S1700000, .i32⟩ : BufTy).Contents (Elt F) → (⟨S1700000, .i32⟩ : BufTy).Contents (Elt F) → (⟨S1700000, .i32⟩ : BufTy).Contents (Elt F)),
    StableHlo.ternary main_v49 main_v51 main_v3 main_v52 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v52 main_v53 (broadcastInDim S1700000x1 ![0] bcast_S1700000_S1700000x1_0 : (⟨S1700000, .i32⟩ : BufTy).Contents (Elt F) → (⟨S1700000x1, .i32⟩ : BufTy).Contents (Elt F)),
    StableHlo.binary main_v47 main_v53 main_v54 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v28 main_v55 (broadcastInDim S1700000x1 ![0] bcast_S1700000_S1700000x1_0 : (⟨S1700000, .f32⟩ : BufTy).Contents (Elt F) → (⟨S1700000x1, .f32⟩ : BufTy).Contents (Elt F)),
    StableHlo.unary main_v55 main_v56 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v54 main_v56 main_v57 (mulf : (⟨S1700000x128, .f32⟩ : BufTy).Contents (Elt F) → (⟨S1700000x128, .f32⟩ : BufTy).Contents (Elt F) → (⟨S1700000x128, .f32⟩ : BufTy).Contents (Elt F)),
    StableHlo.nullary main_cst_10 (constant S_ .f32 0x00000000#32),
    StableHlo.unary main_cst_10 main_v58 (broadcastInDim S100000x128 ![] bcast_S_S100000x128 : (⟨S_, .f32⟩ : BufTy).Contents (Elt F) → (⟨S100000x128, .f32⟩ : BufTy).Contents (Elt F)),
    StableHlo.unary main_v6 main_v59 (broadcastInDim S1700000x1 ![0] bcast_S1700000_S1700000x1_0 : (⟨S1700000, .i32⟩ : BufTy).Contents (Elt F) → (⟨S1700000x1, .i32⟩ : BufTy).Contents (Elt F)),
    StableHlo.ternary main_v58 main_v59 main_v57 main_v60 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg6 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v63) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v63) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v63) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v63) main_call1.v7 main_call1.call1.v0 select ]

/-- Third layer: the same operations on the second layer's output with the third weight matrix and bias. -/
abbrev layer3 : List (HloOp τ sig (Elt F)) :=
  [ StableHlo.binary main_v64 main_arg7 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_11 (constantI S_ 32 0#32),
    StableHlo.unary main_c_11 main_v66 (broadcastInDim S1700000 ![] bcast_S_S1700000 : (⟨S_, .i32⟩ : BufTy).Contents (Elt F) → (⟨S1700000, .i32⟩ : BufTy).Contents (Elt F)),
    StableHlo.binary main_v3 main_v66 main_v67 (cmpi .slt : (⟨S1700000, .i32⟩ : BufTy).Contents (Elt F) → (⟨S1700000, .i32⟩ : BufTy).Contents (Elt F) → (⟨S1700000, .i1⟩ : BufTy).Contents (Elt F)),
    StableHlo.nullary main_c_12 (constantI S_ 32 100000#32),
    StableHlo.unary main_c_12 main_v68 (broadcastInDim S1700000 ![] bcast_S_S1700000 : (⟨S_, .i32⟩ : BufTy).Contents (Elt F) → (⟨S1700000, .i32⟩ : BufTy).Contents (Elt F)),
    StableHlo.binary main_v3 main_v68 main_v69 (addi : (⟨S1700000, .i32⟩ : BufTy).Contents (Elt F) → (⟨S1700000, .i32⟩ : BufTy).Contents (Elt F) → (⟨S1700000, .i32⟩ : BufTy).Contents (Elt F)),
    StableHlo.ternary main_v67 main_v69 main_v3 main_v70 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v70 main_v71 (broadcastInDim S1700000x1 ![0] bcast_S1700000_S1700000x1_0 : (⟨S1700000, .i32⟩ : BufTy).Contents (Elt F) → (⟨S1700000x1, .i32⟩ : BufTy).Contents (Elt F)),
    StableHlo.binary main_v65 main_v71 main_v72 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v28 main_v73 (broadcastInDim S1700000x1 ![0] bcast_S1700000_S1700000x1_0 : (⟨S1700000, .f32⟩ : BufTy).Contents (Elt F) → (⟨S1700000x1, .f32⟩ : BufTy).Contents (Elt F)),
    StableHlo.unary main_v73 main_v74 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v72 main_v74 main_v75 (mulf : (⟨S1700000x128, .f32⟩ : BufTy).Contents (Elt F) → (⟨S1700000x128, .f32⟩ : BufTy).Contents (Elt F) → (⟨S1700000x128, .f32⟩ : BufTy).Contents (Elt F)),
    StableHlo.nullary main_cst_13 (constant S_ .f32 0x00000000#32),
    StableHlo.unary main_cst_13 main_v76 (broadcastInDim S100000x128 ![] bcast_S_S100000x128 : (⟨S_, .f32⟩ : BufTy).Contents (Elt F) → (⟨S100000x128, .f32⟩ : BufTy).Contents (Elt F)),
    StableHlo.unary main_v6 main_v77 (broadcastInDim S1700000x1 ![0] bcast_S1700000_S1700000x1_0 : (⟨S1700000, .i32⟩ : BufTy).Contents (Elt F) → (⟨S1700000x1, .i32⟩ : BufTy).Contents (Elt F)),
    StableHlo.ternary main_v76 main_v77 main_v75 main_v78 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg8 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v78 main_v80 main_v81 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v81) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v81) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v81) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v81) main_call2.v7 main_call2.call1.v0 select ]

/-- The per-graph sums: every node's feature row added into the row of its graph. -/
abbrev poolOps : List (HloOp τ sig (Elt F)) :=
  [ StableHlo.nullary main_cst_14 (constant S_ .f32 0x00000000#32),
    StableHlo.unary main_cst_14 main_v83 (broadcastInDim S64x128 ![] bcast_S_S64x128 : (⟨S_, .f32⟩ : BufTy).Contents (Elt F) → (⟨S64x128, .f32⟩ : BufTy).Contents (Elt F)),
    StableHlo.unary main_arg2 main_v84 (broadcastInDim S100000x1 ![0] bcast_S100000_S100000x1_0 : (⟨S100000, .i32⟩ : BufTy).Contents (Elt F) → (⟨S100000x1, .i32⟩ : BufTy).Contents (Elt F)),
    StableHlo.ternary main_v83 main_v84 main_v82 main_v85 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)) ]

/-- The head: the per-graph node counts clamped below at one, the sums divided by them, the first dense layer with bias and the positive part, the second dense layer with bias, and the logistic function 1 / (1 + exp(−z)). -/
abbrev headOps : List (HloOp τ sig (Elt F)) :=
  [ StableHlo.nullary main_cst_15 (constant S_ .f32 0x3F800000#32),
    StableHlo.unary main_cst_15 main_v86 (broadcastInDim S100000 ![] bcast_S_S100000 : (⟨S_, .f32⟩ : BufTy).Contents (Elt F) → (⟨S100000, .f32⟩ : BufTy).Contents (Elt F)),
    StableHlo.nullary main_cst_16 (constant S_ .f32 0x00000000#32),
    StableHlo.unary main_cst_16 main_v87 (broadcastInDim S64 ![] bcast_S_S64 : (⟨S_, .f32⟩ : BufTy).Contents (Elt F) → (⟨S64, .f32⟩ : BufTy).Contents (Elt F)),
    StableHlo.unary main_arg2 main_v88 (broadcastInDim S100000x1 ![0] bcast_S100000_S100000x1_0 : (⟨S100000, .i32⟩ : BufTy).Contents (Elt F) → (⟨S100000x1, .i32⟩ : BufTy).Contents (Elt F)),
    StableHlo.ternary main_v87 main_v88 main_v86 main_v89 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_17 (constant S_ .f32 0x3F800000#32),
    StableHlo.unary main_cst_17 main_v90 (broadcastInDim S64 ![] bcast_S_S64 : (⟨S_, .f32⟩ : BufTy).Contents (Elt F) → (⟨S64, .f32⟩ : BufTy).Contents (Elt F)),
    StableHlo.binary main_v89 main_v90 main_v91 (maximumf : (⟨S64, .f32⟩ : BufTy).Contents (Elt F) → (⟨S64, .f32⟩ : BufTy).Contents (Elt F) → (⟨S64, .f32⟩ : BufTy).Contents (Elt F)),
    StableHlo.unary main_v91 main_v92 (broadcastInDim S64x1 ![0] bcast_S64_S64x1_0 : (⟨S64, .f32⟩ : BufTy).Contents (Elt F) → (⟨S64x1, .f32⟩ : BufTy).Contents (Elt F)),
    StableHlo.unary main_v92 main_v93 (broadcastInDim S64x128 ![0, 1] bcast_S64x1_S64x128_0_1 : (⟨S64x1, .f32⟩ : BufTy).Contents (Elt F) → (⟨S64x128, .f32⟩ : BufTy).Contents (Elt F)),
    StableHlo.binary main_v85 main_v93 main_v94 (Host.divf : (⟨S64x128, .f32⟩ : BufTy).Contents (Elt F) → (⟨S64x128, .f32⟩ : BufTy).Contents (Elt F) → (⟨S64x128, .f32⟩ : BufTy).Contents (Elt F)),
    StableHlo.binary main_v94 main_arg9 main_v95 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    StableHlo.unary main_arg10 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S64x64 ![0, 1] bcast_S1x64_S64x64_0_1 : (⟨S1x64, .f32⟩ : BufTy).Contents (Elt F) → (⟨S64x64, .f32⟩ : BufTy).Contents (Elt F)),
    StableHlo.binary main_v95 main_v97 main_v98 (addf : (⟨S64x64, .f32⟩ : BufTy).Contents (Elt F) → (⟨S64x64, .f32⟩ : BufTy).Contents (Elt F) → (⟨S64x64, .f32⟩ : BufTy).Contents (Elt F)),
    TRef.nullary main_call3.cst (constant S_ .f32 0x00000000#32),
    TRef.unary main_call3.cst main_call3.v0 (broadcastInDim S64x64 ![] bcast_S_S64x64),
    TRef.binary (.of main_v98) main_call3.v0 main_call3.v1 maximumf,
    StableHlo.binary main_v99 main_arg11 main_v100 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),
    StableHlo.unary main_arg12 main_v101 (broadcastInDim S1x1 ![1] bcast_S1_S1x1_1 : (⟨S1, .f32⟩ : BufTy).Contents (Elt F) → (⟨S1x1, .f32⟩ : BufTy).Contents (Elt F)),
    StableHlo.unary main_v101 main_v102 (broadcastInDim S64x1 ![0, 1] bcast_S1x1_S64x1_0_1 : (⟨S1x1, .f32⟩ : BufTy).Contents (Elt F) → (⟨S64x1, .f32⟩ : BufTy).Contents (Elt F)),
    StableHlo.binary main_v100 main_v102 main_v103 (addf : (⟨S64x1, .f32⟩ : BufTy).Contents (Elt F) → (⟨S64x1, .f32⟩ : BufTy).Contents (Elt F) → (⟨S64x1, .f32⟩ : BufTy).Contents (Elt F)),
    StableHlo.unary main_v103 main_v104 (Host.negf : (⟨S64x1, .f32⟩ : BufTy).Contents (Elt F) → (⟨S64x1, .f32⟩ : BufTy).Contents (Elt F)),
    StableHlo.unary main_v104 main_v105 (Host.exp : (⟨S64x1, .f32⟩ : BufTy).Contents (Elt F) → (⟨S64x1, .f32⟩ : BufTy).Contents (Elt F)),
    StableHlo.nullary main_cst_18 (constant S_ .f32 0x3F800000#32),
    StableHlo.unary main_cst_18 main_v106 (broadcastInDim S64x1 ![] bcast_S_S64x1 : (⟨S_, .f32⟩ : BufTy).Contents (Elt F) → (⟨S64x1, .f32⟩ : BufTy).Contents (Elt F)),
    StableHlo.binary main_v106 main_v105 main_v107 (addf : (⟨S64x1, .f32⟩ : BufTy).Contents (Elt F) → (⟨S64x1, .f32⟩ : BufTy).Contents (Elt F) → (⟨S64x1, .f32⟩ : BufTy).Contents (Elt F)),
    StableHlo.nullary main_cst_19 (constant S_ .f32 0x3F800000#32),
    StableHlo.unary main_cst_19 main_v108 (broadcastInDim S64x1 ![] bcast_S_S64x1 : (⟨S_, .f32⟩ : BufTy).Contents (Elt F) → (⟨S64x1, .f32⟩ : BufTy).Contents (Elt F)),
    StableHlo.binary main_v108 main_v107 main_v109 (Host.divf : (⟨S64x1, .f32⟩ : BufTy).Contents (Elt F) → (⟨S64x1, .f32⟩ : BufTy).Contents (Elt F) → (⟨S64x1, .f32⟩ : BufTy).Contents (Elt F)) ]

/-- @main's operations in order: the seven stretches one after the other. -/
abbrev ops : List (HloOp τ sig (Elt F)) := s0a ++ s0b ++ layer1 ++ layer2 ++ layer3 ++ poolOps ++ headOps

set_option maxRecDepth 65536 in
set_option maxHeartbeats 4000000 in
/-- @main is that straight line: the three windows in order, the called functions unfolded at their calls, the
    sequencing reassociated. -/
theorem main_eq (c : Dev nD) : main (F := F) c = seq ops := by
  simp only [main, main_part0, main_part1, main_part2, fn_elu.body, fn_where.body, fn_where_0.body, fn_relu.body,
    ops, s0a, s0b, layer1, layer2, layer3, poolOps, headOps, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, stretch by stretch. -/

theorem s0a_sub : (s0a : List (HloOp τ sig (Elt F))).Forall fun op => op.bufs ⊆ tcRefs τ sig :=
  ⟨nullary_bufs_sub .., unary_bufs_sub .., reshape_bufs_sub .., binary_bufs_sub .., unary_bufs_sub ..,
    reshape_bufs_sub .., binary_bufs_sub ..⟩

theorem s0b_sub : (s0b : List (HloOp τ sig (Elt F))).Forall fun op => op.bufs ⊆ tcRefs τ sig :=
  ⟨nullary_bufs_sub .., unary_bufs_sub .., nullary_bufs_sub .., unary_bufs_sub .., unary_bufs_sub ..,
    ternary_bufs_sub .., nullary_bufs_sub .., unary_bufs_sub .., binary_bufs_sub .., unary_bufs_sub ..,
    nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., binary_bufs_sub .., nullary_bufs_sub .., unary_bufs_sub .., binary_bufs_sub ..,
    ternary_bufs_sub .., unary_bufs_sub .., binary_bufs_sub .., binary_bufs_sub ..⟩

theorem layer1_sub : (layer1 : List (HloOp τ sig (Elt F))).Forall fun op => op.bufs ⊆ tcRefs τ sig :=
  ⟨binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..,
    nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩

theorem layer2_sub : (layer2 : List (HloOp τ sig (Elt F))).Forall fun op => op.bufs ⊆ tcRefs τ sig :=
  ⟨binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..,
    nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩

theorem layer3_sub : (layer3 : List (HloOp τ sig (Elt F))).Forall fun op => op.bufs ⊆ tcRefs τ sig :=
  ⟨binary_bufs_sub .., nullary_bufs_sub .., unary_bufs_sub .., binary_bufs_sub .., nullary_bufs_sub ..,
    unary_bufs_sub .., binary_bufs_sub .., ternary_bufs_sub .., unary_bufs_sub .., binary_bufs_sub ..,
    unary_bufs_sub .., unary_bufs_sub .., binary_bufs_sub .., nullary_bufs_sub .., unary_bufs_sub ..,
    unary_bufs_sub .., ternary_bufs_sub .., unary_bufs_sub .., unary_bufs_sub .., binary_bufs_sub ..,
    nullary_bufs_sub .., unary_bufs_sub .., binary_bufs_sub .., nullary_bufs_sub .., unary_bufs_sub ..,
    binary_bufs_sub .., nullary_bufs_sub .., unary_bufs_sub .., unary_bufs_sub .., ternary_bufs_sub ..,
    unary_bufs_sub .., nullary_bufs_sub .., unary_bufs_sub .., binary_bufs_sub .., ternary_bufs_sub ..⟩

theorem poolOps_sub : (poolOps : List (HloOp τ sig (Elt F))).Forall fun op => op.bufs ⊆ tcRefs τ sig :=
  ⟨nullary_bufs_sub .., unary_bufs_sub .., unary_bufs_sub .., ternary_bufs_sub ..⟩

theorem headOps_sub : (headOps : List (HloOp τ sig (Elt F))).Forall fun op => op.bufs ⊆ tcRefs τ sig :=
  ⟨nullary_bufs_sub .., unary_bufs_sub .., nullary_bufs_sub .., unary_bufs_sub .., unary_bufs_sub ..,
    ternary_bufs_sub .., nullary_bufs_sub .., unary_bufs_sub .., binary_bufs_sub .., unary_bufs_sub ..,
    unary_bufs_sub .., binary_bufs_sub .., binary_bufs_sub .., unary_bufs_sub .., unary_bufs_sub ..,
    binary_bufs_sub .., nullary_bufs_sub .., unary_bufs_sub .., binary_bufs_sub .., binary_bufs_sub ..,
    unary_bufs_sub .., unary_bufs_sub .., binary_bufs_sub .., unary_bufs_sub .., unary_bufs_sub ..,
    nullary_bufs_sub .., unary_bufs_sub .., binary_bufs_sub .., nullary_bufs_sub .., unary_bufs_sub ..,
    binary_bufs_sub ..⟩

theorem ops_sub : (ops : List (HloOp τ sig (Elt F))).Forall fun op => op.bufs ⊆ tcRefs τ sig :=
  List.forall_append.2 ⟨List.forall_append.2 ⟨List.forall_append.2 ⟨List.forall_append.2 ⟨List.forall_append.2
    ⟨List.forall_append.2 ⟨s0a_sub, s0b_sub⟩, layer1_sub⟩, layer2_sub⟩, layer3_sub⟩, poolOps_sub⟩, headOps_sub⟩

/-! Every operation determines its results, stretch by stretch. -/

theorem s0a_fresh : ∀ op ∈ (s0a : List (HloOp τ sig (Elt F))), op.fresh = ∅ := by
  intro _ h; (repeat (cases h with | head => rfl | tail _ h => ?_)); exact nomatch h

theorem s0b_fresh : ∀ op ∈ (s0b : List (HloOp τ sig (Elt F))), op.fresh = ∅ := by
  intro _ h; (repeat (cases h with | head => rfl | tail _ h => ?_)); exact nomatch h

theorem layer1_fresh : ∀ op ∈ (layer1 : List (HloOp τ sig (Elt F))), op.fresh = ∅ := by
  intro _ h; (repeat (cases h with | head => rfl | tail _ h => ?_)); exact nomatch h

theorem layer2_fresh : ∀ op ∈ (layer2 : List (HloOp τ sig (Elt F))), op.fresh = ∅ := by
  intro _ h; (repeat (cases h with | head => rfl | tail _ h => ?_)); exact nomatch h

theorem layer3_fresh : ∀ op ∈ (layer3 : List (HloOp τ sig (Elt F))), op.fresh = ∅ := by
  intro _ h; (repeat (cases h with | head => rfl | tail _ h => ?_)); exact nomatch h

theorem poolOps_fresh : ∀ op ∈ (poolOps : List (HloOp τ sig (Elt F))), op.fresh = ∅ := by
  intro _ h; (repeat (cases h with | head => rfl | tail _ h => ?_)); exact nomatch h

theorem headOps_fresh : ∀ op ∈ (headOps : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with (((((h | h) | h) | h) | h) | h) | h
  · exact s0a_fresh op h
  · exact s0b_fresh op h
  · exact layer1_fresh op h
  · exact layer2_fresh op h
  · exact layer3_fresh op h
  · exact poolOps_fresh op h
  · exact headOps_fresh op h

/-- From any memory with zero counters, every weakly fair execution of @main on the TensorCores terminates, and
    every final state has each TensorCore buffer at the operations' fold over the launch contents. -/
theorem run_main (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc), r.2.mem ((c.tc : Thread nD τ).loc b) = StableHlo.after ops (launchContents m c) (b : DevRef τ sig) :=
  run_seq scopedRefs_eq scopedSems_eq defs main (fun _ => ops) main_eq (fun _ => ops_sub) m ρ (fun _ => ops_fresh)

end Cert.ReferenceIdeal.Run

end
-- ==== Proof.BridgeLayer.lean ====
/-
  The reference's host operations of one graph-convolution layer, joined to the specification's array functions, over
  the extended reals.

  * The matrix product.  The reference contracts axis 1 of a [100000, 128] array against axis 0 of a [128, 128] array
    with no batch axis; read at (p, q) that is the sum over the contraction's own index type of the operands' products,
    and carried along the bijection of that index type with the numbers below 128 it is the sum over k of
    x(p, k) · w(k, q), the specification's `Gcn.mm`.
  * The bias.  The reference makes the bias vector a [1, 128] row, repeats the row down the 100000 rows and adds; at
    (p, q) the sum is a(p, q) + b(q).
  * ELU.  The reference compares the array with zero, puts zero where the comparison holds and the entry elsewhere, takes
    exp − 1 of that, multiplies by one, and chooses the entry itself where the comparison holds and the product elsewhere.
    Entry by entry: where s is positive the result is s; elsewhere the inner choice is s, so the result is
    1 · (exp s − 1) = exp s − 1.  That is the specification's `Gcn.elu1`.  The words 0x00000000 and 0x3F800000 are the
    extended reals zero and one; a comparison of extended reals gives the one-bit word 1 exactly when it holds.
-/
import proofs.«424757_j85409719648815_1_alg».proof.ReferenceIdeal
import proofs.«424757_j85409719648815_1_alg».proof.Proof.Gcn
import proofs.«424757_j85409719648815_1_alg».proof.Proof.LibPlainDot
import Idealize.ShloMosaic.PureOps.Ideal
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

noncomputable section

namespace Cert.ReferenceIdeal.Br

open Idealize.ShloMosaic Idealize.ShloMosaic.ValueIdx Cert.ReferenceIdeal

variable [Facts₀]
open Facts₀

/-- The f32 word `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]
  norm_num

/-- The reference's matrix product of a [100000, 128] array with a [128, 128] array is the specification's: at
    (p, q) both are the sum over k of x(p, k) · w(k, q). -/
theorem dot_eq (x : FVec Ideal S100000x128 .f32) (w : FVec Ideal S128x128 .f32) :
    Host.dotGeneral dot_S100000x128_S128x128_S100000x128_1_0_0_1_n_n none x w = Gcn.mm x w := by
  funext j
  obtain ⟨p, q, rfl⟩ : ∃ p q, j = ix2 p q := ⟨j 0, j 1, eq_ix2 j⟩
  refine (Ideal.dotGeneral_apply dot_S100000x128_S128x128_S100000x128_1_0_0_1_n_n none .single x w (ix2 p q)).trans ?_
  exact PlainDot.sum_eq dot_S100000x128_S128x128_S100000x128_1_0_0_1_n_n rfl rfl rfl rfl rfl rfl x w p q

/-- ELU on one extended real as the reference's operations compute it: where s is positive the outer choice takes s;
    elsewhere the inner choice hands s to exp − 1, and the product with one changes nothing. -/
theorem elu_scalar (s : EReal) :
    Scalar.select (Ideal.cmp .ogt s 0) s
      (1 * (Ideal.exp (Scalar.select (Ideal.cmp .ogt s 0) 0 s) - 1)) = Gcn.elu1 s := by
  unfold Gcn.elu1
  by_cases h : 0 < s
  · have hc : Ideal.cmp .ogt s 0 = 1#1 := by simp [Ideal.cmp, h]
    rw [hc, select_one, if_pos h]
  · have hc : Ideal.cmp .ogt s 0 = 0#1 := by simp [Ideal.cmp, h]
    rw [hc, select_zero, select_zero, if_neg h, one_mul]

/-- the reference's @elu on an array, as its operations compose -/
def eluOf (s : FVec Ideal S100000x128 .f32) : FVec Ideal S100000x128 .f32 :=
  select (cmpf .ogt s (broadcastInDim S100000x128 ![] bcast_S_S100000x128 (constant S_ .f32 0x00000000#32))) s
    (mulf (broadcastInDim S100000x128 ![] bcast_S_S100000x128 (constant S_ .f32 0x3F800000#32))
      (Host.expm1 (select (cmpf .ogt s (broadcastInDim S100000x128 ![] bcast_S_S100000x128 (constant S_ .f32 0x00000000#32)))
        (broadcastInDim S100000x128 ![] bcast_S_S100000x128 (id (constant S_ .f32 0x00000000#32))) s)))

/-- the reference's bias addition: the bias vector made a row, the row repeated down the array, then the sum -/
def biasOf (a : FVec Ideal S100000x128 .f32) (b : FVec Ideal S128 .f32) : FVec Ideal S100000x128 .f32 :=
  addf a (broadcastInDim S100000x128 ![0, 1] bcast_S1x128_S100000x128_0_1 (broadcastInDim S1x128 ![1] bcast_S128_S1x128_1 b))

/-- The host's exp − 1 on an array, at an index, is exp − 1 of the entry there. -/
theorem expm1_apply {sh : Shape} (x : FVec Ideal sh .f32) (i : sh.Idx) : Host.expm1 x i = Ideal.exp (x i) - 1 := rfl

/-- @elu's operations at an index are ELU of the entry there. -/
theorem eluOf_apply (s : FVec Ideal S100000x128 .f32) (j : S100000x128.Idx) : eluOf s j = Gcn.elu1 (s j) := by
  have h0 : broadcastInDim S100000x128 ![] bcast_S_S100000x128 (constant (F := Ideal) S_ .f32 0x00000000#32) j = 0 :=
    (broadcastInDim_scalar_apply bcast_S_S100000x128 _ j).trans ((constant_apply _ _).trans Ideal.ofBits_zero_f32)
  have h0' : broadcastInDim S100000x128 ![] bcast_S_S100000x128 (id (constant (F := Ideal) S_ .f32 0x00000000#32)) j = 0 := h0
  have h1 : broadcastInDim S100000x128 ![] bcast_S_S100000x128 (constant (F := Ideal) S_ .f32 0x3F800000#32) j = 1 :=
    (broadcastInDim_scalar_apply bcast_S_S100000x128 _ j).trans ((constant_apply _ _).trans ofBits_one_f32)
  unfold eluOf
  rw [select_apply, cmpf_apply, mulf_apply, expm1_apply, select_apply, cmpf_apply, h0, h0', h1]
  exact elu_scalar (s j)

/-- The bias addition at (p, q) adds the bias vector's entry q. -/
theorem biasOf_apply (a : FVec Ideal S100000x128 .f32) (b : FVec Ideal S128 .f32) (p : Fin 100000) (q : Fin 128) :
    biasOf a b (ix2 p q) = a (ix2 p q) + b (ix1 q) := by
  unfold biasOf
  rw [addf_apply, broadcastInDim_oneRow_apply bcast_S1x128_S100000x128_0_1 _ p q]
  refine congrArg (a (ix2 p q) + ·) ?_
  refine broadcastInDim_apply ![1] bcast_S128_S1x128_1 b (ix2 (0 : Fin 1) q) (ix1 q) ?_
  intro k
  match k with
  | ⟨0, _⟩ =>
    show q.val = if (128 : ℕ) = 1 then 0 else q.val
    rw [if_neg (by decide)]

/-- The reference's bias addition followed by its @elu is the specification's bias-and-ELU, for any row b2 that holds the
    bias vector's entries. -/
theorem elu_bias_eq (a : FVec Ideal S100000x128 .f32) (b : FVec Ideal S128 .f32) (b2 : FVec Ideal S1x128 .f32)
    (hb : ∀ q : Fin 128, b2 (ix2 (0 : Fin 1) q) = b (ix1 q)) : eluOf (biasOf a b) = Gcn.biasElu a b2 := by
  funext j
  obtain ⟨p, q, rfl⟩ : ∃ p q, j = ix2 p q := ⟨j 0, j 1, eq_ix2 j⟩
  rw [eluOf_apply, biasOf_apply]
  show Gcn.elu1 (a (ix2 p q) + b (ix1 q)) = Gcn.elu1 (a (ix2 p q) + b2 (ix2 (0 : Fin 1) q))
  rw [hb q]

end Cert.ReferenceIdeal.Br

end
-- ==== Proof.RefDefs.lean ====
/-
  The reference program's value, stage by stage, as array functions of its operands.

  * `srcOf`, `dstOf`: the source and target lists, each row of the edge array followed by the node numbering (one
    self loop per node).
  * `normOf`: the symmetric normalisation, the product of the inverse square roots of the clamped in-degrees of an
    edge's two ends.
  * `layerOf`: one graph-convolution layer: the linear map, each edge's source row scaled by the edge weight and summed
    into its target row, the bias, ELU.
  * `poolOf`: the per-graph sums of the node rows.  `headOf`: the mean over each graph's nodes, two dense layers with
    the positive part between them, and the logistic function.
  * `refOut`: the whole, three layers deep.
-/
import proofs.«424757_j85409719648815_1_alg».proof.Proof.Gen.ReferenceIdeal
import proofs.«424757_j85409719648815_1_alg».proof.Proof.BridgeLayer
import Idealize.ShloMosaic.PureOps.Ideal

noncomputable section

namespace Cert.ReferenceIdeal.Run

open Cert.ReferenceIdeal Cert.ReferenceIdeal.Gen Idealize.ShloMosaic

/-- The source list: row 0 of the edge array, flattened, followed by the node numbering 0, 1, …. -/
def srcOf (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
      ⟨S100000, iotaInDim S100000 32 0⟩]
    concatenates_S1600000_S100000_S1700000_d0

/-- The target list: row 1 of the edge array, flattened, followed by the node numbering. -/
def dstOf (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
      ⟨S100000, iotaInDim S100000 32 0⟩]
    concatenates_S1600000_S100000_S1700000_d0

/-- An index list with every negative entry moved up by the node count 100000 (an index counted from the end). -/
def wrapIdx (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- The inverse square root of every node's in-degree clamped below at one: the in-degree is the sum of a one per
    entry of the target list naming the node. -/
def dinvOf (dst : IVec S1700000 32) : FVec Ideal S100000 .f32 :=
  Host.rsqrt
    (maximumf
      (Host.scatterAdd scatter_S100000_S1700000x1_S1700000_n_0_0_1
        (broadcastInDim S100000 ![] bcast_S_S100000 (constant S_ .f32 0x00000000#32))
        (broadcastInDim S1700000x1 ![0] bcast_S1700000_S1700000x1_0 dst)
        (broadcastInDim S1700000 ![] bcast_S_S1700000 (constant S_ .f32 0x3F800000#32)))
      (broadcastInDim S100000 ![] bcast_S_S100000 (constant S_ .f32 0x3F800000#32)))

/-- The edge weights: the inverse root degree read at the edge's source times the one read at its target. -/
def normOf (src dst : IVec S1700000 32) : FVec Ideal S1700000 .f32 :=
  mulf
    (Host.gather gather_S100000_S1700000x1_S1700000_n_0_n_n_0_1_1 (dinvOf dst)
      (broadcastInDim S1700000x1 ![0] bcast_S1700000_S1700000x1_0 (wrapIdx src)))
    (Host.gather gather_S100000_S1700000x1_S1700000_n_0_n_n_0_1_1 (dinvOf dst)
      (broadcastInDim S1700000x1 ![0] bcast_S1700000_S1700000x1_0 (wrapIdx dst)))

/-- The neighbourhood sum: each edge's source row of `hlin` scaled by the edge weight, added into the edge's target
    row of an array of zeros. -/
def aggOf (src dst : IVec S1700000 32) (norm : FVec Ideal S1700000 .f32) (hlin : FVec Ideal S100000x128 .f32) :
    FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf
      (Host.gather gather_S100000x128_S1700000x1_S1700000x128_1_0_n_n_0_1_1128 hlin
        (broadcastInDim S1700000x1 ![0] bcast_S1700000_S1700000x1_0 (wrapIdx src)))
      (broadcastInDim S1700000x128 ![0, 1] bcast_S1700000x1_S1700000x128_0_1
        (broadcastInDim S1700000x1 ![0] bcast_S1700000_S1700000x1_0 norm)))

/-- One layer: the features times the weight matrix, the neighbourhood sum, the bias, ELU. -/
def layerOf (src dst : IVec S1700000 32) (norm : FVec Ideal S1700000 .f32) (h : FVec Ideal S100000x128 .f32)
    (w : FVec Ideal S128x128 .f32) (b : FVec Ideal S128 .f32) : FVec Ideal S100000x128 .f32 :=
  Br.eluOf (Br.biasOf (aggOf src dst norm
    (Host.dotGeneral dot_S100000x128_S128x128_S100000x128_1_0_0_1_n_n none h w)) b)

/-- The per-graph sums: every node's row added into the row of the graph the node belongs to. -/
def poolOf (h : FVec Ideal S100000x128 .f32) (batch : IVec S100000 32) : FVec Ideal S64x128 .f32 :=
  Host.scatterAdd scatter_S64x128_S100000x1_S100000x128_1_0_0_1
    (broadcastInDim S64x128 ![] bcast_S_S64x128 (constant S_ .f32 0x00000000#32))
    (broadcastInDim S100000x1 ![0] bcast_S100000_S100000x1_0 batch) h

/-- The number of nodes of every graph, clamped below at one. -/
def cntOf (batch : IVec S100000 32) : FVec Ideal S64 .f32 :=
  maximumf
    (Host.scatterAdd scatter_S64_S100000x1_S100000_n_0_0_1
      (broadcastInDim S64 ![] bcast_S_S64 (constant S_ .f32 0x00000000#32))
      (broadcastInDim S100000x1 ![0] bcast_S100000_S100000x1_0 batch)
      (broadcastInDim S100000 ![] bcast_S_S100000 (constant S_ .f32 0x3F800000#32)))
    (broadcastInDim S64 ![] bcast_S_S64 (constant S_ .f32 0x3F800000#32))

/-- The per-graph means: each row of sums divided by the graph's clamped node count. -/
def meanOf (sums : FVec Ideal S64x128 .f32) (batch : IVec S100000 32) : FVec Ideal S64x128 .f32 :=
  Host.divf sums
    (broadcastInDim S64x128 ![0, 1] bcast_S64x1_S64x128_0_1 (broadcastInDim S64x1 ![0] bcast_S64_S64x1_0 (cntOf batch)))

/-- The first dense layer: the product with the weight matrix, the bias row added, the positive part. -/
def dense1Of (g : FVec Ideal S64x128 .f32) (wc1 : FVec Ideal S128x64 .f32) (bc1 : FVec Ideal S64 .f32) :
    FVec Ideal S64x64 .f32 :=
  maximumf
    (addf (Host.dotGeneral dot_S64x128_S128x64_S64x64_1_0_0_1_n_n none g wc1)
      (broadcastInDim S64x64 ![0, 1] bcast_S1x64_S64x64_0_1 (broadcastInDim S1x64 ![1] bcast_S64_S1x64_1 bc1)))
    (broadcastInDim S64x64 ![] bcast_S_S64x64 (constant S_ .f32 0x00000000#32))

/-- The second dense layer: the product with the weight column, the bias added. -/
def logitOf (z : FVec Ideal S64x64 .f32) (wc2 : FVec Ideal S64x1 .f32) (bc2 : FVec Ideal S1 .f32) :
    FVec Ideal S64x1 .f32 :=
  addf (Host.dotGeneral dot_S64x64_S64x1_S64x1_1_0_0_1_n_n none z wc2)
    (broadcastInDim S64x1 ![0, 1] bcast_S1x1_S64x1_0_1 (broadcastInDim S1x1 ![1] bcast_S1_S1x1_1 bc2))

/-- The logistic function entrywise: 1 / (1 + exp(−l)). -/
def sigmoidOf (l : FVec Ideal S64x1 .f32) : FVec Ideal S64x1 .f32 :=
  Host.divf (broadcastInDim S64x1 ![] bcast_S_S64x1 (constant S_ .f32 0x3F800000#32))
    (addf (broadcastInDim S64x1 ![] bcast_S_S64x1 (constant S_ .f32 0x3F800000#32)) (Host.exp (Host.negf l)))

/-- The head: means, first dense layer, second dense layer, logistic function. -/
def headOf (sums : FVec Ideal S64x128 .f32) (batch : IVec S100000 32) (wc1 : FVec Ideal S128x64 .f32)
    (bc1 : FVec Ideal S64 .f32) (wc2 : FVec Ideal S64x1 .f32) (bc2 : FVec Ideal S1 .f32) : FVec Ideal S64x1 .f32 :=
  sigmoidOf (logitOf (dense1Of (meanOf sums batch) wc1 bc1) wc2 bc2)

/-- The reference's result as a function of its thirteen arguments. -/
def refOut (x : FVec Ideal S100000x128 .f32) (ei : IVec S2x1600000 32) (batch : IVec S100000 32)
    (w1 : FVec Ideal S128x128 .f32) (b1 : FVec Ideal S128 .f32) (w2 : FVec Ideal S128x128 .f32) (b2 : FVec Ideal S128 .f32)
    (w3 : FVec Ideal S128x128 .f32) (b3 : FVec Ideal S128 .f32) (wc1 : FVec Ideal S128x64 .f32) (bc1 : FVec Ideal S64 .f32)
    (wc2 : FVec Ideal S64x1 .f32) (bc2 : FVec Ideal S1 .f32) : FVec Ideal S64x1 .f32 :=
  let s := srcOf ei
  let d := dstOf ei
  let n := normOf s d
  headOf (poolOf (layerOf s d n (layerOf s d n (layerOf s d n x w1 b1) w2 b2) w3 b3) batch) batch wc1 bc1 wc2 bc2

end Cert.ReferenceIdeal.Run

end
-- ==== Proof.RefRunA.lean ====
/-
  The reference's first two stretches read back: the source and target lists with the self loops, and the edge weights.
-/
import proofs.«424757_j85409719648815_1_alg».proof.Proof.RefRun
import proofs.«424757_j85409719648815_1_alg».proof.Proof.RefDefs

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

/-- After the first seven operations the source list's buffer holds `srcOf` of the edge array. -/
theorem s0a_v3 (V : Valuation τ sig (Elt Ideal)) :
    after (s0a (F := Ideal)) V (main_v3 : DevRef τ sig) = srcOf (V (main_arg1 : DevRef τ sig)) := by
  after_results
  rfl

/-- After the first seven operations the target list's buffer holds `dstOf` of the edge array. -/
theorem s0a_v6 (V : Valuation τ sig (Elt Ideal)) :
    after (s0a (F := Ideal)) V (main_v6 : DevRef τ sig) = dstOf (V (main_arg1 : DevRef τ sig)) := by
  after_results
  rfl

/-- After the degree stretch the edge weights' buffer holds `normOf` of the two lists. -/
theorem s0b_v28 (V : Valuation τ sig (Elt Ideal)) :
    after (s0b (F := Ideal)) V (main_v28 : DevRef τ sig)
      = normOf (V (main_v3 : DevRef τ sig)) (V (main_v6 : DevRef τ sig)) := by
  after_results_simp
  rfl

end Cert.ReferenceIdeal.Run

end
-- ==== Proof.RefRunW.lean ====
/-
  Which buffers each stretch of the reference's operations writes, and that every other buffer keeps its contents
  across the stretch.
-/
import proofs.«424757_j85409719648815_1_alg».proof.Proof.RefRun

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- A singleton of a listed reference lies in the list's set of device buffers. -/
theorem wsub {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map.2 ⟨y, h, rfl⟩))

/-- The buffers the stretch writes, one per operation, in order. -/
abbrev W_s0a : List (Ref sig .tc) :=
  [ main_v0, main_v1, main_v2, main_v3, main_v4, main_v5,
    main_v6 ]

theorem s0a_writes : (s0a : List (HloOp τ sig (Elt F))).Forall fun op => op.writes ⊆ ((W_s0a).map (Proc.devRef (τ := τ) .tc)).toFinset :=
  ⟨wsub (y := main_v0) (by decide), wsub (y := main_v1) (by decide), wsub (y := main_v2) (by decide),
    wsub (y := main_v3) (by decide), wsub (y := main_v4) (by decide), wsub (y := main_v5) (by decide),
    wsub (y := main_v6) (by decide)⟩

/-- A buffer the stretch does not write keeps its contents. -/
theorem s0a_kept (V : Valuation τ sig (Elt F)) (r : Ref sig .tc) (hr : r ∉ W_s0a) :
    after s0a V (r : DevRef τ sig) = V (r : DevRef τ sig) :=
  after_of_writes_sub s0a V s0a_writes hr

/-- The buffers the stretch writes, one per operation, in order. -/
abbrev W_s0b : List (Ref sig .tc) :=
  [ main_cst, main_v7, main_cst_0, main_v8, main_v9, main_v10,
    main_cst_1, main_v11, main_v12, main_v13, main_c, main_v14,
    main_v15, main_c_2, main_v16, main_v17, main_v18, main_v19,
    main_v20, main_c_3, main_v21, main_v22, main_c_4, main_v23,
    main_v24, main_v25, main_v26, main_v27, main_v28 ]

theorem s0b_writes : (s0b : List (HloOp τ sig (Elt F))).Forall fun op => op.writes ⊆ ((W_s0b).map (Proc.devRef (τ := τ) .tc)).toFinset :=
  ⟨wsub (y := main_cst) (by decide), wsub (y := main_v7) (by decide), wsub (y := main_cst_0) (by decide),
    wsub (y := main_v8) (by decide), wsub (y := main_v9) (by decide), wsub (y := main_v10) (by decide),
    wsub (y := main_cst_1) (by decide), wsub (y := main_v11) (by decide), wsub (y := main_v12) (by decide),
    wsub (y := main_v13) (by decide), wsub (y := main_c) (by decide), wsub (y := main_v14) (by decide),
    wsub (y := main_v15) (by decide), wsub (y := main_c_2) (by decide), wsub (y := main_v16) (by decide),
    wsub (y := main_v17) (by decide), wsub (y := main_v18) (by decide), wsub (y := main_v19) (by decide),
    wsub (y := main_v20) (by decide), wsub (y := main_c_3) (by decide), wsub (y := main_v21) (by decide),
    wsub (y := main_v22) (by decide), wsub (y := main_c_4) (by decide), wsub (y := main_v23) (by decide),
    wsub (y := main_v24) (by decide), wsub (y := main_v25) (by decide), wsub (y := main_v26) (by decide),
    wsub (y := main_v27) (by decide), wsub (y := main_v28) (by decide)⟩

/-- A buffer the stretch does not write keeps its contents. -/
theorem s0b_kept (V : Valuation τ sig (Elt F)) (r : Ref sig .tc) (hr : r ∉ W_s0b) :
    after s0b V (r : DevRef τ sig) = V (r : DevRef τ sig) :=
  after_of_writes_sub s0b V s0b_writes hr

/-- The buffers the stretch writes, one per operation, in order. -/
abbrev W_layer1 : List (Ref sig .tc) :=
  [ main_v29, main_c_5, main_v30, main_v31, main_c_6, main_v32,
    main_v33, main_v34, main_v35, main_v36, main_v37, main_v38,
    main_v39, main_cst_7, main_v40, main_v41, main_v42, main_v43,
    main_v44, main_v45, main_call0.cst.ref, main_call0.v0.ref, main_call0.v1.ref, main_call0.cst_0.ref,
    main_call0.v2.ref, main_call0.v3.ref, main_call0.cst_1.ref, main_call0.call0.v0.ref, main_call0.call0.v1.ref, main_call0.call0.v2.ref,
    main_call0.v5.ref, main_call0.cst_2.ref, main_call0.v6.ref, main_call0.v7.ref, main_call0.call1.v0.ref ]

theorem layer1_writes : (layer1 : List (HloOp τ sig (Elt F))).Forall fun op => op.writes ⊆ ((W_layer1).map (Proc.devRef (τ := τ) .tc)).toFinset :=
  ⟨wsub (y := main_v29) (by decide), wsub (y := main_c_5) (by decide), wsub (y := main_v30) (by decide),
    wsub (y := main_v31) (by decide), wsub (y := main_c_6) (by decide), wsub (y := main_v32) (by decide),
    wsub (y := main_v33) (by decide), wsub (y := main_v34) (by decide), wsub (y := main_v35) (by decide),
    wsub (y := main_v36) (by decide), wsub (y := main_v37) (by decide), wsub (y := main_v38) (by decide),
    wsub (y := main_v39) (by decide), wsub (y := main_cst_7) (by decide), wsub (y := main_v40) (by decide),
    wsub (y := main_v41) (by decide), wsub (y := main_v42) (by decide), wsub (y := main_v43) (by decide),
    wsub (y := main_v44) (by decide), wsub (y := main_v45) (by decide), wsub (y := main_call0.cst.ref) (by decide),
    wsub (y := main_call0.v0.ref) (by decide), wsub (y := main_call0.v1.ref) (by decide), wsub (y := main_call0.cst_0.ref) (by decide),
    wsub (y := main_call0.v2.ref) (by decide), wsub (y := main_call0.v3.ref) (by decide), wsub (y := main_call0.cst_1.ref) (by decide),
    wsub (y := main_call0.call0.v0.ref) (by decide), wsub (y := main_call0.call0.v1.ref) (by decide), wsub (y := main_call0.call0.v2.ref) (by decide),
    wsub (y := main_call0.v5.ref) (by decide), wsub (y := main_call0.cst_2.ref) (by decide), wsub (y := main_call0.v6.ref) (by decide),
    wsub (y := main_call0.v7.ref) (by decide), wsub (y := main_call0.call1.v0.ref) (by decide)⟩

/-- A buffer the stretch does not write keeps its contents. -/
theorem layer1_kept (V : Valuation τ sig (Elt F)) (r : Ref sig .tc) (hr : r ∉ W_layer1) :
    after layer1 V (r : DevRef τ sig) = V (r : DevRef τ sig) :=
  after_of_writes_sub layer1 V layer1_writes hr

/-- The buffers the stretch writes, one per operation, in order. -/
abbrev W_layer2 : List (Ref sig .tc) :=
  [ main_v47, main_c_8, main_v48, main_v49, main_c_9, main_v50,
    main_v51, main_v52, main_v53, main_v54, main_v55, main_v56,
    main_v57, main_cst_10, main_v58, main_v59, main_v60, main_v61,
    main_v62, main_v63, main_call1.cst.ref, main_call1.v0.ref, main_call1.v1.ref, main_call1.cst_0.ref,
    main_call1.v2.ref, main_call1.v3.ref, main_call1.cst_1.ref, main_call1.call0.v0.ref, main_call1.call0.v1.ref, main_call1.call0.v2.ref,
    main_call1.v5.ref, main_call1.cst_2.ref, main_call1.v6.ref, main_call1.v7.ref, main_call1.call1.v0.ref ]

theorem layer2_writes : (layer2 : List (HloOp τ sig (Elt F))).Forall fun op => op.writes ⊆ ((W_layer2).map (Proc.devRef (τ := τ) .tc)).toFinset :=
  ⟨wsub (y := main_v47) (by decide), wsub (y := main_c_8) (by decide), wsub (y := main_v48) (by decide),
    wsub (y := main_v49) (by decide), wsub (y := main_c_9) (by decide), wsub (y := main_v50) (by decide),
    wsub (y := main_v51) (by decide), wsub (y := main_v52) (by decide), wsub (y := main_v53) (by decide),
    wsub (y := main_v54) (by decide), wsub (y := main_v55) (by decide), wsub (y := main_v56) (by decide),
    wsub (y := main_v57) (by decide), wsub (y := main_cst_10) (by decide), wsub (y := main_v58) (by decide),
    wsub (y := main_v59) (by decide), wsub (y := main_v60) (by decide), wsub (y := main_v61) (by decide),
    wsub (y := main_v62) (by decide), wsub (y := main_v63) (by decide), wsub (y := main_call1.cst.ref) (by decide),
    wsub (y := main_call1.v0.ref) (by decide), wsub (y := main_call1.v1.ref) (by decide), wsub (y := main_call1.cst_0.ref) (by decide),
    wsub (y := main_call1.v2.ref) (by decide), wsub (y := main_call1.v3.ref) (by decide), wsub (y := main_call1.cst_1.ref) (by decide),
    wsub (y := main_call1.call0.v0.ref) (by decide), wsub (y := main_call1.call0.v1.ref) (by decide), wsub (y := main_call1.call0.v2.ref) (by decide),
    wsub (y := main_call1.v5.ref) (by decide), wsub (y := main_call1.cst_2.ref) (by decide), wsub (y := main_call1.v6.ref) (by decide),
    wsub (y := main_call1.v7.ref) (by decide), wsub (y := main_call1.call1.v0.ref) (by decide)⟩

/-- A buffer the stretch does not write keeps its contents. -/
theorem layer2_kept (V : Valuation τ sig (Elt F)) (r : Ref sig .tc) (hr : r ∉ W_layer2) :
    after layer2 V (r : DevRef τ sig) = V (r : DevRef τ sig) :=
  after_of_writes_sub layer2 V layer2_writes hr

/-- The buffers the stretch writes, one per operation, in order. -/
abbrev W_layer3 : List (Ref sig .tc) :=
  [ main_v65, main_c_11, main_v66, main_v67, main_c_12, main_v68,
    main_v69, main_v70, main_v71, main_v72, main_v73, main_v74,
    main_v75, main_cst_13, main_v76, main_v77, main_v78, main_v79,
    main_v80, main_v81, main_call2.cst.ref, main_call2.v0.ref, main_call2.v1.ref, main_call2.cst_0.ref,
    main_call2.v2.ref, main_call2.v3.ref, main_call2.cst_1.ref, main_call2.call0.v0.ref, main_call2.call0.v1.ref, main_call2.call0.v2.ref,
    main_call2.v5.ref, main_call2.cst_2.ref, main_call2.v6.ref, main_call2.v7.ref, main_call2.call1.v0.ref ]

theorem layer3_writes : (layer3 : List (HloOp τ sig (Elt F))).Forall fun op => op.writes ⊆ ((W_layer3).map (Proc.devRef (τ := τ) .tc)).toFinset :=
  ⟨wsub (y := main_v65) (by decide), wsub (y := main_c_11) (by decide), wsub (y := main_v66) (by decide),
    wsub (y := main_v67) (by decide), wsub (y := main_c_12) (by decide), wsub (y := main_v68) (by decide),
    wsub (y := main_v69) (by decide), wsub (y := main_v70) (by decide), wsub (y := main_v71) (by decide),
    wsub (y := main_v72) (by decide), wsub (y := main_v73) (by decide), wsub (y := main_v74) (by decide),
    wsub (y := main_v75) (by decide), wsub (y := main_cst_13) (by decide), wsub (y := main_v76) (by decide),
    wsub (y := main_v77) (by decide), wsub (y := main_v78) (by decide), wsub (y := main_v79) (by decide),
    wsub (y := main_v80) (by decide), wsub (y := main_v81) (by decide), wsub (y := main_call2.cst.ref) (by decide),
    wsub (y := main_call2.v0.ref) (by decide), wsub (y := main_call2.v1.ref) (by decide), wsub (y := main_call2.cst_0.ref) (by decide),
    wsub (y := main_call2.v2.ref) (by decide), wsub (y := main_call2.v3.ref) (by decide), wsub (y := main_call2.cst_1.ref) (by decide),
    wsub (y := main_call2.call0.v0.ref) (by decide), wsub (y := main_call2.call0.v1.ref) (by decide), wsub (y := main_call2.call0.v2.ref) (by decide),
    wsub (y := main_call2.v5.ref) (by decide), wsub (y := main_call2.cst_2.ref) (by decide), wsub (y := main_call2.v6.ref) (by decide),
    wsub (y := main_call2.v7.ref) (by decide), wsub (y := main_call2.call1.v0.ref) (by decide)⟩

/-- A buffer the stretch does not write keeps its contents. -/
theorem layer3_kept (V : Valuation τ sig (Elt F)) (r : Ref sig .tc) (hr : r ∉ W_layer3) :
    after layer3 V (r : DevRef τ sig) = V (r : DevRef τ sig) :=
  after_of_writes_sub layer3 V layer3_writes hr

/-- The buffers the stretch writes, one per operation, in order. -/
abbrev W_poolOps : List (Ref sig .tc) :=
  [ main_cst_14, main_v83, main_v84, main_v85 ]

theorem poolOps_writes : (poolOps : List (HloOp τ sig (Elt F))).Forall fun op => op.writes ⊆ ((W_poolOps).map (Proc.devRef (τ := τ) .tc)).toFinset :=
  ⟨wsub (y := main_cst_14) (by decide), wsub (y := main_v83) (by decide), wsub (y := main_v84) (by decide),
    wsub (y := main_v85) (by decide)⟩

/-- A buffer the stretch does not write keeps its contents. -/
theorem poolOps_kept (V : Valuation τ sig (Elt F)) (r : Ref sig .tc) (hr : r ∉ W_poolOps) :
    after poolOps V (r : DevRef τ sig) = V (r : DevRef τ sig) :=
  after_of_writes_sub poolOps V poolOps_writes hr

/-- The buffers the stretch writes, one per operation, in order. -/
abbrev W_headOps : List (Ref sig .tc) :=
  [ main_cst_15, main_v86, main_cst_16, main_v87, main_v88, main_v89,
    main_cst_17, main_v90, main_v91, main_v92, main_v93, main_v94,
    main_v95, main_v96, main_v97, main_v98, main_call3.cst.ref, main_call3.v0.ref,
    main_call3.v1.ref, main_v100, main_v101, main_v102, main_v103, main_v104,
    main_v105, main_cst_18, main_v106, main_v107, main_cst_19, main_v108,
    main_v109 ]

theorem headOps_writes : (headOps : List (HloOp τ sig (Elt F))).Forall fun op => op.writes ⊆ ((W_headOps).map (Proc.devRef (τ := τ) .tc)).toFinset :=
  ⟨wsub (y := main_cst_15) (by decide), wsub (y := main_v86) (by decide), wsub (y := main_cst_16) (by decide),
    wsub (y := main_v87) (by decide), wsub (y := main_v88) (by decide), wsub (y := main_v89) (by decide),
    wsub (y := main_cst_17) (by decide), wsub (y := main_v90) (by decide), wsub (y := main_v91) (by decide),
    wsub (y := main_v92) (by decide), wsub (y := main_v93) (by decide), wsub (y := main_v94) (by decide),
    wsub (y := main_v95) (by decide), wsub (y := main_v96) (by decide), wsub (y := main_v97) (by decide),
    wsub (y := main_v98) (by decide), wsub (y := main_call3.cst.ref) (by decide), wsub (y := main_call3.v0.ref) (by decide),
    wsub (y := main_call3.v1.ref) (by decide), wsub (y := main_v100) (by decide), wsub (y := main_v101) (by decide),
    wsub (y := main_v102) (by decide), wsub (y := main_v103) (by decide), wsub (y := main_v104) (by decide),
    wsub (y := main_v105) (by decide), wsub (y := main_cst_18) (by decide), wsub (y := main_v106) (by decide),
    wsub (y := main_v107) (by decide), wsub (y := main_cst_19) (by decide), wsub (y := main_v108) (by decide),
    wsub (y := main_v109) (by decide)⟩

/-- A buffer the stretch does not write keeps its contents. -/
theorem headOps_kept (V : Valuation τ sig (Elt F)) (r : Ref sig .tc) (hr : r ∉ W_headOps) :
    after headOps V (r : DevRef τ sig) = V (r : DevRef τ sig) :=
  after_of_writes_sub headOps V headOps_writes hr

/-- The fold over two stretches one after the other is the fold over the second from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold over all the operations, stretch by stretch. -/
theorem after_ops (V : Valuation τ sig (Elt F)) :
    after ops V = after headOps (after poolOps (after layer3 (after layer2 (after layer1 (after s0b (after s0a V)))))) := by
  simp only [ops, after_append]

end Cert.ReferenceIdeal.Run

end
-- ==== Proof.RefRunB.lean ====
/-
  The reference's three graph-convolution stretches read back: each leaves the same array function of its operands.
  A stretch is read in two parts: its first twenty operations (the linear map, the reading of each edge's source row, the
  scaling, the sum into the target rows, the bias) and its last fifteen (ELU).
-/
import proofs.«424757_j85409719648815_1_alg».proof.Proof.RefRun
import proofs.«424757_j85409719648815_1_alg».proof.Proof.RefRunW
import proofs.«424757_j85409719648815_1_alg».proof.Proof.RefDefs

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

/-- The first layer's first twenty operations leave, in the buffer ELU is then applied to, the neighbourhood sum of
    the linear map plus the bias. -/
theorem layer1_lin (V : Valuation τ sig (Elt Ideal)) :
    after (List.take 20 (layer1 (F := Ideal))) V (main_v45 : DevRef τ sig)
      = Br.biasOf (aggOf (V (main_v3 : DevRef τ sig)) (V (main_v6 : DevRef τ sig)) (V (main_v28 : DevRef τ sig))
          (Host.dotGeneral (φ₁ := .f32) (φ₂ := .f32) dot_S100000x128_S128x128_S100000x128_1_0_0_1_n_n none (V (main_arg0 : DevRef τ sig)) (V (main_arg3 : DevRef τ sig)))) (V (main_arg4 : DevRef τ sig)) := by
  simp only [layer1, List.take]
  after_results_simp
  rfl

/-- The first layer's last fifteen operations leave ELU of that buffer in the layer's output buffer. -/
theorem layer1_elu (V : Valuation τ sig (Elt Ideal)) :
    after (List.drop 20 (layer1 (F := Ideal))) V (main_v46 : DevRef τ sig) = Br.eluOf (V (main_v45 : DevRef τ sig)) := by
  simp only [layer1, List.drop]
  after_results_simp
  rfl

/-- After the first layer's operations its output buffer holds `layerOf` of the two lists, the edge weights,
    the input features, the first weight matrix and the first bias. -/
theorem layer1_v46 (V : Valuation τ sig (Elt Ideal)) :
    after (layer1 (F := Ideal)) V (main_v46 : DevRef τ sig)
      = layerOf (V (main_v3 : DevRef τ sig)) (V (main_v6 : DevRef τ sig)) (V (main_v28 : DevRef τ sig))
          (V (main_arg0 : DevRef τ sig)) (V (main_arg3 : DevRef τ sig)) (V (main_arg4 : DevRef τ sig)) := by
  have h : (layer1 (F := Ideal)) = List.take 20 layer1 ++ List.drop 20 layer1 := (List.take_append_drop 20 _).symm
  rw [h, after_append, layer1_elu, layer1_lin]
  rfl

/-- The second layer's first twenty operations leave, in the buffer ELU is then applied to, the neighbourhood sum of
    the linear map plus the bias. -/
theorem layer2_lin (V : Valuation τ sig (Elt Ideal)) :
    after (List.take 20 (layer2 (F := Ideal))) V (main_v63 : DevRef τ sig)
      = Br.biasOf (aggOf (V (main_v3 : DevRef τ sig)) (V (main_v6 : DevRef τ sig)) (V (main_v28 : DevRef τ sig))
          (Host.dotGeneral (φ₁ := .f32) (φ₂ := .f32) dot_S100000x128_S128x128_S100000x128_1_0_0_1_n_n none (V (main_v46 : DevRef τ sig)) (V (main_arg5 : DevRef τ sig)))) (V (main_arg6 : DevRef τ sig)) := by
  simp only [layer2, List.take]
  after_results_simp
  rfl

/-- The second layer's last fifteen operations leave ELU of that buffer in the layer's output buffer. -/
theorem layer2_elu (V : Valuation τ sig (Elt Ideal)) :
    after (List.drop 20 (layer2 (F := Ideal))) V (main_v64 : DevRef τ sig) = Br.eluOf (V (main_v63 : DevRef τ sig)) := by
  simp only [layer2, List.drop]
  after_results_simp
  rfl

/-- After the second layer's operations its output buffer holds `layerOf` of the two lists, the edge weights,
    the first layer's output, the second weight matrix and bias. -/
theorem layer2_v64 (V : Valuation τ sig (Elt Ideal)) :
    after (layer2 (F := Ideal)) V (main_v64 : DevRef τ sig)
      = layerOf (V (main_v3 : DevRef τ sig)) (V (main_v6 : DevRef τ sig)) (V (main_v28 : DevRef τ sig))
          (V (main_v46 : DevRef τ sig)) (V (main_arg5 : DevRef τ sig)) (V (main_arg6 : DevRef τ sig)) := by
  have h : (layer2 (F := Ideal)) = List.take 20 layer2 ++ List.drop 20 layer2 := (List.take_append_drop 20 _).symm
  rw [h, after_append, layer2_elu, layer2_lin]
  rfl

/-- The third layer's first twenty operations leave, in the buffer ELU is then applied to, the neighbourhood sum of
    the linear map plus the bias. -/
theorem layer3_lin (V : Valuation τ sig (Elt Ideal)) :
    after (List.take 20 (layer3 (F := Ideal))) V (main_v81 : DevRef τ sig)
      = Br.biasOf (aggOf (V (main_v3 : DevRef τ sig)) (V (main_v6 : DevRef τ sig)) (V (main_v28 : DevRef τ sig))
          (Host.dotGeneral (φ₁ := .f32) (φ₂ := .f32) dot_S100000x128_S128x128_S100000x128_1_0_0_1_n_n none (V (main_v64 : DevRef τ sig)) (V (main_arg7 : DevRef τ sig)))) (V (main_arg8 : DevRef τ sig)) := by
  simp only [layer3, List.take]
  after_results_simp
  rfl

/-- The third layer's last fifteen operations leave ELU of that buffer in the layer's output buffer. -/
theorem layer3_elu (V : Valuation τ sig (Elt Ideal)) :
    after (List.drop 20 (layer3 (F := Ideal))) V (main_v82 : DevRef τ sig) = Br.eluOf (V (main_v81 : DevRef τ sig)) := by
  simp only [layer3, List.drop]
  after_results_simp
  rfl

/-- After the third layer's operations its output buffer holds `layerOf` of the two lists, the edge weights,
    the second layer's output, the third weight matrix and bias. -/
theorem layer3_v82 (V : Valuation τ sig (Elt Ideal)) :
    after (layer3 (F := Ideal)) V (main_v82 : DevRef τ sig)
      = layerOf (V (main_v3 : DevRef τ sig)) (V (main_v6 : DevRef τ sig)) (V (main_v28 : DevRef τ sig))
          (V (main_v64 : DevRef τ sig)) (V (main_arg7 : DevRef τ sig)) (V (main_arg8 : DevRef τ sig)) := by
  have h : (layer3 (F := Ideal)) = List.take 20 layer3 ++ List.drop 20 layer3 := (List.take_append_drop 20 _).symm
  rw [h, after_append, layer3_elu, layer3_lin]
  rfl

end Cert.ReferenceIdeal.Run

end
-- ==== Proof.RefRunC.lean ====
/-
  The reference's last two stretches read back: the per-graph sums, and the head (means, two dense layers, the logistic function).
-/
import proofs.«424757_j85409719648815_1_alg».proof.Proof.RefRun
import proofs.«424757_j85409719648815_1_alg».proof.Proof.RefDefs

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

/-- After the pooling stretch the sums' buffer holds `poolOf` of the third layer's output and the graph assignment. -/
theorem pool_v85 (V : Valuation τ sig (Elt Ideal)) :
    after (poolOps (F := Ideal)) V (main_v85 : DevRef τ sig)
      = poolOf (V (main_v82 : DevRef τ sig)) (V (main_arg2 : DevRef τ sig)) := by
  after_results_simp
  rfl

/-- After the head's operations the result buffer holds `headOf` of the sums, the graph assignment and the two dense
    layers' weights and biases. -/
theorem head_v109 (V : Valuation τ sig (Elt Ideal)) :
    after (headOps (F := Ideal)) V (main_v109 : DevRef τ sig)
      = headOf (V (main_v85 : DevRef τ sig)) (V (main_arg2 : DevRef τ sig)) (V (main_arg9 : DevRef τ sig))
          (V (main_arg10 : DevRef τ sig)) (V (main_arg11 : DevRef τ sig)) (V (main_arg12 : DevRef τ sig)) := by
  after_results_simp
  rfl

end Cert.ReferenceIdeal.Run

end
-- ==== Proof.RefValue.lean ====
/-
  The reference's whole run read back: from any contents, after all 176 operations the result buffer holds `refOut` of
  the thirteen argument arrays, and every argument array is as it was.  The fold is taken stretch by stretch; each
  stretch's reading lemma gives the buffer it computes, and a buffer a stretch does not write passes through it.
-/
import proofs.«424757_j85409719648815_1_alg».proof.Proof.RefRunA
import proofs.«424757_j85409719648815_1_alg».proof.Proof.RefRunB
import proofs.«424757_j85409719648815_1_alg».proof.Proof.RefRunC
import proofs.«424757_j85409719648815_1_alg».proof.Proof.RefRunW

set_option maxRecDepth 16384

noncomputable section

namespace Cert.ReferenceIdeal.Run

open Cert.ReferenceIdeal Cert.ReferenceIdeal.Gen Idealize.ShloMosaic Idealize.ShloMosaic.TcCoe Idealize.SL.Sem Idealize.ShloMosaic.StableHlo

/-- A buffer none of the seven stretches writes holds after all the operations what it held before. -/
theorem arg_kept (V : Valuation τ sig (Elt Ideal)) (r : Ref sig .tc) (h0 : r ∉ W_s0a) (h1 : r ∉ W_s0b) (h2 : r ∉ W_layer1)
    (h3 : r ∉ W_layer2) (h4 : r ∉ W_layer3) (h5 : r ∉ W_poolOps) (h6 : r ∉ W_headOps) :
    after (ops (F := Ideal)) V (r : DevRef τ sig) = V (r : DevRef τ sig) := by
  rw [after_ops, headOps_kept _ r h6, poolOps_kept _ r h5, layer3_kept _ r h4, layer2_kept _ r h3, layer1_kept _ r h2,
    s0b_kept _ r h1, s0a_kept _ r h0]

/-- The result: the head of the pooled third layer, every stage a function of the argument arrays alone. -/
theorem ref_value (V : Valuation τ sig (Elt Ideal)) :
    after (ops (F := Ideal)) V (main_v109 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) := by
  rw [after_ops, head_v109, pool_v85,
    poolOps_kept _ main_arg2 (by decide), poolOps_kept _ main_arg9 (by decide), poolOps_kept _ main_arg10 (by decide),
    poolOps_kept _ main_arg11 (by decide), poolOps_kept _ main_arg12 (by decide), layer3_v82,
    layer3_kept _ main_arg2 (by decide), layer3_kept _ main_arg9 (by decide), layer3_kept _ main_arg10 (by decide),
    layer3_kept _ main_arg11 (by decide), layer3_kept _ main_arg12 (by decide), layer2_v64,
    layer2_kept _ main_v3 (by decide), layer2_kept _ main_v6 (by decide), layer2_kept _ main_v28 (by decide),
    layer2_kept _ main_arg7 (by decide), layer2_kept _ main_arg8 (by decide), layer2_kept _ main_arg2 (by decide),
    layer2_kept _ main_arg9 (by decide), layer2_kept _ main_arg10 (by decide), layer2_kept _ main_arg11 (by decide),
    layer2_kept _ main_arg12 (by decide), layer1_v46, layer1_kept _ main_v3 (by decide),
    layer1_kept _ main_v6 (by decide), layer1_kept _ main_v28 (by decide), layer1_kept _ main_arg5 (by decide),
    layer1_kept _ main_arg6 (by decide), layer1_kept _ main_arg7 (by decide), layer1_kept _ main_arg8 (by decide),
    layer1_kept _ main_arg2 (by decide), layer1_kept _ main_arg9 (by decide), layer1_kept _ main_arg10 (by decide),
    layer1_kept _ main_arg11 (by decide), layer1_kept _ main_arg12 (by decide), s0b_v28,
    s0b_kept _ main_v3 (by decide), s0b_kept _ main_v6 (by decide), s0b_kept _ main_arg0 (by decide),
    s0b_kept _ main_arg3 (by decide), s0b_kept _ main_arg4 (by decide), s0b_kept _ main_arg5 (by decide),
    s0b_kept _ main_arg6 (by decide), s0b_kept _ main_arg7 (by decide), s0b_kept _ main_arg8 (by decide),
    s0b_kept _ main_arg2 (by decide), s0b_kept _ main_arg9 (by decide), s0b_kept _ main_arg10 (by decide),
    s0b_kept _ main_arg11 (by decide), s0b_kept _ main_arg12 (by decide), s0a_v3,
    s0a_v6, s0a_kept _ main_arg0 (by decide), s0a_kept _ main_arg3 (by decide),
    s0a_kept _ main_arg4 (by decide), s0a_kept _ main_arg5 (by decide), s0a_kept _ main_arg6 (by decide),
    s0a_kept _ main_arg7 (by decide), s0a_kept _ main_arg8 (by decide), s0a_kept _ main_arg2 (by decide),
    s0a_kept _ main_arg9 (by decide), s0a_kept _ main_arg10 (by decide), s0a_kept _ main_arg11 (by decide),
    s0a_kept _ main_arg12 (by decide)]
  rfl

theorem ref_arg0 (V : Valuation τ sig (Elt Ideal)) :
    after (ops (F := Ideal)) V (main_arg0 : DevRef τ sig) = V (main_arg0 : DevRef τ sig) :=
  arg_kept V main_arg0 (by decide) (by decide) (by decide) (by decide) (by decide) (by decide) (by decide)

theorem ref_arg1 (V : Valuation τ sig (Elt Ideal)) :
    after (ops (F := Ideal)) V (main_arg1 : DevRef τ sig) = V (main_arg1 : DevRef τ sig) :=
  arg_kept V main_arg1 (by decide) (by decide) (by decide) (by decide) (by decide) (by decide) (by decide)

theorem ref_arg2 (V : Valuation τ sig (Elt Ideal)) :
    after (ops (F := Ideal)) V (main_arg2 : DevRef τ sig) = V (main_arg2 : DevRef τ sig) :=
  arg_kept V main_arg2 (by decide) (by decide) (by decide) (by decide) (by decide) (by decide) (by decide)

theorem ref_arg3 (V : Valuation τ sig (Elt Ideal)) :
    after (ops (F := Ideal)) V (main_arg3 : DevRef τ sig) = V (main_arg3 : DevRef τ sig) :=
  arg_kept V main_arg3 (by decide) (by decide) (by decide) (by decide) (by decide) (by decide) (by decide)

theorem ref_arg4 (V : Valuation τ sig (Elt Ideal)) :
    after (ops (F := Ideal)) V (main_arg4 : DevRef τ sig) = V (main_arg4 : DevRef τ sig) :=
  arg_kept V main_arg4 (by decide) (by decide) (by decide) (by decide) (by decide) (by decide) (by decide)

theorem ref_arg5 (V : Valuation τ sig (Elt Ideal)) :
    after (ops (F := Ideal)) V (main_arg5 : DevRef τ sig) = V (main_arg5 : DevRef τ sig) :=
  arg_kept V main_arg5 (by decide) (by decide) (by decide) (by decide) (by decide) (by decide) (by decide)

theorem ref_arg6 (V : Valuation τ sig (Elt Ideal)) :
    after (ops (F := Ideal)) V (main_arg6 : DevRef τ sig) = V (main_arg6 : DevRef τ sig) :=
  arg_kept V main_arg6 (by decide) (by decide) (by decide) (by decide) (by decide) (by decide) (by decide)

theorem ref_arg7 (V : Valuation τ sig (Elt Ideal)) :
    after (ops (F := Ideal)) V (main_arg7 : DevRef τ sig) = V (main_arg7 : DevRef τ sig) :=
  arg_kept V main_arg7 (by decide) (by decide) (by decide) (by decide) (by decide) (by decide) (by decide)

theorem ref_arg8 (V : Valuation τ sig (Elt Ideal)) :
    after (ops (F := Ideal)) V (main_arg8 : DevRef τ sig) = V (main_arg8 : DevRef τ sig) :=
  arg_kept V main_arg8 (by decide) (by decide) (by decide) (by decide) (by decide) (by decide) (by decide)

theorem ref_arg9 (V : Valuation τ sig (Elt Ideal)) :
    after (ops (F := Ideal)) V (main_arg9 : DevRef τ sig) = V (main_arg9 : DevRef τ sig) :=
  arg_kept V main_arg9 (by decide) (by decide) (by decide) (by decide) (by decide) (by decide) (by decide)

theorem ref_arg10 (V : Valuation τ sig (Elt Ideal)) :
    after (ops (F := Ideal)) V (main_arg10 : DevRef τ sig) = V (main_arg10 : DevRef τ sig) :=
  arg_kept V main_arg10 (by decide) (by decide) (by decide) (by decide) (by decide) (by decide) (by decide)

theorem ref_arg11 (V : Valuation τ sig (Elt Ideal)) :
    after (ops (F := Ideal)) V (main_arg11 : DevRef τ sig) = V (main_arg11 : DevRef τ sig) :=
  arg_kept V main_arg11 (by decide) (by decide) (by decide) (by decide) (by decide) (by decide) (by decide)

theorem ref_arg12 (V : Valuation τ sig (Elt Ideal)) :
    after (ops (F := Ideal)) V (main_arg12 : DevRef τ sig) = V (main_arg12 : DevRef τ sig) :=
  arg_kept V main_arg12 (by decide) (by decide) (by decide) (by decide) (by decide) (by decide) (by decide)

end Cert.ReferenceIdeal.Run

end
-- ==== Proof.BridgePool.lean ====
/-
  The mean pool's numerator as a contraction. The reference adds each node's feature row into the row of its graph
  (a row scatter-add by graph id into a zero [64, 128] array); the membership matrix oh has oh(r, g) = 1 when node r
  belongs to graph g and 0 otherwise. Entry (g, q) of the scatter-add is the sum of h(r, q) over the nodes r whose
  graph id, read signed, is g; since g < 64 that is the nodes whose id is the 32-bit word of g, and in the extended
  reals 1 · x = x and 0 · x = 0, so it is the sum over all nodes r of oh(r, g) · h(r, q).

  The steps: where the update element (r, q) lands (its start on the row axis is node r's graph id, its window
  coordinate on the column axis is q: `resultIdx_pool`); a 32-bit word reads signed as g < 64 exactly when it is the
  word of g (`toInt_eq_iff`); the index column read at (r, 0) is the id of node r (`idx_apply`); then the sum over
  the update elements is split by coordinates and the column coordinate is pinned to q.
-/
import proofs.«424757_j85409719648815_1_alg».proof.ReferenceIdeal
import proofs.«424757_j85409719648815_1_alg».proof.Proof.Gcn
import Idealize.ShloMosaic.PureOps.Ideal
import Idealize.ShloMosaic.PureOps.Ideal.Laws
import Idealize.ShloMosaic.Lib.ValueIdx
import Idealize.ShloMosaic.Lib.StableHlo.Predicate

noncomputable section

namespace Cert.ReferenceIdeal.Br

open Idealize.ShloMosaic Idealize.ShloMosaic.ValueIdx Cert.ReferenceIdeal

variable [Facts₀]
open Facts₀

local notation "dPool" => scatter_S64x128_S100000x1_S100000x128_1_0_0_1

/-- The update element (r, q) reads its start index at (r, 0) of the index column. -/
theorem siIdx_pool (r : Fin 100000) (q : Fin 128) :
    (dPool).siIdx (ix2 r q) ⟨0, Nat.zero_lt_one⟩ = ix2 r (0 : Fin 1) := by
  funext b
  match b with
  | ⟨0, _⟩ => rfl
  | ⟨1, _⟩ => rfl

/-- On the row axis the window of update element (r, q) starts at the index column's entry (r, 0), read signed. -/
theorem start0 (idx : IVec S100000x1 32) (r : Fin 100000) (q : Fin 128) :
    (dPool).start (ix2 r q) idx (0 : Fin 2) = (idx (ix2 r (0 : Fin 1))).toInt := by
  rw [← siIdx_pool r q]; rfl

/-- On the column axis every window starts at 0. -/
theorem start1 (idx : IVec S100000x1 32) (j : S100000x128.Idx) :
    (dPool).start j idx (1 : Fin 2) = 0 := rfl

/-- The row axis is an inserted one: the window coordinate there is 0. -/
theorem window0 (j : S100000x128.Idx) : (dPool).window j (0 : Fin 2) = 0 := rfl

/-- On the column axis the window coordinate of update element (r, q) is q. -/
theorem window1 (r : Fin 100000) (q : Fin 128) : (dPool).window (ix2 r q) (1 : Fin 2) = q.val := rfl

/-- Start plus window coordinate on the row axis. -/
theorem sum0 (idx : IVec S100000x1 32) (r : Fin 100000) (q : Fin 128) :
    (dPool).start (ix2 r q) idx (0 : Fin 2) + ((dPool).window (ix2 r q) (0 : Fin 2) : Int)
      = (idx (ix2 r (0 : Fin 1))).toInt := by
  rw [start0, window0]; simp

/-- Start plus window coordinate on the column axis. -/
theorem sum1 (idx : IVec S100000x1 32) (r : Fin 100000) (q : Fin 128) :
    (dPool).start (ix2 r q) idx (1 : Fin 2) + ((dPool).window (ix2 r q) (1 : Fin 2) : Int) = (q.val : Int) := by
  rw [start1, window1]; simp

/-- Update element (r, q) lands on (g, q') exactly when the index column's entry (r, 0), read signed, is g and
    q = q'; an entry outside [0, 64) lands nowhere. -/
theorem resultIdx_pool (idx : IVec S100000x1 32) (r : Fin 100000) (q : Fin 128) (g : Fin 64) (q' : Fin 128) :
    (dPool).resultIdx? (ix2 r q) idx = some (ix2 g q') ↔ (idx (ix2 r (0 : Fin 1))).toInt = (g.val : Int) ∧ q = q' := by
  have e0 := sum0 idx r q
  have e1 := sum1 idx r q
  have hg := g.isLt
  have hq := q.isLt
  unfold ScatterDims.resultIdx?
  split
  · next h =>
    have h0 := (h (0 : Fin 2)).1
    rw [e0] at h0
    constructor
    · intro hf
      have hf' := Option.some.inj hf
      have a0 : ((dPool).start (ix2 r q) idx (0 : Fin 2) + ((dPool).window (ix2 r q) (0 : Fin 2) : Int)).toNat = g.val :=
        congrArg Fin.val (congrFun hf' (0 : Fin 2))
      have a1 : ((dPool).start (ix2 r q) idx (1 : Fin 2) + ((dPool).window (ix2 r q) (1 : Fin 2) : Int)).toNat = q'.val :=
        congrArg Fin.val (congrFun hf' (1 : Fin 2))
      rw [e0] at a0
      rw [e1] at a1
      exact ⟨by omega, Fin.ext (by omega)⟩
    · rintro ⟨hg', hq'⟩
      subst hq'
      refine congrArg some (funext fun a => ?_)
      match a with
      | ⟨0, _⟩ =>
        apply Fin.ext
        show ((dPool).start (ix2 r q) idx (0 : Fin 2) + ((dPool).window (ix2 r q) (0 : Fin 2) : Int)).toNat = g.val
        rw [e0]; omega
      | ⟨1, _⟩ =>
        apply Fin.ext
        show ((dPool).start (ix2 r q) idx (1 : Fin 2) + ((dPool).window (ix2 r q) (1 : Fin 2) : Int)).toNat = q.val
        rw [e1]; omega
  · next h =>
    constructor
    · intro hf; cases hf
    · rintro ⟨hg', hq'⟩
      exfalso
      apply h
      intro a
      match a with
      | ⟨0, _⟩ =>
        show 0 ≤ (dPool).start (ix2 r q) idx (0 : Fin 2) + ((dPool).window (ix2 r q) (0 : Fin 2) : Int) ∧
          (dPool).start (ix2 r q) idx (0 : Fin 2) + ((dPool).window (ix2 r q) (0 : Fin 2) : Int) < (64 : Int)
        rw [e0]; omega
      | ⟨1, _⟩ =>
        show 0 ≤ (dPool).start (ix2 r q) idx (1 : Fin 2) + ((dPool).window (ix2 r q) (1 : Fin 2) : Int) ∧
          (dPool).start (ix2 r q) idx (1 : Fin 2) + ((dPool).window (ix2 r q) (1 : Fin 2) : Int) < (128 : Int)
        rw [e1]; omega

/-- A 32-bit word reads signed as g < 64 exactly when it is the word of g. -/
theorem toInt_eq_iff (b : BitVec 32) (g : Fin 64) : b.toInt = (g.val : Int) ↔ b = BitVec.ofNat 32 g.val := by
  have hg : g.val < 2 ^ 31 := by have := g.isLt; omega
  constructor
  · intro hb
    apply BitVec.eq_of_toInt_eq
    rw [hb, StableHlo.Predicate.toInt_ofNat_small g.val hg]
  · intro hb
    rw [hb]
    exact StableHlo.Predicate.toInt_ofNat_small g.val hg

/-- The graph ids as a [100000, 1] column read, at (r, 0), the id of node r. -/
theorem idx_apply (batch : IVec S100000 32) (r : Fin 100000) :
    broadcastInDim S100000x1 ![0] bcast_S100000_S100000x1_0 batch (ix2 r (0 : Fin 1)) = batch (ix1 r) := by
  simp only [broadcastInDim]
  congr 1
  funext a
  match a with
  | ⟨0, _⟩ =>
    apply Fin.ext
    split
    · next h1 => change 100000 = 1 at h1; omega
    · rfl

/-- The row scatter-add of the node features by graph id into a zero array is the membership matrix's node axis
    contracted against the node features. -/
theorem pool_eq (h : FVec Ideal S100000x128 .f32) (batch : IVec S100000 32) (oh : FVec Ideal ⟨2, ![100000, 64]⟩ .bf16)
    (hoh : ∀ (r : Fin 100000) (g : Fin 64), oh (ix2 r g) = if batch (ix1 r) = BitVec.ofNat 32 g.val then (1 : EReal) else 0) :
    Host.scatterAdd scatter_S64x128_S100000x1_S100000x128_1_0_0_1
        (broadcastInDim S64x128 ![] bcast_S_S64x128 (constant (F := Ideal) S_ .f32 0x00000000#32))
        (broadcastInDim S100000x1 ![0] bcast_S100000_S100000x1_0 batch) h
      = Gcn.pool h oh := by
  funext i
  obtain ⟨g, q', rfl⟩ : ∃ (g : Fin 64) (q' : Fin 128), i = ix2 g q' := ⟨i 0, i 1, eq_ix2 i⟩
  show Ideal.ofBits .f32 0x00000000#32 + _ = ∑ r : Fin 100000, oh (ix2 r g) * h (ix2 r q')
  rw [Ideal.ofBits_zero_f32, zero_add, Finset.sum_filter, sum_idx2]
  refine Finset.sum_congr rfl fun r _ => ?_
  simp only [resultIdx_pool, toInt_eq_iff]
  have hidx := idx_apply batch r
  simp only [hidx]
  rw [hoh r g]
  by_cases hb : batch (ix1 r) = BitVec.ofNat 32 g.val
  · simp [hb]
  · simp [hb]

end Cert.ReferenceIdeal.Br

end
-- ==== Proof.BridgeOneHot.lean ====
/-
  The kernel program's membership matrix. It is built on the host as the comparison, entry by entry, of the graph ids
  laid along the rows of a [100000, 64] rectangle (constant along each row) with the positions 0 … 63 laid along its
  columns (constant down each column), the one-bit result converted to bf16 reading the bit unsigned. At (r, g) the
  first rectangle reads the id of node r and the second the 32-bit word of g; the comparison bit is 1 exactly when the
  two words are equal, and the conversion of the bit 1 is the extended real 1, of the bit 0 the extended real 0.
-/
import proofs.«424757_j85409719648815_1_alg».proof.KernelIdeal
import Idealize.ShloMosaic.PureOps.Ideal
import Idealize.ShloMosaic.PureOps.Ideal.Laws
import Idealize.ShloMosaic.Lib.ValueIdx
import Idealize.ShloMosaic.Lib.StableHlo.Predicate

noncomputable section

namespace Cert.KernelIdeal.Br

open Idealize.ShloMosaic Idealize.ShloMosaic.ValueIdx Cert.KernelIdeal

variable [Facts₀]
open Facts₀

/-- The rank-1 index at coordinate k, in its two spellings. -/
theorem ofFin_eq_ix1 {n : Nat} (k : Fin n) : Shape.Idx.ofFin k = ix1 k := by
  funext a
  match a with
  | ⟨0, _⟩ => exact Fin.ext rfl

/-- The graph ids laid along the rows read, at (r, g), the id of node r. -/
theorem rows_apply (batch : IVec S100000 32) (r : Fin 100000) (g : Fin 64) :
    broadcastInDim S100000x64 ![0, 1] bcast_S100000x1_S100000x64_0_1
      (broadcastInDim S100000x1 ![0] bcast_S100000_S100000x1_0 batch) (ix2 r g) = batch (ix1 r) :=
  (StableHlo.Predicate.bcast_rows bcast_S100000_S100000x1_0 bcast_S100000x1_S100000x64_0_1 batch r g).trans
    (congrArg batch (ofFin_eq_ix1 r))

/-- The positions 0 … 63 laid along the columns read, at (r, g), the 32-bit word of g. -/
theorem cols_apply (r : Fin 100000) (g : Fin 64) :
    broadcastInDim S100000x64 ![0, 1] bcast_S1x64_S100000x64_0_1
      (broadcastInDim S1x64 ![1] bcast_S64_S1x64_1 (iotaInDim S64 32 0)) (ix2 r g) = BitVec.ofNat 32 g.val :=
  (StableHlo.Predicate.bcast_cols bcast_S64_S1x64_1 bcast_S1x64_S100000x64_0_1 (iotaInDim S64 32 0) r g).trans
    (StableHlo.Predicate.iota_apply g)

/-- The membership matrix at (r, g): 1 when node r's graph id is the word of g, else 0. -/
theorem onehot_apply (batch : IVec S100000 32) (r : Fin 100000) (g : Fin 64) :
    (uitofp (F := Ideal) .bf16 (cmpi .eq (broadcastInDim S100000x64 ![0, 1] bcast_S100000x1_S100000x64_0_1 (broadcastInDim S100000x1 ![0] bcast_S100000_S100000x1_0 batch))
                                      (broadcastInDim S100000x64 ![0, 1] bcast_S1x64_S100000x64_0_1 (broadcastInDim S1x64 ![1] bcast_S64_S1x64_1 (iotaInDim S64 32 0))))) (ix2 r g)
      = if batch (ix1 r) = BitVec.ofNat 32 g.val then (1 : EReal) else 0 := by
  show (((IntOp.cmpi .eq
      (broadcastInDim S100000x64 ![0, 1] bcast_S100000x1_S100000x64_0_1 (broadcastInDim S100000x1 ![0] bcast_S100000_S100000x1_0 batch) (ix2 r g))
      (broadcastInDim S100000x64 ![0, 1] bcast_S1x64_S100000x64_0_1 (broadcastInDim S1x64 ![1] bcast_S64_S1x64_1 (iotaInDim S64 32 0)) (ix2 r g))).toNat : ℝ) : EReal) = _
  rw [rows_apply, cols_apply]
  by_cases hb : batch (ix1 r) = BitVec.ofNat 32 g.val
  · rw [if_pos hb, StableHlo.Predicate.cmpi_eq_iff.2 hb]; simp
  · rw [if_neg hb, eq_zero_of_ne_one (fun h1 => hb (StableHlo.Predicate.cmpi_eq_iff.1 h1))]; simp

end Cert.KernelIdeal.Br

end
-- ==== Proof.BridgeRow.lean ====
/-
  The kernel program's reshape of a bias vector of 128 entries to a [1, 128] row, read at an index.

  A reshape keeps the entries in row-major order.  The row-major position of (0, q) in a [1, 128] array is
  0 · 128 + q = q, the position of q in the vector, so the row's entry at (0, q) is the vector's entry q.
-/
import proofs.«424757_j85409719648815_1_alg».proof.KernelIdeal
import Idealize.ShloMosaic.PureOps.Ideal
import Idealize.ShloMosaic.Lib.ValueIdx
import Idealize.ShloMosaic.Lib.Pipeline.Value
import Idealize.ShloMosaic.Lib.ValueLayout

noncomputable section

namespace Cert.KernelIdeal.Br

open Idealize.ShloMosaic Idealize.ShloMosaic.ValueIdx Cert.KernelIdeal

variable [Facts₀]
open Facts₀

/-- The bias vector reshaped to a row holds, at (0, q), the vector's entry q. -/
theorem row_apply (b : FVec Ideal S128 .f32) (q : Fin 128) :
    (shapeCast S1x128 b shapeCasts_S128_S1x128 : FVec Ideal S1x128 .f32) (ix2 (0 : Fin 1) q) = b (ix1 q) :=
  shapeCast_a_1a_apply b shapeCasts_S128_S1x128 (0 : Fin 1) q

end Cert.KernelIdeal.Br

end
-- ==== Proof.Final.lean ====
/-
  The two programs compute one function of their arguments.

  Both read the edge list the same way (sources, destinations, normalisation), aggregate a layer's projected features
  over the edges by the same gather, scaling and scatter-add, and finish with the same head; those stretches are the
  same operations in the two programs, so the functions that name them are equal by definition.  Where the programs
  differ, the specification functions join them: the reference's matrix product is `Gcn.mm`; its bias-add followed by
  ELU is `Gcn.biasElu` at the bias read as a row; and its per-graph row sums are the contraction `Gcn.pool` against the
  graph-membership matrix, whose entries are one exactly where a node's graph id is the column's graph.
-/
import proofs.«424757_j85409719648815_1_alg».proof.Proof.KWalk
import proofs.«424757_j85409719648815_1_alg».proof.Proof.RefDefs
import proofs.«424757_j85409719648815_1_alg».proof.Proof.BridgeLayer
import proofs.«424757_j85409719648815_1_alg».proof.Proof.BridgePool
import proofs.«424757_j85409719648815_1_alg».proof.Proof.BridgeOneHot
import proofs.«424757_j85409719648815_1_alg».proof.Proof.BridgeRow

set_option maxRecDepth 16384

noncomputable section

namespace Cert.Final

open Idealize.ShloMosaic

/-! ## The shared stretches -/

theorem src_eq (ei : IVec Cert.KernelIdeal.S2x1600000 32) : Cert.KernelIdeal.Ch.srcOf ei = Cert.ReferenceIdeal.Run.srcOf ei := rfl

theorem dst_eq (ei : IVec Cert.KernelIdeal.S2x1600000 32) : Cert.KernelIdeal.Ch.dstOf ei = Cert.ReferenceIdeal.Run.dstOf ei := rfl

theorem dinv_eq (dst : IVec Cert.KernelIdeal.S1700000 32) : Cert.KernelIdeal.Ch.dinvOf dst = Cert.ReferenceIdeal.Run.dinvOf dst := rfl

theorem norm_eq (src dst : IVec Cert.KernelIdeal.S1700000 32) :
    Cert.KernelIdeal.Ch.normOf src dst = Cert.ReferenceIdeal.Run.normOf src dst := rfl

theorem agg_eq (src dst : IVec Cert.KernelIdeal.S1700000 32) (norm : FVec Ideal Cert.KernelIdeal.S1700000 .f32)
    (hlin : FVec Ideal Cert.KernelIdeal.S100000x128 .f32) :
    Cert.KernelIdeal.Ch.aggOf src dst norm hlin = Cert.ReferenceIdeal.Run.aggOf src dst norm hlin := rfl

theorem head_eq (sums : FVec Ideal Cert.KernelIdeal.S64x128 .f32) (batch : IVec Cert.KernelIdeal.S100000 32)
    (wc1 : FVec Ideal Cert.KernelIdeal.S128x64 .f32) (bc1 : FVec Ideal Cert.KernelIdeal.S64 .f32)
    (wc2 : FVec Ideal Cert.KernelIdeal.S64x1 .f32) (bc2 : FVec Ideal Cert.KernelIdeal.S1 .f32) :
    Cert.KernelIdeal.Ch.headOf sums batch wc1 bc1 wc2 bc2 = Cert.ReferenceIdeal.Run.headOf sums batch wc1 bc1 wc2 bc2 := rfl

/-! ## Where the programs differ -/

/-- One layer of the reference is the specification's: project, aggregate, add the bias row and apply ELU. -/
theorem layer_eq (src dst : IVec Cert.KernelIdeal.S1700000 32) (norm : FVec Ideal Cert.KernelIdeal.S1700000 .f32)
    (h : FVec Ideal Cert.KernelIdeal.S100000x128 .f32) (w : FVec Ideal Cert.KernelIdeal.S128x128 .f32)
    (b : FVec Ideal Cert.KernelIdeal.S128 .f32) :
    Cert.ReferenceIdeal.Run.layerOf src dst norm h w b
      = Gcn.biasElu (Cert.KernelIdeal.Ch.aggOf src dst norm (Gcn.mm h w)) (Cert.KernelIdeal.Ch.rowOf b) := by
  unfold Cert.ReferenceIdeal.Run.layerOf
  rw [Cert.ReferenceIdeal.Br.dot_eq,
    Cert.ReferenceIdeal.Br.elu_bias_eq _ b (Cert.KernelIdeal.Ch.rowOf b) (fun q => Cert.KernelIdeal.Br.row_apply b q), agg_eq]

/-- The reference's per-graph row sums are the contraction against the kernel program's membership matrix. -/
theorem pool_eq (h : FVec Ideal Cert.KernelIdeal.S100000x128 .f32) (batch : IVec Cert.KernelIdeal.S100000 32) :
    Cert.ReferenceIdeal.Run.poolOf h batch = Gcn.pool h (Cert.KernelIdeal.Ch.onehotOf batch) :=
  Cert.ReferenceIdeal.Br.pool_eq h batch (Cert.KernelIdeal.Ch.onehotOf batch)
    (fun r g => Cert.KernelIdeal.Br.onehot_apply batch r g)

/-! ## The whole -/

theorem out_eq (x : FVec Ideal Cert.KernelIdeal.S100000x128 .f32) (ei : IVec Cert.KernelIdeal.S2x1600000 32)
    (batch : IVec Cert.KernelIdeal.S100000 32)
    (w1 : FVec Ideal Cert.KernelIdeal.S128x128 .f32) (b1 : FVec Ideal Cert.KernelIdeal.S128 .f32)
    (w2 : FVec Ideal Cert.KernelIdeal.S128x128 .f32) (b2 : FVec Ideal Cert.KernelIdeal.S128 .f32)
    (w3 : FVec Ideal Cert.KernelIdeal.S128x128 .f32) (b3 : FVec Ideal Cert.KernelIdeal.S128 .f32)
    (wc1 : FVec Ideal Cert.KernelIdeal.S128x64 .f32) (bc1 : FVec Ideal Cert.KernelIdeal.S64 .f32)
    (wc2 : FVec Ideal Cert.KernelIdeal.S64x1 .f32) (bc2 : FVec Ideal Cert.KernelIdeal.S1 .f32) :
    Cert.ReferenceIdeal.Run.refOut x ei batch w1 b1 w2 b2 w3 b3 wc1 bc1 wc2 bc2
      = Cert.KernelIdeal.Walk.kOut x ei batch w1 b1 w2 b2 w3 b3 wc1 bc1 wc2 bc2 := by
  unfold Cert.ReferenceIdeal.Run.refOut Cert.KernelIdeal.Walk.kOut
  simp only [layer_eq, pool_eq, ← src_eq, ← dst_eq, ← norm_eq, ← head_eq]

end Cert.Final

end
-- ==== Proof.lean ====
/-
  The certificate of the three-layer graph-convolution kernel program against its jnp reference, over the extended reals.

  The kernel program is seven kernel regions among host stretches: per layer a row-tiled matrix product and a row-tiled
  bias-add with ELU around the host's edge gather and scatter-add, then a pool kernel that accumulates, tile by tile,
  the graph-membership matrix contracted against the node features, then the host's mean and two-layer head.  The
  reference does the same with host operations throughout: a `dot_general`, `jax.nn.elu`, and a row scatter-add by
  graph id for the pool.  At the ideal instance a change of float format is the identity and every sum is exact, so:
  a tile of the matrix product is the rows of the whole product; exp(a) − 1 chosen where a is not positive is ELU, as is
  the reference's 1 · expm1 of a clamped at zero; and the sum over the nodes of (membership) · (feature) is the sum of
  the features over the graph's nodes, since 0 · x = 0 and 1 · x = x on the extended reals.  No law used needs the
  inputs finite, so the precondition is never opened.

  The frames of the two kernel programs are the generated ones; the reference's frame is its run (a straight line of
  host operations) with the result dropped; the idealization rewrote nothing, so `preserves` is trivial; and the
  algebraic claim pairs the kernel program's run, its result followed through the segments to one function of the
  arguments, with the reference's run read as the same function.
-/
import proofs.«424757_j85409719648815_1_alg».proof.Defs
import proofs.«424757_j85409719648815_1_alg».proof.Proof.Gen.Kernel
import proofs.«424757_j85409719648815_1_alg».proof.Proof.Gen.Kernel.Skeleton
import proofs.«424757_j85409719648815_1_alg».proof.Proof.Gen.Kernel.Launch
import proofs.«424757_j85409719648815_1_alg».proof.Proof.Gen.Kernel.Points
import proofs.«424757_j85409719648815_1_alg».proof.Proof.Gen.Kernel.Frame
import proofs.«424757_j85409719648815_1_alg».proof.Proof.Gen.KernelIdeal
import proofs.«424757_j85409719648815_1_alg».proof.Proof.Gen.KernelIdeal.Skeleton
import proofs.«424757_j85409719648815_1_alg».proof.Proof.Gen.KernelIdeal.Launch
import proofs.«424757_j85409719648815_1_alg».proof.Proof.Gen.KernelIdeal.Points
import proofs.«424757_j85409719648815_1_alg».proof.Proof.Gen.KernelIdeal.Frame
import proofs.«424757_j85409719648815_1_alg».proof.Proof.Gen.ReferenceIdeal
import proofs.«424757_j85409719648815_1_alg».proof.Proof.Gen.Pre_finite_inputs
import proofs.«424757_j85409719648815_1_alg».proof.Proof.KRun
import proofs.«424757_j85409719648815_1_alg».proof.Proof.KValue
import proofs.«424757_j85409719648815_1_alg».proof.Proof.RefRun
import proofs.«424757_j85409719648815_1_alg».proof.Proof.RefValue
import proofs.«424757_j85409719648815_1_alg».proof.Proof.Final
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run leaves every buffer at the fold of its operations over the launch contents, and no
    operation writes an argument. -/
theorem frame_referenceIdeal : Cert.frame_ReferenceIdeal := fun m ρ _ =>
  (θ_run Cert.ReferenceIdeal.defs _ _).mono (fun r h c =>
    ⟨(h c _).trans (Cert.ReferenceIdeal.Run.ref_arg0 _),
      (h c _).trans (Cert.ReferenceIdeal.Run.ref_arg1 _),
      (h c _).trans (Cert.ReferenceIdeal.Run.ref_arg2 _),
      (h c _).trans (Cert.ReferenceIdeal.Run.ref_arg3 _),
      (h c _).trans (Cert.ReferenceIdeal.Run.ref_arg4 _),
      (h c _).trans (Cert.ReferenceIdeal.Run.ref_arg5 _),
      (h c _).trans (Cert.ReferenceIdeal.Run.ref_arg6 _),
      (h c _).trans (Cert.ReferenceIdeal.Run.ref_arg7 _),
      (h c _).trans (Cert.ReferenceIdeal.Run.ref_arg8 _),
      (h c _).trans (Cert.ReferenceIdeal.Run.ref_arg9 _),
      (h c _).trans (Cert.ReferenceIdeal.Run.ref_arg10 _),
      (h c _).trans (Cert.ReferenceIdeal.Run.ref_arg11 _),
      (h c _).trans (Cert.ReferenceIdeal.Run.ref_arg12 _)⟩)
    (Cert.ReferenceIdeal.Run.run_main m ρ)

/-- The two idealized programs end with equal results: the kernel program's result buffer is `kOut` of the launch
    arguments, the reference's is `refOut` of its own, the two functions are one, and the launch arguments agree. -/
theorem algebraic : Cert.algebraic_KernelIdeal_ReferenceIdeal := by
  intro m ρ m' ρ' _ hagree
  refine ⟨fun c => Cert.KernelIdeal.Walk.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Walk.result_eq m ρ c), (h c).2⟩)
      (Cert.KernelIdeal.Gen.run_value m ρ)
  · refine (θ_run Cert.ReferenceIdeal.defs _ _).mono (fun r h c => ⟨?_,
      (h c _).trans (Cert.ReferenceIdeal.Run.ref_arg0 _),
      (h c _).trans (Cert.ReferenceIdeal.Run.ref_arg1 _),
      (h c _).trans (Cert.ReferenceIdeal.Run.ref_arg2 _),
      (h c _).trans (Cert.ReferenceIdeal.Run.ref_arg3 _),
      (h c _).trans (Cert.ReferenceIdeal.Run.ref_arg4 _),
      (h c _).trans (Cert.ReferenceIdeal.Run.ref_arg5 _),
      (h c _).trans (Cert.ReferenceIdeal.Run.ref_arg6 _),
      (h c _).trans (Cert.ReferenceIdeal.Run.ref_arg7 _),
      (h c _).trans (Cert.ReferenceIdeal.Run.ref_arg8 _),
      (h c _).trans (Cert.ReferenceIdeal.Run.ref_arg9 _),
      (h c _).trans (Cert.ReferenceIdeal.Run.ref_arg10 _),
      (h c _).trans (Cert.ReferenceIdeal.Run.ref_arg11 _),
      (h c _).trans (Cert.ReferenceIdeal.Run.ref_arg12 _)⟩)
      (Cert.ReferenceIdeal.Run.run_main m' ρ')
    refine (h c _).trans ((Cert.ReferenceIdeal.Run.ref_value _).trans ?_)
    show Cert.ReferenceIdeal.Run.refOut
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    exact Cert.Final.out_eq _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
